-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)) →
    ∃ (v0 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v123) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S50000 : Shape := ⟨1, ![50000]⟩
abbrev S128x256 : Shape := ⟨2, ![128, 256]⟩
abbrev S256 : Shape := ⟨1, ![256]⟩
abbrev S256x256 : Shape := ⟨2, ![256, 256]⟩
abbrev S256x32 : Shape := ⟨2, ![256, 32]⟩
abbrev S32 : Shape := ⟨1, ![32]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x32 : S_.BroadcastsInDim S256x32 (![] : Fin 0 → Fin S256x32.rank)
  reducesTo_S256x32_S_d0_1 : S256x32.ReducesTo [0, 1] S_
  bcast_S_S32 : S_.BroadcastsInDim S32 (![] : Fin 0 → Fin S32.rank)
  reducesTo_S32_S_d0 : S32.ReducesTo [0] S_

variable [Facts]

def fn_part7 {F : FTy → Type} [FloatOps F] (main_arg28 : FVec F S32 .f32) (main_arg29 : FVec F S32 .f32) (main_v118 : IVec S_ 1) (main_v119 : FVec F S32 .f32) : IVec S_ 1 :=
  let main_cst_46 : FVec F S_ .f32 := constant S_ .f32 0x7F800000#32
  let main_v120 : FVec F S32 .f32 := broadcastInDim S32 ![] bcast_S_S32 main_cst_46
  let main_v121 : IVec S32 1 := cmpf .olt main_v119 main_v120
  let main_c_47 : IVec S_ 1 := constantI S_ 1 1#1
  let main_v122 : IVec S_ 1 := (fun x v => Host.reduce IntOp.andi x v reducesTo_S32_S_d0 h_S_) main_v121 main_c_47
  let main_v123 : IVec S_ 1 := andi main_v118 main_v122
  let main_v124 : FVec F S32 .f32 := Host.absf main_arg28
  let main_cst_48 : FVec F S_ .f32 := constant S_ .f32 0x7F800000#32
  let main_v125 : FVec F S32 .f32 := broadcastInDim S32 ![] bcast_S_S32 main_cst_48
  let main_v126 : IVec S32 1 := cmpf .olt main_v124 main_v125
  let main_c_49 : IVec S_ 1 := constantI S_ 1 1#1
  let main_v127 : IVec S_ 1 := (fun x v => Host.reduce IntOp.andi x v reducesTo_S32_S_d0 h_S_) main_v126 main_c_49
  let main_v128 : IVec S_ 1 := andi main_v123 main_v127
  let main_v129 : FVec F S32 .f32 := Host.absf main_arg29
  let main_cst_50 : FVec F S_ .f32 := constant S_ .f32 0x7F800000#32
  let main_v130 : FVec F S32 .f32 := broadcastInDim S32 ![] bcast_S_S32 main_cst_50
  let main_v131 : IVec S32 1 := cmpf .olt main_v129 main_v130
  let main_c_51 : IVec S_ 1 := constantI S_ 1 1#1
  let main_v132 : IVec S_ 1 := (fun x v => Host.reduce IntOp.andi x v reducesTo_S32_S_d0 h_S_) main_v131 main_c_51
  let main_v133 : IVec S_ 1 := andi main_v128 main_v132
  main_v133

def fn_part6 {F : FTy → Type} [FloatOps F] (main_arg24 : FVec F S256x32 .f32) (main_arg25 : FVec F S32 .f32) (main_arg26 : FVec F S32 .f32) (main_arg27 : FVec F S32 .f32) (main_arg28 : FVec F S32 .f32) (main_arg29 : FVec F S32 .f32) (main_v98 : IVec S_ 1) (main_v101 : IVec S32 1) (main_c_39 : IVec S_ 1) : IVec S_ 1 :=
  let main_v102 : IVec S_ 1 := (fun x v => Host.reduce IntOp.andi x v reducesTo_S32_S_d0 h_S_) main_v101 main_c_39
  let main_v103 : IVec S_ 1 := andi main_v98 main_v102
  let main_v104 : FVec F S256x32 .f32 := Host.absf main_arg24
  let main_cst_40 : FVec F S_ .f32 := constant S_ .f32 0x7F800000#32
  let main_v105 : FVec F S256x32 .f32 := broadcastInDim S256x32 ![] bcast_S_S256x32 main_cst_40
  let main_v106 : IVec S256x32 1 := cmpf .olt main_v104 main_v105
  let main_c_41 : IVec S_ 1 := constantI S_ 1 1#1
  let main_v107 : IVec S_ 1 := (fun x v => Host.reduce IntOp.andi x v reducesTo_S256x32_S_d0_1 h_S_) main_v106 main_c_41
  let main_v108 : IVec S_ 1 := andi main_v103 main_v107
  let main_v109 : FVec F S32 .f32 := Host.absf main_arg25
  let main_cst_42 : FVec F S_ .f32 := constant S_ .f32 0x7F800000#32
  let main_v110 : FVec F S32 .f32 := broadcastInDim S32 ![] bcast_S_S32 main_cst_42
  let main_v111 : IVec S32 1 := cmpf .olt main_v109 main_v110
  let main_c_43 : IVec S_ 1 := constantI S_ 1 1#1
  let main_v112 : IVec S_ 1 := (fun x v => Host.reduce IntOp.andi x v reducesTo_S32_S_d0 h_S_) main_v111 main_c_43
  let main_v113 : IVec S_ 1 := andi main_v108 main_v112
  let main_v114 : FVec F S32 .f32 := Host.absf main_arg26
  let main_cst_44 : FVec F S_ .f32 := constant S_ .f32 0x7F800000#32
  let main_v115 : FVec F S32 .f32 := broadcastInDim S32 ![] bcast_S_S32 main_cst_44
  let main_v116 : IVec S32 1 := cmpf .olt main_v114 main_v115
  let main_c_45 : IVec S_ 1 := constantI S_ 1 1#1
  let main_v117 : IVec S_ 1 := (fun x v => Host.reduce IntOp.andi x v reducesTo_S32_S_d0 h_S_) main_v116 main_c_45
  let main_v118 : IVec S_ 1 := andi main_v113 main_v117
  let main_v119 : FVec F S32 .f32 := Host.absf main_arg27
  fn_part7 (F := F) main_arg28 main_arg29 main_v118 main_v119

def fn_part5 {F : FTy → Type} [FloatOps F] (main_arg21 : FVec F S32 .f32) (main_arg22 : FVec F S32 .f32) (main_arg23 : FVec F S32 .f32) (main_arg24 : FVec F S256x32 .f32) (main_arg25 : FVec F S32 .f32) (main_arg26 : FVec F S32 .f32) (main_arg27 : FVec F S32 .f32) (main_arg28 : FVec F S32 .f32) (main_arg29 : FVec F S32 .f32) (main_v83 : IVec S_ 1) (main_v84 : FVec F S32 .f32) (main_cst_32 : FVec F S_ .f32) : IVec S_ 1 :=
  let main_v85 : FVec F S32 .f32 := broadcastInDim S32 ![] bcast_S_S32 main_cst_32
  let main_v86 : IVec S32 1 := cmpf .olt main_v84 main_v85
  let main_c_33 : IVec S_ 1 := constantI S_ 1 1#1
  let main_v87 : IVec S_ 1 := (fun x v => Host.reduce IntOp.andi x v reducesTo_S32_S_d0 h_S_) main_v86 main_c_33
  let main_v88 : IVec S_ 1 := andi main_v83 main_v87
  let main_v89 : FVec F S32 .f32 := Host.absf main_arg21
  let main_cst_34 : FVec F S_ .f32 := constant S_ .f32 0x7F800000#32
  let main_v90 : FVec F S32 .f32 := broadcastInDim S32 ![] bcast_S_S32 main_cst_34
  let main_v91 : IVec S32 1 := cmpf .olt main_v89 main_v90
  let main_c_35 : IVec S_ 1 := constantI S_ 1 1#1
  let main_v92 : IVec S_ 1 := (fun x v => Host.reduce IntOp.andi x v reducesTo_S32_S_d0 h_S_) main_v91 main_c_35
  let main_v93 : IVec S_ 1 := andi main_v88 main_v92
  let main_v94 : FVec F S32 .f32 := Host.absf main_arg22
  let main_cst_36 : FVec F S_ .f32 := constant S_ .f32 0x7F800000#32
  let main_v95 : FVec F S32 .f32 := broadcastInDim S32 ![] bcast_S_S32 main_cst_36
  let main_v96 : IVec S32 1 := cmpf .olt main_v94 main_v95
  let main_c_37 : IVec S_ 1 := constantI S_ 1 1#1
  let main_v97 : IVec S_ 1 := (fun x v => Host.reduce IntOp.andi x v reducesTo_S32_S_d0 h_S_) main_v96 main_c_37
  let main_v98 : IVec S_ 1 := andi main_v93 main_v97
  let main_v99 : FVec F S32 .f32 := Host.absf main_arg23
  let main_cst_38 : FVec F S_ .f32 := constant S_ .f32 0x7F800000#32
  let main_v100 : FVec F S32 .f32 := broadcastInDim S32 ![] bcast_S_S32 main_cst_38
  let main_v101 : IVec S32 1 := cmpf .olt main_v99 main_v100
  let main_c_39 : IVec S_ 1 := constantI S_ 1 1#1
  fn_part6 (F := F) main_arg24 main_arg25 main_arg26 main_arg27 main_arg28 main_arg29 main_v98 main_v101 main_c_39

def fn_part4 {F : FTy → Type} [FloatOps F] (main_arg17 : FVec F S256 .f32) (main_arg18 : FVec F S256x32 .f32) (main_arg19 : FVec F S32 .f32) (main_arg20 : FVec F S32 .f32) (main_arg21 : FVec F S32 .f32) (main_arg22 : FVec F S32 .f32) (main_arg23 : FVec F S32 .f32) (main_arg24 : FVec F S256x32 .f32) (main_arg25 : FVec F S32 .f32) (main_arg26 : FVec F S32 .f32) (main_arg27 : FVec F S32 .f32) (main_arg28 : FVec F S32 .f32) (main_arg29 : FVec F S32 .f32) (main_v63 : IVec S_ 1) (main_v67 : IVec S_ 1) : IVec S_ 1 :=
  let main_v68 : IVec S_ 1 := andi main_v63 main_v67
  let main_v69 : FVec F S256 .f32 := Host.absf main_arg17
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S256x32 .f32 := Host.absf main_arg18
  let main_cst_28 : FVec F S_ .f32 := constant S_ .f32 0x7F800000#32
  let main_v75 : FVec F S256x32 .f32 := broadcastInDim S256x32 ![] bcast_S_S256x32 main_cst_28
  let main_v76 : IVec S256x32 1 := cmpf .olt main_v74 main_v75
  let main_c_29 : IVec S_ 1 := constantI S_ 1 1#1
  let main_v77 : IVec S_ 1 := (fun x v => Host.reduce IntOp.andi x v reducesTo_S256x32_S_d0_1 h_S_) main_v76 main_c_29
  let main_v78 : IVec S_ 1 := andi main_v73 main_v77
  let main_v79 : FVec F S32 .f32 := Host.absf main_arg19
  let main_cst_30 : FVec F S_ .f32 := constant S_ .f32 0x7F800000#32
  let main_v80 : FVec F S32 .f32 := broadcastInDim S32 ![] bcast_S_S32 main_cst_30
  let main_v81 : IVec S32 1 := cmpf .olt main_v79 main_v80
  let main_c_31 : IVec S_ 1 := constantI S_ 1 1#1
  let main_v82 : IVec S_ 1 := (fun x v => Host.reduce IntOp.andi x v reducesTo_S32_S_d0 h_S_) main_v81 main_c_31
  let main_v83 : IVec S_ 1 := andi main_v78 main_v82
  let main_v84 : FVec F S32 .f32 := Host.absf main_arg20
  let main_cst_32 : FVec F S_ .f32 := constant S_ .f32 0x7F800000#32
  fn_part5 (F := F) main_arg21 main_arg22 main_arg23 main_arg24 main_arg25 main_arg26 main_arg27 main_arg28 main_arg29 main_v83 main_v84 main_cst_32

def fn_part3 {F : FTy → Type} [FloatOps F] (main_arg14 : FVec F S256 .f32) (main_arg15 : FVec F S256 .f32) (main_arg16 : FVec F S256 .f32) (main_arg17 : FVec F S256 .f32) (main_arg18 : FVec F S256x32 .f32) (main_arg19 : FVec F S32 .f32) (main_arg20 : FVec F S32 .f32) (main_arg21 : FVec F S32 .f32) (main_arg22 : FVec F S32 .f32) (main_arg23 : FVec F S32 .f32) (main_arg24 : FVec F S256x32 .f32) (main_arg25 : FVec F S32 .f32) (main_arg26 : FVec F S32 .f32) (main_arg27 : FVec F S32 .f32) (main_arg28 : FVec F S32 .f32) (main_arg29 : FVec F S32 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256 .f32 := Host.absf main_arg14
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256 .f32 := Host.absf main_arg15
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256 .f32 := Host.absf main_arg16
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg17 main_arg18 main_arg19 main_arg20 main_arg21 main_arg22 main_arg23 main_arg24 main_arg25 main_arg26 main_arg27 main_arg28 main_arg29 main_v63 main_v67

def fn_part2 {F : FTy → Type} [FloatOps F] (main_arg10 : FVec F S256 .f32) (main_arg11 : FVec F S256x256 .f32) (main_arg12 : FVec F S256x256 .f32) (main_arg13 : FVec F S256 .f32) (main_arg14 : FVec F S256 .f32) (main_arg15 : FVec F S256 .f32) (main_arg16 : FVec F S256 .f32) (main_arg17 : FVec F S256 .f32) (main_arg18 : FVec F S256x32 .f32) (main_arg19 : FVec F S32 .f32) (main_arg20 : FVec F S32 .f32) (main_arg21 : FVec F S32 .f32) (main_arg22 : FVec F S32 .f32) (main_arg23 : FVec F S32 .f32) (main_arg24 : FVec F S256x32 .f32) (main_arg25 : FVec F S32 .f32) (main_arg26 : FVec F S32 .f32) (main_arg27 : FVec F S32 .f32) (main_arg28 : FVec F S32 .f32) (main_arg29 : FVec F S32 .f32) (main_v33 : IVec S_ 1) : IVec S_ 1 :=
  let main_v34 : FVec F S256 .f32 := Host.absf main_arg10
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x256 .f32 := Host.absf main_arg11
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256x256 .f32 := Host.absf main_arg12
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg13
  let main_cst_18 : FVec F S_ .f32 := constant S_ .f32 0x7F800000#32
  let main_v50 : FVec F S256 .f32 := broadcastInDim S256 ![] bcast_S_S256 main_cst_18
  fn_part3 (F := F) main_arg14 main_arg15 main_arg16 main_arg17 main_arg18 main_arg19 main_arg20 main_arg21 main_arg22 main_arg23 main_arg24 main_arg25 main_arg26 main_arg27 main_arg28 main_arg29 main_v48 main_v49 main_v50

def fn_part1 {F : FTy → Type} [FloatOps F] (main_arg7 : FVec F S256 .f32) (main_arg8 : FVec F S256 .f32) (main_arg9 : FVec F S256 .f32) (main_arg10 : FVec F S256 .f32) (main_arg11 : FVec F S256x256 .f32) (main_arg12 : FVec F S256x256 .f32) (main_arg13 : FVec F S256 .f32) (main_arg14 : FVec F S256 .f32) (main_arg15 : FVec F S256 .f32) (main_arg16 : FVec F S256 .f32) (main_arg17 : FVec F S256 .f32) (main_arg18 : FVec F S256x32 .f32) (main_arg19 : FVec F S32 .f32) (main_arg20 : FVec F S32 .f32) (main_arg21 : FVec F S32 .f32) (main_arg22 : FVec F S32 .f32) (main_arg23 : FVec F S32 .f32) (main_arg24 : FVec F S256x32 .f32) (main_arg25 : FVec F S32 .f32) (main_arg26 : FVec F S32 .f32) (main_arg27 : FVec F S32 .f32) (main_arg28 : FVec F S32 .f32) (main_arg29 : FVec F S32 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg7
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg8
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg9
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg10 main_arg11 main_arg12 main_arg13 main_arg14 main_arg15 main_arg16 main_arg17 main_arg18 main_arg19 main_arg20 main_arg21 main_arg22 main_arg23 main_arg24 main_arg25 main_arg26 main_arg27 main_arg28 main_arg29 main_v33

def fn {F : FTy → Type} [FloatOps F] (main_arg0 : FVec F S50000x128 .f32) (main_arg1 : IVec S800000 32) (main_arg2 : IVec S800000 32) (main_arg3 : IVec S50000 32) (main_arg4 : FVec F S128x256 .f32) (main_arg5 : FVec F S128x256 .f32) (main_arg6 : FVec F S256 .f32) (main_arg7 : FVec F S256 .f32) (main_arg8 : FVec F S256 .f32) (main_arg9 : FVec F S256 .f32) (main_arg10 : FVec F S256 .f32) (main_arg11 : FVec F S256x256 .f32) (main_arg12 : FVec F S256x256 .f32) (main_arg13 : FVec F S256 .f32) (main_arg14 : FVec F S256 .f32) (main_arg15 : FVec F S256 .f32) (main_arg16 : FVec F S256 .f32) (main_arg17 : FVec F S256 .f32) (main_arg18 : FVec F S256x32 .f32) (main_arg19 : FVec F S32 .f32) (main_arg20 : FVec F S32 .f32) (main_arg21 : FVec F S32 .f32) (main_arg22 : FVec F S32 .f32) (main_arg23 : FVec F S32 .f32) (main_arg24 : FVec F S256x32 .f32) (main_arg25 : FVec F S32 .f32) (main_arg26 : FVec F S32 .f32) (main_arg27 : FVec F S32 .f32) (main_arg28 : FVec F S32 .f32) (main_arg29 : FVec F S32 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg4
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128x256 .f32 := Host.absf main_arg5
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg6
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_v13 main_v16
-- ==== Kernel.lean ====
abbrev S50000x128 : Shape := ⟨2, ![50000, 128]⟩
abbrev S800000 : Shape := ⟨1, ![800000]⟩
abbrev S50000 : Shape := ⟨1, ![50000]⟩
abbrev S128x256 : Shape := ⟨2, ![128, 256]⟩
abbrev S256 : Shape := ⟨1, ![256]⟩
abbrev S256x256 : Shape := ⟨2, ![256, 256]⟩
abbrev S256x32 : Shape := ⟨2, ![256, 32]⟩
abbrev S32 : Shape := ⟨1, ![32]⟩
abbrev S_ : Shape := ⟨0, ![]⟩
abbrev S800000x1 : Shape := ⟨2, ![800000, 1]⟩
abbrev S50000x1 : Shape := ⟨2, ![50000, 1]⟩
abbrev S800000x128 : Shape := ⟨2, ![800000, 128]⟩
abbrev S1x256 : Shape := ⟨2, ![1, 256]⟩
abbrev S50000x256 : Shape := ⟨2, ![50000, 256]⟩
abbrev S25x256x256 : Shape := ⟨3, ![25, 256, 256]⟩
abbrev S2000x128 : Shape := ⟨2, ![2000, 128]⟩
abbrev S2000x1 : Shape := ⟨2, ![2000, 1]⟩
abbrev S2000x256 : Shape := ⟨2, ![2000, 256]⟩
abbrev S1x256x256 : Shape := ⟨3, ![1, 256, 256]⟩
abbrev S800000x256 : Shape := ⟨2, ![800000, 256]⟩
abbrev S1x32 : Shape := ⟨2, ![1, 32]⟩
abbrev S256x1 : Shape := ⟨2, ![256, 1]⟩

abbrev nBuf : Space → Nat
  | .hbm => 116
  | .vmem => 49
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S50000, .i32⟩
  | .hbm, ⟨4, _⟩ => ⟨S128x256, .f32⟩
  | .hbm, ⟨5, _⟩ => ⟨S128x256, .f32⟩
  | .hbm, ⟨6, _⟩ => ⟨S256, .f32⟩
  | .hbm, ⟨7, _⟩ => ⟨S256, .f32⟩
  | .hbm, ⟨8, _⟩ => ⟨S256, .f32⟩
  | .hbm, ⟨9, _⟩ => ⟨S256, .f32⟩
  | .hbm, ⟨10, _⟩ => ⟨S256, .f32⟩
  | .hbm, ⟨11, _⟩ => ⟨S256x256, .f32⟩
  | .hbm, ⟨12, _⟩ => ⟨S256x256, .f32⟩
  | .hbm, ⟨13, _⟩ => ⟨S256, .f32⟩
  | .hbm, ⟨14, _⟩ => ⟨S256, .f32⟩
  | .hbm, ⟨15, _⟩ => ⟨S256, .f32⟩
  | .hbm, ⟨16, _⟩ => ⟨S256, .f32⟩
  | .hbm, ⟨17, _⟩ => ⟨S256, .f32⟩
  | .hbm, ⟨18, _⟩ => ⟨S256x32, .f32⟩
  | .hbm, ⟨19, _⟩ => ⟨S32, .f32⟩
  | .hbm, ⟨20, _⟩ => ⟨S32, .f32⟩
  | .hbm, ⟨21, _⟩ => ⟨S32, .f32⟩
  | .hbm, ⟨22, _⟩ => ⟨S32, .f32⟩
  | .hbm, ⟨23, _⟩ => ⟨S32, .f32⟩
  | .hbm, ⟨24, _⟩ => ⟨S256x32, .f32⟩
  | .hbm, ⟨25, _⟩ => ⟨S32, .f32⟩
  | .hbm, ⟨26, _⟩ => ⟨S32, .f32⟩
  | .hbm, ⟨27, _⟩ => ⟨S32, .f32⟩
  | .hbm, ⟨28, _⟩ => ⟨S32, .f32⟩
  | .hbm, ⟨29, _⟩ => ⟨S32, .f32⟩
  | .hbm, ⟨30, _⟩ => ⟨S_, .f32⟩
  | .hbm, ⟨31, _⟩ => ⟨S800000, .f32⟩
  | .hbm, ⟨32, _⟩ => ⟨S_, .f32⟩
  | .hbm, ⟨33, _⟩ => ⟨S50000, .f32⟩
  | .hbm, ⟨34, _⟩ => ⟨S800000x1, .i32⟩
  | .hbm, ⟨35, _⟩ => ⟨S50000, .f32⟩
  | .hbm, ⟨36, _⟩ => ⟨S_, .f32⟩
  | .hbm, ⟨37, _⟩ => ⟨S50000, .f32⟩
  | .hbm, ⟨38, _⟩ => ⟨S50000, .i1⟩
  | .hbm, ⟨39, _⟩ => ⟨S_, .f32⟩
  | .hbm, ⟨40, _⟩ => ⟨S50000, .f32⟩
  | .hbm, ⟨41, _⟩ => ⟨S50000, .f32⟩
  | .hbm, ⟨42, _⟩ => ⟨S_, .f32⟩
  | .hbm, ⟨43, _⟩ => ⟨S50000, .f32⟩
  | .hbm, ⟨44, _⟩ => ⟨S50000, .f32⟩
  | .hbm, ⟨45, _⟩ => ⟨S_, .f32⟩
  | .hbm, ⟨46, _⟩ => ⟨S_, .f32⟩
  | .hbm, ⟨47, _⟩ => ⟨S50000, .f32⟩
  | .hbm, ⟨48, _⟩ => ⟨S50000, .f32⟩
  | .hbm, ⟨49, _⟩ => ⟨S50000x1, .f32⟩
  | .hbm, ⟨50, _⟩ => ⟨S128x256, .bf16⟩
  | .hbm, ⟨51, _⟩ => ⟨S128x256, .bf16⟩
  | .hbm, ⟨52, _⟩ => ⟨S256x256, .bf16⟩
  | .hbm, ⟨53, _⟩ => ⟨S256x256, .bf16⟩
  | .hbm, ⟨54, _⟩ => ⟨S256x32, .bf16⟩
  | .hbm, ⟨55, _⟩ => ⟨S256x32, .bf16⟩
  | .hbm, ⟨56, _⟩ => ⟨S50000x1, .i32⟩
  | .hbm, ⟨57, _⟩ => ⟨S50000x128, .bf16⟩
  | .hbm, ⟨58, _⟩ => ⟨S_, .i32⟩
  | .hbm, ⟨59, _⟩ => ⟨S800000, .i32⟩
  | .hbm, ⟨60, _⟩ => ⟨S800000, .i1⟩
  | .hbm, ⟨61, _⟩ => ⟨S_, .i32⟩
  | .hbm, ⟨62, _⟩ => ⟨S800000, .i32⟩
  | .hbm, ⟨63, _⟩ => ⟨S800000, .i32⟩
  | .hbm, ⟨64, _⟩ => ⟨S800000, .i32⟩
  | .hbm, ⟨65, _⟩ => ⟨S800000x1, .i32⟩
  | .hbm, ⟨66, _⟩ => ⟨S800000x128, .bf16⟩
  | .hbm, ⟨67, _⟩ => ⟨S800000x128, .f32⟩
  | .hbm, ⟨68, _⟩ => ⟨S_, .f32⟩
  | .hbm, ⟨69, _⟩ => ⟨S50000x128, .f32⟩
  | .hbm, ⟨70, _⟩ => ⟨S800000x1, .i32⟩
  | .hbm, ⟨71, _⟩ => ⟨S50000x128, .f32⟩
  | .hbm, ⟨72, _⟩ => ⟨S50000x128, .f32⟩
  | .hbm, ⟨73, _⟩ => ⟨S50000x128, .f32⟩
  | .hbm, ⟨74, _⟩ => ⟨S1x256, .f32⟩
  | .hbm, ⟨75, _⟩ => ⟨S1x256, .f32⟩
  | .hbm, ⟨76, _⟩ => ⟨S1x256, .f32⟩
  | .hbm, ⟨77, _⟩ => ⟨S1x256, .f32⟩
  | .hbm, ⟨78, _⟩ => ⟨S1x256, .f32⟩
  | .hbm, ⟨79, _⟩ => ⟨S50000x256, .f32⟩
  | .hbm, ⟨80, _⟩ => ⟨S25x256x256, .f32⟩
  | .hbm, ⟨81, _⟩ => ⟨S50000x256, .bf16⟩
  | .hbm, ⟨82, _⟩ => ⟨S_, .i32⟩
  | .hbm, ⟨83, _⟩ => ⟨S800000, .i32⟩
  | .hbm, ⟨84, _⟩ => ⟨S800000, .i1⟩
  | .hbm, ⟨85, _⟩ => ⟨S_, .i32⟩
  | .hbm, ⟨86, _⟩ => ⟨S800000, .i32⟩
  | .hbm, ⟨87, _⟩ => ⟨S800000, .i32⟩
  | .hbm, ⟨88, _⟩ => ⟨S800000, .i32⟩
  | .hbm, ⟨89, _⟩ => ⟨S800000x1, .i32⟩
  | .hbm, ⟨90, _⟩ => ⟨S800000x256, .bf16⟩
  | .hbm, ⟨91, _⟩ => ⟨S800000x256, .f32⟩
  | .hbm, ⟨92, _⟩ => ⟨S_, .f32⟩
  | .hbm, ⟨93, _⟩ => ⟨S50000x256, .f32⟩
  | .hbm, ⟨94, _⟩ => ⟨S800000x1, .i32⟩
  | .hbm, ⟨95, _⟩ => ⟨S50000x256, .f32⟩
  | .hbm, ⟨96, _⟩ => ⟨S50000x256, .f32⟩
  | .hbm, ⟨97, _⟩ => ⟨S50000x256, .f32⟩
  | .hbm, ⟨98, _⟩ => ⟨S1x256, .f32⟩
  | .hbm, ⟨99, _⟩ => ⟨S1x256, .f32⟩
  | .hbm, ⟨100, _⟩ => ⟨S1x256, .f32⟩
  | .hbm, ⟨101, _⟩ => ⟨S1x256, .f32⟩
  | .hbm, ⟨102, _⟩ => ⟨S1x256, .f32⟩
  | .hbm, ⟨103, _⟩ => ⟨S50000x256, .f32⟩
  | .hbm, ⟨104, _⟩ => ⟨S25x256x256, .f32⟩
  | .hbm, ⟨105, _⟩ => ⟨S1x32, .f32⟩
  | .hbm, ⟨106, _⟩ => ⟨S1x32, .f32⟩
  | .hbm, ⟨107, _⟩ => ⟨S1x32, .f32⟩
  | .hbm, ⟨108, _⟩ => ⟨S1x32, .f32⟩
  | .hbm, ⟨109, _⟩ => ⟨S1x32, .f32⟩
  | .hbm, ⟨110, _⟩ => ⟨S1x32, .f32⟩
  | .hbm, ⟨111, _⟩ => ⟨S1x32, .f32⟩
  | .hbm, ⟨112, _⟩ => ⟨S1x32, .f32⟩
  | .hbm, ⟨113, _⟩ => ⟨S1x32, .f32⟩
  | .hbm, ⟨114, _⟩ => ⟨S1x32, .f32⟩
  | .hbm, ⟨115, _⟩ => ⟨S256x32, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x1, .i32⟩
  | .local _ .vmem, ⟨5, _⟩ => ⟨S2000x1, .i32⟩
  | .local _ .vmem, ⟨6, _⟩ => ⟨S128x256, .bf16⟩
  | .local _ .vmem, ⟨7, _⟩ => ⟨S128x256, .bf16⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S1x256, .f32⟩
  | .local _ .vmem, ⟨13, _⟩ => ⟨S2000x256, .f32⟩
  | .local _ .vmem, ⟨14, _⟩ => ⟨S2000x256, .f32⟩
  | .local _ .vmem, ⟨15, _⟩ => ⟨S1x256x256, .f32⟩
  | .local _ .vmem, ⟨16, _⟩ => ⟨S1x256x256, .f32⟩
  | .local _ .vmem, ⟨17, _⟩ => ⟨S2000x256, .f32⟩
  | .local _ .vmem, ⟨18, _⟩ => ⟨S2000x256, .f32⟩
  | .local _ .vmem, ⟨19, _⟩ => ⟨S2000x256, .f32⟩
  | .local _ .vmem, ⟨20, _⟩ => ⟨S2000x256, .f32⟩
  | .local _ .vmem, ⟨21, _⟩ => ⟨S2000x1, .i32⟩
  | .local _ .vmem, ⟨22, _⟩ => ⟨S2000x1, .i32⟩
  | .local _ .vmem, ⟨23, _⟩ => ⟨S256x256, .bf16⟩
  | .local _ .vmem, ⟨24, _⟩ => ⟨S256x256, .bf16⟩
  | .local _ .vmem, ⟨25, _⟩ => ⟨S1x256, .f32⟩
  | .local _ .vmem, ⟨26, _⟩ => ⟨S1x256, .f32⟩
  | .local _ .vmem, ⟨27, _⟩ => ⟨S1x256, .f32⟩
  | .local _ .vmem, ⟨28, _⟩ => ⟨S1x256, .f32⟩
  | .local _ .vmem, ⟨29, _⟩ => ⟨S1x256, .f32⟩
  | .local _ .vmem, ⟨30, _⟩ => ⟨S2000x256, .f32⟩
  | .local _ .vmem, ⟨31, _⟩ => ⟨S2000x256, .f32⟩
  | .local _ .vmem, ⟨32, _⟩ => ⟨S1x256x256, .f32⟩
  | .local _ .vmem, ⟨33, _⟩ => ⟨S1x256x256, .f32⟩
  | .local _ .vmem, ⟨34, _⟩ => ⟨S25x256x256, .f32⟩
  | .local _ .vmem, ⟨35, _⟩ => ⟨S25x256x256, .f32⟩
  | .local _ .vmem, ⟨36, _⟩ => ⟨S256x32, .bf16⟩
  | .local _ .vmem, ⟨37, _⟩ => ⟨S1x32, .f32⟩
  | .local _ .vmem, ⟨38, _⟩ => ⟨S1x32, .f32⟩
  | .local _ .vmem, ⟨39, _⟩ => ⟨S1x32, .f32⟩
  | .local _ .vmem, ⟨40, _⟩ => ⟨S1x32, .f32⟩
  | .local _ .vmem, ⟨41, _⟩ => ⟨S1x32, .f32⟩
  | .local _ .vmem, ⟨42, _⟩ => ⟨S256x32, .bf16⟩
  | .local _ .vmem, ⟨43, _⟩ => ⟨S1x32, .f32⟩
  | .local _ .vmem, ⟨44, _⟩ => ⟨S1x32, .f32⟩
  | .local _ .vmem, ⟨45, _⟩ => ⟨S1x32, .f32⟩
  | .local _ .vmem, ⟨46, _⟩ => ⟨S1x32, .f32⟩
  | .local _ .vmem, ⟨47, _⟩ => ⟨S1x32, .f32⟩
  | .local _ .vmem, ⟨48, _⟩ => ⟨S256x32, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | _, _ => false

abbrev semScoped : Fin 0 → Bool
  | ⟨_, h⟩ => absurd h (Nat.not_lt_zero _)

abbrev dmaSemScoped : Fin 49 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | _ => false

abbrev sig : RefSig :=
  ofTc nBuf bufTy 0 49 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_cst : Ref sig .tc := ⟨.hbm, 30, rfl⟩
abbrev main_v0 : Ref sig .tc := ⟨.hbm, 31, rfl⟩
abbrev main_cst_0 : Ref sig .tc := ⟨.hbm, 32, rfl⟩
abbrev main_v1 : Ref sig .tc := ⟨.hbm, 33, rfl⟩
abbrev main_v2 : Ref sig .tc := ⟨.hbm, 34, rfl⟩
abbrev main_v3 : Ref sig .tc := ⟨.hbm, 35, rfl⟩
abbrev main_cst_1 : Ref sig .tc := ⟨.hbm, 36, rfl⟩
abbrev main_v4 : Ref sig .tc := ⟨.hbm, 37, rfl⟩
abbrev main_v5 : Ref sig .tc := ⟨.hbm, 38, rfl⟩
abbrev main_cst_2 : Ref sig .tc := ⟨.hbm, 39, rfl⟩
abbrev main_v6 : Ref sig .tc := ⟨.hbm, 40, rfl⟩
abbrev main_v7 : Ref sig .tc := ⟨.hbm, 41, rfl⟩
abbrev main_cst_3 : Ref sig .tc := ⟨.hbm, 42, rfl⟩
abbrev main_v8 : Ref sig .tc := ⟨.hbm, 43, rfl⟩
abbrev main_v9 : Ref sig .tc := ⟨.hbm, 44, rfl⟩
abbrev main_cst_4 : Ref sig .tc := ⟨.hbm, 45, rfl⟩
abbrev main_call0_v0 : Ref sig .tc := ⟨.hbm, 46, rfl⟩
abbrev main_call0_v1 : Ref sig .tc := ⟨.hbm, 47, rfl⟩
abbrev main_v10 : Ref sig .tc := ⟨.hbm, 48, rfl⟩
abbrev main_v11 : Ref sig .tc := ⟨.hbm, 49, rfl⟩
abbrev main_v12 : Ref sig .tc := ⟨.hbm, 50, rfl⟩
abbrev main_v13 : Ref sig .tc := ⟨.hbm, 51, rfl⟩
abbrev main_v14 : Ref sig .tc := ⟨.hbm, 52, rfl⟩
abbrev main_v15 : Ref sig .tc := ⟨.hbm, 53, rfl⟩
abbrev main_v16 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_c : Ref sig .tc := ⟨.hbm, 58, rfl⟩
abbrev main_v20 : Ref sig .tc := ⟨.hbm, 59, rfl⟩
abbrev main_v21 : Ref sig .tc := ⟨.hbm, 60, rfl⟩
abbrev main_c_5 : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_v27 : Ref sig .tc := ⟨.hbm, 67, rfl⟩
abbrev main_cst_6 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38_0 : Ref sig .tc := ⟨.hbm, 79, rfl⟩
abbrev main_v38_1 : Ref sig .tc := ⟨.hbm, 80, rfl⟩
abbrev main_v39 : Ref sig .tc := ⟨.hbm, 81, rfl⟩
abbrev main_c_7 : Ref sig .tc := ⟨.hbm, 82, rfl⟩
abbrev main_v40 : Ref sig .tc := ⟨.hbm, 83, rfl⟩
abbrev main_v41 : Ref sig .tc := ⟨.hbm, 84, rfl⟩
abbrev main_c_8 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_cst_9 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58_0 : Ref sig .tc := ⟨.hbm, 103, rfl⟩
abbrev main_v58_1 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg1_1 : Ref sig .tc := ⟨.vmem, 20, rfl⟩
abbrev cc1_stg2_0 : Ref sig .tc := ⟨.vmem, 21, rfl⟩
abbrev cc1_stg2_1 : Ref sig .tc := ⟨.vmem, 22, rfl⟩
abbrev cc1_stg3_0 : Ref sig .tc := ⟨.vmem, 23, rfl⟩
abbrev cc1_stg4_0 : Ref sig .tc := ⟨.vmem, 24, rfl⟩
abbrev cc1_stg5_0 : Ref sig .tc := ⟨.vmem, 25, rfl⟩
abbrev cc1_stg6_0 : Ref sig .tc := ⟨.vmem, 26, rfl⟩
abbrev cc1_stg7_0 : Ref sig .tc := ⟨.vmem, 27, rfl⟩
abbrev cc1_stg8_0 : Ref sig .tc := ⟨.vmem, 28, rfl⟩
abbrev cc1_stg9_0 : Ref sig .tc := ⟨.vmem, 29, rfl⟩
abbrev cc1_stg10_0 : Ref sig .tc := ⟨.vmem, 30, rfl⟩
abbrev cc1_stg10_1 : Ref sig .tc := ⟨.vmem, 31, rfl⟩
abbrev cc1_stg11_0 : Ref sig .tc := ⟨.vmem, 32, rfl⟩
abbrev cc1_stg11_1 : Ref sig .tc := ⟨.vmem, 33, rfl⟩
abbrev cc2_stg0_0 : Ref sig .tc := ⟨.vmem, 34, rfl⟩
abbrev cc2_stg1_0 : Ref sig .tc := ⟨.vmem, 35, rfl⟩
abbrev cc2_stg2_0 : Ref sig .tc := ⟨.vmem, 36, rfl⟩
abbrev cc2_stg3_0 : Ref sig .tc := ⟨.vmem, 37, rfl⟩
abbrev cc2_stg4_0 : Ref sig .tc := ⟨.vmem, 38, rfl⟩
abbrev cc2_stg5_0 : Ref sig .tc := ⟨.vmem, 39, rfl⟩
abbrev cc2_stg6_0 : Ref sig .tc := ⟨.vmem, 40, rfl⟩
abbrev cc2_stg7_0 : Ref sig .tc := ⟨.vmem, 41, rfl⟩
abbrev cc2_stg8_0 : Ref sig .tc := ⟨.vmem, 42, rfl⟩
abbrev cc2_stg9_0 : Ref sig .tc := ⟨.vmem, 43, rfl⟩
abbrev cc2_stg10_0 : Ref sig .tc := ⟨.vmem, 44, rfl⟩
abbrev cc2_stg11_0 : Ref sig .tc := ⟨.vmem, 45, rfl⟩
abbrev cc2_stg12_0 : Ref sig .tc := ⟨.vmem, 46, rfl⟩
abbrev cc2_stg13_0 : Ref sig .tc := ⟨.vmem, 47, rfl⟩
abbrev cc2_stg14_0 : Ref sig .tc := ⟨.vmem, 48, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc1_sem0_0 : DmaSem sig := 17
abbrev cc1_sem0_1 : DmaSem sig := 18
abbrev cc1_sem1_0 : DmaSem sig := 19
abbrev cc1_sem1_1 : DmaSem sig := 20
abbrev cc1_sem2_0 : DmaSem sig := 21
abbrev cc1_sem2_1 : DmaSem sig := 22
abbrev cc1_sem3_0 : DmaSem sig := 23
abbrev cc1_sem4_0 : DmaSem sig := 24
abbrev cc1_sem5_0 : DmaSem sig := 25
abbrev cc1_sem6_0 : DmaSem sig := 26
abbrev cc1_sem7_0 : DmaSem sig := 27
abbrev cc1_sem8_0 : DmaSem sig := 28
abbrev cc1_sem9_0 : DmaSem sig := 29
abbrev cc1_sem10_0 : DmaSem sig := 30
abbrev cc1_sem10_1 : DmaSem sig := 31
abbrev cc1_sem11_0 : DmaSem sig := 32
abbrev cc1_sem11_1 : DmaSem sig := 33
abbrev cc2_sem0_0 : DmaSem sig := 34
abbrev cc2_sem1_0 : DmaSem sig := 35
abbrev cc2_sem2_0 : DmaSem sig := 36
abbrev cc2_sem3_0 : DmaSem sig := 37
abbrev cc2_sem4_0 : DmaSem sig := 38
abbrev cc2_sem5_0 : DmaSem sig := 39
abbrev cc2_sem6_0 : DmaSem sig := 40
abbrev cc2_sem7_0 : DmaSem sig := 41
abbrev cc2_sem8_0 : DmaSem sig := 42
abbrev cc2_sem9_0 : DmaSem sig := 43
abbrev cc2_sem10_0 : DmaSem sig := 44
abbrev cc2_sem11_0 : DmaSem sig := 45
abbrev cc2_sem12_0 : DmaSem sig := 46
abbrev cc2_sem13_0 : DmaSem sig := 47
abbrev cc2_sem14_0 : DmaSem sig := 48

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S2000x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x256x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x256 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S2000x256 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S1x256x256 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev grid2 : Pipeline.Grid := ⟨1, ![1], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_14 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S25x256x256 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S25x256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S256x32 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x32 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x32 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x32 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S256x32 .bf16 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x32 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x32 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S1x32 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S1x32 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 1 → Memref sig .tc .vmem S1x32 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false]

abbrev stage2_14 : Fin 1 → Memref sig .tc .vmem S256x32 .f32 := fun | 0 => Memref.whole cc2_stg14_0 | ⟨_ + 1, h⟩ => absurd h (Nat.not_lt.2 (Nat.le_add_left _ _))
abbrev sem2_14 : Fin 1 → DmaSem sig := fun | 0 => cc2_sem14_0 | ⟨_ + 1, h⟩ => absurd h (Nat.not_lt.2 (Nat.le_add_left _ _))
abbrev reads2_14 : Fin grid2.rank → Bool := ![false]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bitsLt_bf16_f32 : FTy.bits .bf16 < FTy.bits .f32
  shapeCasts_S50000_S50000x1 : S50000.ShapeCasts S50000x1
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  iota_S1x256_d1_w32 : S1x256.Iotas .tc 32 [1]
  broadcasts_S2000x1_S2000x256 : S2000x1.Broadcasts S2000x256
  natLt_1_32 : 1 < 32
  shapeCasts_S256x256_S1x256x256 : S256x256.ShapeCasts S1x256x256
  inb_S1x256x256_S1x256x256_0_0_0 : ∀ a, (![0, 0, 0] : Fin 3 → Nat) a + S1x256x256.size a ≤ S1x256x256.size a
  h_S1x256x256 : 0 < S1x256x256.numel
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  shapeCasts_S32_S1x32 : S32.ShapeCasts S1x32
  inb_S25x256x256_S25x256x256_0_0_0 : ∀ a, (![0, 0, 0] : Fin 3 → Nat) a + S25x256x256.size a ≤ S25x256x256.size a
  h_S25x256x256 : 0 < S25x256x256.numel
  shapeCasts_S25x256x256_S25x256x256 : S25x256x256.ShapeCasts S25x256x256
  reduces_S25x256x256_S256x256 : S25x256x256.Reduces [0] S256x256
  inb_S256x32_S256x32_0_0 : ∀ a, (![0, 0] : Fin 2 → Nat) a + S256x32.size a ≤ S256x32.size a
  h_S256x32 : 0 < S256x32.numel
  shapeCasts_S256x32_S256x32 : S256x32.ShapeCasts S256x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S256x32 : S1x32.Broadcasts S256x32
  reduces_S256x32_S256 : S256x32.Reduces [1] S256
  shapeCasts_S256_S256x1 : S256.ShapeCasts S256x1
  broadcasts_S256x1_S256x32 : S256x1.Broadcasts S256x32
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x256_S2000x256_1_0_0_1_n_n_wf : DotDims.WF S2000x128 S128x256 S2000x256 [1] [0] [0] [1] [] []
  dot_S2000x256_S2000x256_S256x256_0_0_1_1_n_n_wf : DotDims.WF S2000x256 S2000x256 S256x256 [0] [0] [1] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x256_S2000x256_1_0_0_1_n_n_wf : DotDims.WF S2000x256 S256x256 S2000x256 [1] [0] [0] [1] [] []
  dot_S256x256_S256x32_S256x32_1_0_0_1_n_n_wf : DotDims.WF S256x256 S256x32 S256x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .i32 = 32 ∨ (Rect.block (s := S50000x1) S2000x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .bf16 = 32 ∨ (Rect.block (s := S128x256) S128x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .bf16 = 32 ∨ (Rect.block (s := S128x256) S128x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x256.size a ≤ S1x256.size a
  hwx0_9 : ∀ i : grid0.Coords, EltTy.bits .f32 = 32 ∨ (Rect.block (s := S1x256) S1x256.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2000x256.size a ≤ S50000x256.size a
  hwx0_10 : ∀ i : grid0.Coords, EltTy.bits .f32 = 32 ∨ (Rect.block (s := S50000x256) S2000x256.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x256x256.size a ≤ S25x256x256.size a
  hwx0_11 : ∀ i : grid0.Coords, EltTy.bits .f32 = 32 ∨ (Rect.block (s := S25x256x256) S1x256x256.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .i32 = 32 ∨ (Rect.block (s := S50000x1) S2000x1.size (cc1_transform_2 i) (hinb1_2 i)).WholeWords (EltTy.packing .i32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .bf16 = 32 ∨ (Rect.block (s := S256x256) S256x256.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .bf16 = 32 ∨ (Rect.block (s := S256x256) S256x256.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x256.size a ≤ S1x256.size a
  hwx1_7 : ∀ i : grid1.Coords, EltTy.bits .f32 = 32 ∨ (Rect.block (s := S1x256) S1x256.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x256.size a ≤ S1x256.size a
  hwx1_8 : ∀ i : grid1.Coords, EltTy.bits .f32 = 32 ∨ (Rect.block (s := S1x256) S1x256.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x256.size a ≤ S1x256.size a
  hwx1_9 : ∀ i : grid1.Coords, EltTy.bits .f32 = 32 ∨ (Rect.block (s := S1x256) S1x256.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S2000x256.size a ≤ S50000x256.size a
  hwx1_10 : ∀ i : grid1.Coords, EltTy.bits .f32 = 32 ∨ (Rect.block (s := S50000x256) S2000x256.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S1x256x256.size a ≤ S25x256x256.size a
  hwx1_11 : ∀ i : grid1.Coords, EltTy.bits .f32 = 32 ∨ (Rect.block (s := S25x256x256) S1x256x256.size (cc1_transform_11 i) (hinb1_11 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S25x256x256.size a ≤ S25x256x256.size a
  hwx2_0 : ∀ i : grid2.Coords, EltTy.bits .f32 = 32 ∨ (Rect.block (s := S25x256x256) S25x256x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S25x256x256.size a ≤ S25x256x256.size a
  hwx2_1 : ∀ i : grid2.Coords, EltTy.bits .f32 = 32 ∨ (Rect.block (s := S25x256x256) S25x256x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x32.size a ≤ S256x32.size a
  hwx2_2 : ∀ i : grid2.Coords, EltTy.bits .bf16 = 32 ∨ (Rect.block (s := S256x32) S256x32.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x32.size a ≤ S1x32.size a
  hwx2_3 : ∀ i : grid2.Coords, EltTy.bits .f32 = 32 ∨ (Rect.block (s := S1x32) S1x32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x32.size a ≤ S1x32.size a
  hwx2_4 : ∀ i : grid2.Coords, EltTy.bits .f32 = 32 ∨ (Rect.block (s := S1x32) S1x32.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x32.size a ≤ S1x32.size a
  hwx2_5 : ∀ i : grid2.Coords, EltTy.bits .f32 = 32 ∨ (Rect.block (s := S1x32) S1x32.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x32.size a ≤ S1x32.size a
  hwx2_6 : ∀ i : grid2.Coords, EltTy.bits .f32 = 32 ∨ (Rect.block (s := S1x32) S1x32.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x32.size a ≤ S1x32.size a
  hwx2_7 : ∀ i : grid2.Coords, EltTy.bits .f32 = 32 ∨ (Rect.block (s := S1x32) S1x32.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S256x32.size a ≤ S256x32.size a
  hwx2_8 : ∀ i : grid2.Coords, EltTy.bits .bf16 = 32 ∨ (Rect.block (s := S256x32) S256x32.size (cc2_transform_8 i) (hinb2_8 i)).WholeWords (EltTy.packing .bf16)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x32.size a ≤ S1x32.size a
  hwx2_9 : ∀ i : grid2.Coords, EltTy.bits .f32 = 32 ∨ (Rect.block (s := S1x32) S1x32.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S1x32.size a ≤ S1x32.size a
  hwx2_10 : ∀ i : grid2.Coords, EltTy.bits .f32 = 32 ∨ (Rect.block (s := S1x32) S1x32.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S1x32.size a ≤ S1x32.size a
  hwx2_11 : ∀ i : grid2.Coords, EltTy.bits .f32 = 32 ∨ (Rect.block (s := S1x32) S1x32.size (cc2_transform_11 i) (hinb2_11 i)).WholeWords (EltTy.packing .f32)
  hstage2_12 : ∀ j, (stage2_12 j).IsWhole
  nbuf2_12 : grid2.bufCount reads2_12 true = 1
  hreads2_12 : ∀ i i' : grid2.Coords, (∀ a, reads2_12 a = true → i a = i' a) → cc2_transform_12 i = cc2_transform_12 i'
  hinb2_12 : ∀ (i : grid2.Coords) a, (cc2_transform_12 i a + 1) * S1x32.size a ≤ S1x32.size a
  hwx2_12 : ∀ i : grid2.Coords, EltTy.bits .f32 = 32 ∨ (Rect.block (s := S1x32) S1x32.size (cc2_transform_12 i) (hinb2_12 i)).WholeWords (EltTy.packing .f32)
  hstage2_13 : ∀ j, (stage2_13 j).IsWhole
  nbuf2_13 : grid2.bufCount reads2_13 true = 1
  hreads2_13 : ∀ i i' : grid2.Coords, (∀ a, reads2_13 a = true → i a = i' a) → cc2_transform_13 i = cc2_transform_13 i'
  hinb2_13 : ∀ (i : grid2.Coords) a, (cc2_transform_13 i a + 1) * S1x32.size a ≤ S1x32.size a
  hwx2_13 : ∀ i : grid2.Coords, EltTy.bits .f32 = 32 ∨ (Rect.block (s := S1x32) S1x32.size (cc2_transform_13 i) (hinb2_13 i)).WholeWords (EltTy.packing .f32)
  hstage2_14 : ∀ j, (stage2_14 j).IsWhole
  nbuf2_14 : grid2.bufCount reads2_14 true = 1
  hreads2_14 : ∀ i i' : grid2.Coords, (∀ a, reads2_14 a = true → i a = i' a) → cc2_transform_14 i = cc2_transform_14 i'
  hinb2_14 : ∀ (i : grid2.Coords) a, (cc2_transform_14 i a + 1) * S256x32.size a ≤ S256x32.size a
  hwx2_14 : ∀ i : grid2.Coords, EltTy.bits .f32 = 32 ∨ (Rect.block (s := S256x32) S256x32.size (cc2_transform_14 i) (hinb2_14 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S2000x256_S256x256_0_0_1_1_n_n : DotDims S2000x256 S2000x256 S256x256 where
  lhsContracting := [0]
  rhsContracting := [0]
  lhsNonContracting := [1]
  rhsNonContracting := [1]
  lhsBatch := []
  rhsBatch := []
  wf := dot_S2000x256_S2000x256_S256x256_0_0_1_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S256x256_S256x32_S256x32_1_0_0_1_n_n : DotDims S256x256 S256x32 S256x32 where
  lhsContracting := [1]
  rhsContracting := [0]
  lhsNonContracting := [0]
  rhsNonContracting := [1]
  lhsBatch := []
  rhsBatch := []
  wf := dot_S256x256_S256x32_S256x32_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v33) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v34) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v35) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v36) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v37) S1x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v38_0) S2000x256.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v38_1) S1x256x256.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_v38_0) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v52) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v18) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v14) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v15) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v53) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v54) S1x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v55) S1x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v56) S1x256.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v57) S1x256.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v58_0) S2000x256.size cc1_transform_10 reads1_10 true false 2 stage1_10 sem1_10
    hrank1 hreads1_10 hinb1_10 nbuf1_10 (Memref.isWhole_whole _) hwx1_10 hstage1_10

abbrev win1_11 : Pipeline.Window sig grid1 :=
  Pipeline.Window.ofSpec (Memref.whole main_v58_1) S1x256x256.size cc1_transform_11 reads1_11 true false 2 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

abbrev win2_0 : Pipeline.Window sig grid2 :=
  Pipeline.Window.ofSpec (Memref.whole main_v38_1) S25x256x256.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v58_1) S25x256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v16) S256x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v59) S1x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v60) S1x32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v61) S1x32.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v62) S1x32.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v63) S1x32.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v17) S256x32.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v64) S1x32.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v65) S1x32.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v66) S1x32.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_v67) S1x32.size cc2_transform_12 reads2_12 false true 1 stage2_12 sem2_12
    hrank2 hreads2_12 hinb2_12 nbuf2_12 (Memref.isWhole_whole _) hwx2_12 hstage2_12

abbrev win2_13 : Pipeline.Window sig grid2 :=
  Pipeline.Window.ofSpec (Memref.whole main_v68) S1x32.size cc2_transform_13 reads2_13 false true 1 stage2_13 sem2_13
    hrank2 hreads2_13 hinb2_13 nbuf2_13 (Memref.isWhole_whole _) hwx2_13 hstage2_13

abbrev win2_14 : Pipeline.Window sig grid2 :=
  Pipeline.Window.ofSpec (Memref.whole main_v69) S256x32.size cc2_transform_14 reads2_14 true true 1 stage2_14 sem2_14
    hrank2 hreads2_14 hinb2_14 nbuf2_14 (Memref.isWhole_whole _) hwx2_14 hstage2_14

abbrev win2 : Fin 15 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | 14 => win2_14 | ⟨_ + 15, h⟩ => absurd h (Nat.not_lt.2 (Nat.le_add_left _ _))
abbrev spec2 : Fin 15 → Pipeline.WinSpec sig grid2.rank := fun w => (win2 w).toWinSpec

class Facts : Prop extends Facts₀ where

variable [Facts]
-- ==== ReferenceIdeal.lean ====
abbrev S50000x128 : Shape := ⟨2, ![50000, 128]⟩
abbrev S800000 : Shape := ⟨1, ![800000]⟩
abbrev S50000 : Shape := ⟨1, ![50000]⟩
abbrev S128x256 : Shape := ⟨2, ![128, 256]⟩
abbrev S256 : Shape := ⟨1, ![256]⟩
abbrev S256x256 : Shape := ⟨2, ![256, 256]⟩
abbrev S256x32 : Shape := ⟨2, ![256, 32]⟩
abbrev S32 : Shape := ⟨1, ![32]⟩
abbrev S_ : Shape := ⟨0, ![]⟩
abbrev S800000x1 : Shape := ⟨2, ![800000, 1]⟩
abbrev S50000x1 : Shape := ⟨2, ![50000, 1]⟩
abbrev S800000x128 : Shape := ⟨2, ![800000, 128]⟩
abbrev S50000x256 : Shape := ⟨2, ![50000, 256]⟩
abbrev S1x256 : Shape := ⟨2, ![1, 256]⟩
abbrev S800000x256 : Shape := ⟨2, ![800000, 256]⟩
abbrev S1x32 : Shape := ⟨2, ![1, 32]⟩
abbrev S256x1 : Shape := ⟨2, ![256, 1]⟩

abbrev nBuf : Space → Nat
  | .hbm => 198
  | .vmem => 0
  | .smem => 0
  | _ => 0

abbrev hbmTy0_0 (i : Nat) : BufTy := match i % 128 with
  | 0 => ⟨S50000x128, .f32⟩
  | 1 => ⟨S800000, .i32⟩
  | 2 => ⟨S800000, .i32⟩
  | 3 => ⟨S50000, .i32⟩
  | 4 => ⟨S128x256, .f32⟩
  | 5 => ⟨S128x256, .f32⟩
  | 6 => ⟨S256, .f32⟩
  | 7 => ⟨S256, .f32⟩
  | 8 => ⟨S256, .f32⟩
  | 9 => ⟨S256, .f32⟩
  | 10 => ⟨S256, .f32⟩
  | 11 => ⟨S256x256, .f32⟩
  | 12 => ⟨S256x256, .f32⟩
  | 13 => ⟨S256, .f32⟩
  | 14 => ⟨S256, .f32⟩
  | 15 => ⟨S256, .f32⟩
  | 16 => ⟨S256, .f32⟩
  | 17 => ⟨S256, .f32⟩
  | 18 => ⟨S256x32, .f32⟩
  | 19 => ⟨S32, .f32⟩
  | 20 => ⟨S32, .f32⟩
  | 21 => ⟨S32, .f32⟩
  | 22 => ⟨S32, .f32⟩
  | 23 => ⟨S32, .f32⟩
  | 24 => ⟨S256x32, .f32⟩
  | 25 => ⟨S32, .f32⟩
  | 26 => ⟨S32, .f32⟩
  | 27 => ⟨S32, .f32⟩
  | 28 => ⟨S32, .f32⟩
  | 29 => ⟨S32, .f32⟩
  | 30 => ⟨S_, .f32⟩
  | 31 => ⟨S800000, .f32⟩
  | 32 => ⟨S_, .f32⟩
  | 33 => ⟨S50000, .f32⟩
  | 34 => ⟨S800000x1, .i32⟩
  | 35 => ⟨S50000, .f32⟩
  | 36 => ⟨S_, .f32⟩
  | 37 => ⟨S50000, .f32⟩
  | 38 => ⟨S50000, .i1⟩
  | 39 => ⟨S_, .f32⟩
  | 40 => ⟨S50000, .f32⟩
  | 41 => ⟨S50000, .f32⟩
  | 42 => ⟨S_, .f32⟩
  | 43 => ⟨S50000, .f32⟩
  | 44 => ⟨S50000, .f32⟩
  | 45 => ⟨S_, .f32⟩
  | 46 => ⟨S_, .f32⟩
  | 47 => ⟨S50000, .f32⟩
  | 48 => ⟨S50000, .f32⟩
  | 49 => ⟨S50000x1, .f32⟩
  | 50 => ⟨S_, .i32⟩
  | 51 => ⟨S800000, .i32⟩
  | 52 => ⟨S800000, .i1⟩
  | 53 => ⟨S_, .i32⟩
  | 54 => ⟨S800000, .i32⟩
  | 55 => ⟨S800000, .i32⟩
  | 56 => ⟨S800000, .i32⟩
  | 57 => ⟨S800000x1, .i32⟩
  | 58 => ⟨S800000x128, .f32⟩
  | 59 => ⟨S_, .f32⟩
  | 60 => ⟨S50000x128, .f32⟩
  | 61 => ⟨S800000x1, .i32⟩
  | 62 => ⟨S50000x128, .f32⟩
  | 63 => ⟨S50000x128, .f32⟩
  | 64 => ⟨S50000x128, .f32⟩
  | 65 => ⟨S50000x256, .f32⟩
  | 66 => ⟨S50000x256, .f32⟩
  | 67 => ⟨S50000x256, .f32⟩
  | 68 => ⟨S1x256, .f32⟩
  | 69 => ⟨S50000x256, .f32⟩
  | 70 => ⟨S50000x256, .f32⟩
  | 71 => ⟨S_, .f32⟩
  | 72 => ⟨S50000x256, .f32⟩
  | 73 => ⟨S50000x256, .f32⟩
  | 74 => ⟨S1x256, .f32⟩
  | 75 => ⟨S50000x256, .f32⟩
  | 76 => ⟨S50000x256, .f32⟩
  | 77 => ⟨S_, .f32⟩
  | 78 => ⟨S256, .f32⟩
  | 79 => ⟨S256, .f32⟩
  | 80 => ⟨S256, .f32⟩
  | 81 => ⟨S256, .f32⟩
  | 82 => ⟨S1x256, .f32⟩
  | 83 => ⟨S50000x256, .f32⟩
  | 84 => ⟨S50000x256, .f32⟩
  | 85 => ⟨S1x256, .f32⟩
  | 86 => ⟨S50000x256, .f32⟩
  | 87 => ⟨S50000x256, .f32⟩
  | 88 => ⟨S_, .i32⟩
  | 89 => ⟨S800000, .i32⟩
  | 90 => ⟨S800000, .i1⟩
  | 91 => ⟨S_, .i32⟩
  | 92 => ⟨S800000, .i32⟩
  | 93 => ⟨S800000, .i32⟩
  | 94 => ⟨S800000, .i32⟩
  | 95 => ⟨S800000x1, .i32⟩
  | 96 => ⟨S800000x256, .f32⟩
  | 97 => ⟨S_, .f32⟩
  | 98 => ⟨S50000x256, .f32⟩
  | 99 => ⟨S800000x1, .i32⟩
  | 100 => ⟨S50000x256, .f32⟩
  | 101 => ⟨S50000x256, .f32⟩
  | 102 => ⟨S50000x256, .f32⟩
  | 103 => ⟨S50000x256, .f32⟩
  | 104 => ⟨S50000x256, .f32⟩
  | 105 => ⟨S50000x256, .f32⟩
  | 106 => ⟨S1x256, .f32⟩
  | 107 => ⟨S50000x256, .f32⟩
  | 108 => ⟨S50000x256, .f32⟩
  | 109 => ⟨S_, .f32⟩
  | 110 => ⟨S50000x256, .f32⟩
  | 111 => ⟨S50000x256, .f32⟩
  | 112 => ⟨S1x256, .f32⟩
  | 113 => ⟨S50000x256, .f32⟩
  | 114 => ⟨S50000x256, .f32⟩
  | 115 => ⟨S_, .f32⟩
  | 116 => ⟨S256, .f32⟩
  | 117 => ⟨S256, .f32⟩
  | 118 => ⟨S256, .f32⟩
  | 119 => ⟨S256, .f32⟩
  | 120 => ⟨S1x256, .f32⟩
  | 121 => ⟨S50000x256, .f32⟩
  | 122 => ⟨S50000x256, .f32⟩
  | 123 => ⟨S1x256, .f32⟩
  | 124 => ⟨S50000x256, .f32⟩
  | 125 => ⟨S50000x256, .f32⟩
  | 126 => ⟨S_, .f32⟩
  | 127 => ⟨S256x256, .f32⟩
  | _ => ⟨S50000x128, .f32⟩

abbrev hbmTy0_1 (i : Nat) : BufTy := match i % 128 with
  | 0 => ⟨S50000x1, .i32⟩
  | 1 => ⟨S256x256, .f32⟩
  | 2 => ⟨S_, .f32⟩
  | 3 => ⟨S256x256, .f32⟩
  | 4 => ⟨S50000x1, .i32⟩
  | 5 => ⟨S256x256, .f32⟩
  | 6 => ⟨S256x32, .f32⟩
  | 7 => ⟨S1x32, .f32⟩
  | 8 => ⟨S256x32, .f32⟩
  | 9 => ⟨S256x32, .f32⟩
  | 10 => ⟨S_, .f32⟩
  | 11 => ⟨S256x32, .f32⟩
  | 12 => ⟨S256x32, .f32⟩
  | 13 => ⟨S1x32, .f32⟩
  | 14 => ⟨S256x32, .f32⟩
  | 15 => ⟨S256x32, .f32⟩
  | 16 => ⟨S_, .f32⟩
  | 17 => ⟨S32, .f32⟩
  | 18 => ⟨S32, .f32⟩
  | 19 => ⟨S32, .f32⟩
  | 20 => ⟨S32, .f32⟩
  | 21 => ⟨S1x32, .f32⟩
  | 22 => ⟨S256x32, .f32⟩
  | 23 => ⟨S256x32, .f32⟩
  | 24 => ⟨S1x32, .f32⟩
  | 25 => ⟨S256x32, .f32⟩
  | 26 => ⟨S256x32, .f32⟩
  | 27 => ⟨S256x32, .f32⟩
  | 28 => ⟨S1x32, .f32⟩
  | 29 => ⟨S256x32, .f32⟩
  | 30 => ⟨S256x32, .f32⟩
  | 31 => ⟨S_, .f32⟩
  | 32 => ⟨S256x32, .f32⟩
  | 33 => ⟨S256x32, .f32⟩
  | 34 => ⟨S1x32, .f32⟩
  | 35 => ⟨S256x32, .f32⟩
  | 36 => ⟨S256x32, .f32⟩
  | 37 => ⟨S_, .f32⟩
  | 38 => ⟨S32, .f32⟩
  | 39 => ⟨S32, .f32⟩
  | 40 => ⟨S32, .f32⟩
  | 41 => ⟨S32, .f32⟩
  | 42 => ⟨S1x32, .f32⟩
  | 43 => ⟨S256x32, .f32⟩
  | 44 => ⟨S256x32, .f32⟩
  | 45 => ⟨S1x32, .f32⟩
  | 46 => ⟨S256x32, .f32⟩
  | 47 => ⟨S256x32, .f32⟩
  | 48 => ⟨S_, .f32⟩
  | 49 => ⟨S256x32, .f32⟩
  | 50 => ⟨S256x32, .f32⟩
  | 51 => ⟨S_, .f32⟩
  | 52 => ⟨S256x32, .f32⟩
  | 53 => ⟨S256x32, .f32⟩
  | 54 => ⟨S256x32, .f32⟩
  | 55 => ⟨S_, .f32⟩
  | 56 => ⟨S256, .f32⟩
  | 57 => ⟨S_, .f32⟩
  | 58 => ⟨S256, .f32⟩
  | 59 => ⟨S256, .f32⟩
  | 60 => ⟨S256x1, .f32⟩
  | 61 => ⟨S256x32, .f32⟩
  | 62 => ⟨S256x32, .f32⟩
  | 63 => ⟨S256x32, .f32⟩
  | 64 => ⟨S_, .f32⟩
  | 65 => ⟨S256, .f32⟩
  | 66 => ⟨S256x1, .f32⟩
  | 67 => ⟨S256x1, .f32⟩
  | 68 => ⟨S256x32, .f32⟩
  | 69 => ⟨S256x32, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_cst : Ref sig .tc := ⟨.hbm, 30, rfl⟩
abbrev main_v0 : Ref sig .tc := ⟨.hbm, 31, rfl⟩
abbrev main_cst_0 : Ref sig .tc := ⟨.hbm, 32, rfl⟩
abbrev main_v1 : Ref sig .tc := ⟨.hbm, 33, rfl⟩
abbrev main_v2 : Ref sig .tc := ⟨.hbm, 34, rfl⟩
abbrev main_v3 : Ref sig .tc := ⟨.hbm, 35, rfl⟩
abbrev main_cst_1 : Ref sig .tc := ⟨.hbm, 36, rfl⟩
abbrev main_v4 : Ref sig .tc := ⟨.hbm, 37, rfl⟩
abbrev main_v5 : Ref sig .tc := ⟨.hbm, 38, rfl⟩
abbrev main_cst_2 : Ref sig .tc := ⟨.hbm, 39, rfl⟩
abbrev main_v6 : Ref sig .tc := ⟨.hbm, 40, rfl⟩
abbrev main_v7 : Ref sig .tc := ⟨.hbm, 41, rfl⟩
abbrev main_cst_3 : Ref sig .tc := ⟨.hbm, 42, rfl⟩
abbrev main_v8 : Ref sig .tc := ⟨.hbm, 43, rfl⟩
abbrev main_v9 : Ref sig .tc := ⟨.hbm, 44, rfl⟩
abbrev main_cst_4 : Ref sig .tc := ⟨.hbm, 45, rfl⟩
abbrev main_call0_v0 : Ref sig .tc := ⟨.hbm, 46, rfl⟩
abbrev main_call0_v1 : Ref sig .tc := ⟨.hbm, 47, rfl⟩
abbrev main_v10 : Ref sig .tc := ⟨.hbm, 48, rfl⟩
abbrev main_v11 : Ref sig .tc := ⟨.hbm, 49, rfl⟩
abbrev main_c : Ref sig .tc := ⟨.hbm, 50, rfl⟩
abbrev main_v12 : Ref sig .tc := ⟨.hbm, 51, rfl⟩
abbrev main_v13 : Ref sig .tc := ⟨.hbm, 52, rfl⟩
abbrev main_c_5 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_cst_6 : Ref sig .tc := ⟨.hbm, 59, rfl⟩
abbrev main_v19 : Ref sig .tc := ⟨.hbm, 60, rfl⟩
abbrev main_v20 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_call1_cst : Ref sig .tc := ⟨.hbm, 71, rfl⟩
abbrev main_call1_v0 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_cst_7 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_c_8 : Ref sig .tc := ⟨.hbm, 88, rfl⟩
abbrev main_v44 : Ref sig .tc := ⟨.hbm, 89, rfl⟩
abbrev main_v45 : Ref sig .tc := ⟨.hbm, 90, rfl⟩
abbrev main_c_9 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_cst_10 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_call2_cst : Ref sig .tc := ⟨.hbm, 109, rfl⟩
abbrev main_call2_v0 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_cst_11 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_cst_12 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_cst_13 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_call3_cst : Ref sig .tc := ⟨.hbm, 138, rfl⟩
abbrev main_call3_v0 : Ref sig .tc := ⟨.hbm, 139, rfl⟩
abbrev main_v86 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_cst_14 : Ref sig .tc := ⟨.hbm, 144, rfl⟩
abbrev main_v90 : Ref sig .tc := ⟨.hbm, 145, rfl⟩
abbrev main_v91 : Ref sig .tc := ⟨.hbm, 146, rfl⟩
abbrev main_v92 : Ref sig .tc := ⟨.hbm, 147, rfl⟩
abbrev main_v93 : Ref sig .tc := ⟨.hbm, 148, rfl⟩
abbrev main_v94 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_v98 : Ref sig .tc := ⟨.hbm, 153, rfl⟩
abbrev main_v99 : Ref sig .tc := ⟨.hbm, 154, rfl⟩
abbrev main_v100 : Ref sig .tc := ⟨.hbm, 155, rfl⟩
abbrev main_v101 : Ref sig .tc := ⟨.hbm, 156, rfl⟩
abbrev main_v102 : Ref sig .tc := ⟨.hbm, 157, rfl⟩
abbrev main_v103 : Ref sig .tc := ⟨.hbm, 158, rfl⟩
abbrev main_call4_cst : Ref sig .tc := ⟨.hbm, 159, rfl⟩
abbrev main_call4_v0 : Ref sig .tc := ⟨.hbm, 160, rfl⟩
abbrev main_v104 : Ref sig .tc := ⟨.hbm, 161, rfl⟩
abbrev main_v105 : Ref sig .tc := ⟨.hbm, 162, rfl⟩
abbrev main_v106 : Ref sig .tc := ⟨.hbm, 163, rfl⟩
abbrev main_v107 : Ref sig .tc := ⟨.hbm, 164, rfl⟩
abbrev main_cst_15 : Ref sig .tc := ⟨.hbm, 165, rfl⟩
abbrev main_v108 : Ref sig .tc := ⟨.hbm, 166, rfl⟩
abbrev main_v109 : Ref sig .tc := ⟨.hbm, 167, rfl⟩
abbrev main_v110 : Ref sig .tc := ⟨.hbm, 168, rfl⟩
abbrev main_v111 : Ref sig .tc := ⟨.hbm, 169, rfl⟩
abbrev main_v112 : Ref sig .tc := ⟨.hbm, 170, rfl⟩
abbrev main_v113 : Ref sig .tc := ⟨.hbm, 171, rfl⟩
abbrev main_v114 : Ref sig .tc := ⟨.hbm, 172, rfl⟩
abbrev main_v115 : Ref sig .tc := ⟨.hbm, 173, rfl⟩
abbrev main_v116 : Ref sig .tc := ⟨.hbm, 174, rfl⟩
abbrev main_v117 : Ref sig .tc := ⟨.hbm, 175, rfl⟩
abbrev main_cst_16 : Ref sig .tc := ⟨.hbm, 176, rfl⟩
abbrev main_v118 : Ref sig .tc := ⟨.hbm, 177, rfl⟩
abbrev main_v119 : Ref sig .tc := ⟨.hbm, 178, rfl⟩
abbrev main_cst_17 : Ref sig .tc := ⟨.hbm, 179, rfl⟩
abbrev main_v120 : Ref sig .tc := ⟨.hbm, 180, rfl⟩
abbrev main_v121 : Ref sig .tc := ⟨.hbm, 181, rfl⟩
abbrev main_v122 : Ref sig .tc := ⟨.hbm, 182, rfl⟩
abbrev main_call5_cst : Ref sig .tc := ⟨.hbm, 183, rfl⟩
abbrev main_call5_v0 : Ref sig .tc := ⟨.hbm, 184, rfl⟩
abbrev main_call5_cst_0 : Ref sig .tc := ⟨.hbm, 185, rfl⟩
abbrev main_call5_v1 : Ref sig .tc := ⟨.hbm, 186, rfl⟩
abbrev main_call5_v2 : Ref sig .tc := ⟨.hbm, 187, rfl⟩
abbrev main_call5_v3 : Ref sig .tc := ⟨.hbm, 188, rfl⟩
abbrev main_call5_v4 : Ref sig .tc := ⟨.hbm, 189, rfl⟩
abbrev main_call5_v5 : Ref sig .tc := ⟨.hbm, 190, rfl⟩
abbrev main_call5_v6 : Ref sig .tc := ⟨.hbm, 191, rfl⟩
abbrev main_call5_cst_1 : Ref sig .tc := ⟨.hbm, 192, rfl⟩
abbrev main_call5_v7 : Ref sig .tc := ⟨.hbm, 193, rfl⟩
abbrev main_call5_v8 : Ref sig .tc := ⟨.hbm, 194, rfl⟩
abbrev main_call5_v9 : Ref sig .tc := ⟨.hbm, 195, rfl⟩
abbrev main_call5_v10 : Ref sig .tc := ⟨.hbm, 196, rfl⟩
abbrev main_v123 : Ref sig .tc := ⟨.hbm, 197, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S_S256 : S_.BroadcastsInDim S256 (![] : Fin 0 → Fin S256.rank)
  bcast_S50000x1_S50000x256_0_1 : S50000x1.BroadcastsInDim S50000x256 (![0, 1] : Fin 2 → Fin S50000x256.rank)
  bcast_S_S256x256 : S_.BroadcastsInDim S256x256 (![] : Fin 0 → Fin S256x256.rank)
  bcast_S32_S1x32_1 : S32.BroadcastsInDim S1x32 (![1] : Fin 1 → Fin S1x32.rank)
  bcast_S1x32_S256x32_0_1 : S1x32.BroadcastsInDim S256x32 (![0, 1] : Fin 2 → Fin S256x32.rank)
  bcast_S_S256x32 : S_.BroadcastsInDim S256x32 (![] : Fin 0 → Fin S256x32.rank)
  bcast_S_S32 : S_.BroadcastsInDim S32 (![] : Fin 0 → Fin S32.rank)
  reducesTo_S256x32_S256_d1 : S256x32.ReducesTo [1] S256
  h_S_ : 0 < S_.numel
  bcast_S256_S256x1_0 : S256.BroadcastsInDim S256x1 (![0] : Fin 1 → Fin S256x1.rank)
  bcast_S256x1_S256x32_0_1 : S256x1.BroadcastsInDim S256x32 (![0, 1] : Fin 2 → Fin S256x32.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x256_S50000x256_1_0_0_1_n_n_wf : DotDims.WF S50000x128 S128x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x256_S50000x256_1_0_0_1_n_n_wf : DotDims.WF S50000x256 S256x256 S50000x256 [1] [0] [0] [1] [] []
  scatter_S256x256_S50000x1_S50000x256_1_0_0_1_wf : ScatterDims.WF S256x256 S50000x1 S50000x256 [1] [0] [0] 1
  dot_S256x256_S256x32_S256x32_1_0_0_1_n_n_wf : DotDims.WF S256x256 S256x32 S256x32 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def scatter_S256x256_S50000x1_S50000x256_1_0_0_1 : ScatterDims S256x256 S50000x1 S50000x256 where
  updateWindowDims := [1]
  insertedWindowDims := [0]
  scatterDimsToOperandDims := [0]
  indexVectorDim := 1
  wf := scatter_S256x256_S50000x1_S50000x256_1_0_0_1_wf
def dot_S256x256_S256x32_S256x32_1_0_0_1_n_n : DotDims S256x256 S256x32 S256x32 where
  lhsContracting := [1]
  rhsContracting := [0]
  lhsNonContracting := [0]
  rhsNonContracting := [1]
  lhsBatch := []
  rhsBatch := []
  wf := dot_S256x256_S256x32_S256x32_1_0_0_1_n_n_wf

class Facts : Prop extends Facts₀ where

variable [Facts]
-- ==== Proof.Spec.lean ====
/-
  The mathematics of the two-layer graph network, entry by entry, over the extended reals.

  A layer maps node features x (one row per node) and the neighbour means hn to
      h[r, j] = (max(sum_k x[r,k] Ws[k,j] + sum_k hn[r,k] Wn[k,j] + b[j], 0) - mu[j]) * (g[j] * rsqrt(var[j] + eps)) + beta[j].
  Pooling sums the rows of h that carry graph number s.  A head applies one more affine map, the same
  rectifier and normalisation to the pooled table; the two heads are mixed with fixed weights and each row
  is normalised by a logarithmic softmax.
-/
import Mathlib.Algebra.BigOperators.Group.Finset.Basic
import Mathlib.Algebra.BigOperators.Group.Finset.Sigma
import Idealize.ShloMosaic.PureOps.Ideal

noncomputable section

namespace Cert.Gnn

open Idealize.ShloMosaic

/-- The variance offset of the normalisation, as both programs spell it. -/
abbrev eps : EReal := Ideal.ofBits .f32 0x3727C5AC#32
/-- The rectifier's floor. -/
abbrev zero32 : EReal := Ideal.ofBits .f32 0x00000000#32
/-- The row maximum's starting value. -/
abbrev ninf : EReal := Ideal.ofBits .f32 0xFF800000#32
/-- The weights of the two heads. -/
abbrev wA : EReal := Ideal.ofBits .f32 0x3E99999A#32
abbrev wB : EReal := Ideal.ofBits .f32 0x3F19999A#32

/-- Rectify, then normalise with running statistics. -/
def bnRelu (z b g be mu va : EReal) : EReal :=
  (max (z + b) zero32 - mu) * (g * Ideal.rsqrt (va + eps)) + be

/-- One layer at node r and output column j. -/
def sage {D : ℕ} (x hn : Fin 50000 → Fin D → EReal) (Ws Wn : Fin D → Fin 256 → EReal)
    (b g be mu va : Fin 256 → EReal) (r : Fin 50000) (j : Fin 256) : EReal :=
  bnRelu ((∑ k : Fin D, x r k * Ws k j) + (∑ k : Fin D, hn r k * Wn k j)) (b j) (g j) (be j) (mu j) (va j)

/-- The indicator that node number w carries graph number s. -/
def onehot (w : BitVec 32) (s : Fin 256) : EReal := if w.toInt = (s.val : Int) then 1 else 0

/-- Node r of block t. -/
def node (t : Fin 25) (k : Fin 2000) : Fin 50000 := ⟨2000 * t.val + k.val, by have := t.isLt; have := k.isLt; omega⟩

/-- Block t's share of graph s's pooled row: the indicator times the block's rows, summed. -/
def partialPool (h : Fin 50000 → Fin 256 → EReal) (gid : Fin 50000 → BitVec 32) (t : Fin 25) (s d : Fin 256) : EReal :=
  ∑ k : Fin 2000, onehot (gid (node t k)) s * h (node t k) d

/-- The pooled table: the rows of h whose graph number is s, summed. -/
def pool (h : Fin 50000 → Fin 256 → EReal) (gid : Fin 50000 → BitVec 32) (s d : Fin 256) : EReal :=
  ∑ r ∈ Finset.univ.filter (fun r : Fin 50000 => (gid r).toInt = (s.val : Int)), h r d

/-- One head at graph s and class o. -/
def head (p : Fin 256 → Fin 256 → EReal) (W : Fin 256 → Fin 32 → EReal) (b g be mu va : Fin 32 → EReal)
    (s : Fin 256) (o : Fin 32) : EReal :=
  bnRelu (∑ k : Fin 256, p s k * W k o) (b o) (g o) (be o) (mu o) (va o)

/-- The mixed scores. -/
def mix (o1 o2 : Fin 256 → Fin 32 → EReal) (s : Fin 256) (o : Fin 32) : EReal := wA * o1 s o + wB * o2 s o

/-- A row's maximum, as both programs take it. -/
def rowMax (z : Fin 256 → Fin 32 → EReal) (s : Fin 256) : EReal :=
  max ninf ((Finset.univ : Finset (Fin 32)).fold max ninf (fun o => z s o))

/-- The logarithmic softmax of a row. -/
def logSoftmax (z : Fin 256 → Fin 32 → EReal) (s : Fin 256) (o : Fin 32) : EReal :=
  (z s o - rowMax z s) - Ideal.log (∑ o' : Fin 32, Ideal.exp (z s o' - rowMax z s))

/-- The indicator keeps the rows of its graph and drops the others. -/
theorem onehot_mul (w : BitVec 32) (s : Fin 256) (x : EReal) :
    onehot w s * x = if w.toInt = (s.val : Int) then x else 0 := by
  unfold onehot
  split
  · exact one_mul x
  · exact zero_mul x

/-- Every node lies in exactly one block. -/
theorem node_bijective : Function.Bijective (fun p : Fin 25 × Fin 2000 => node p.1 p.2) := by
  constructor
  · rintro ⟨t, k⟩ ⟨t', k'⟩ h
    have hv : 2000 * t.val + k.val = 2000 * t'.val + k'.val := congrArg Fin.val h
    have := k.isLt; have := k'.isLt
    have ht : t.val = t'.val := by omega
    have hk : k.val = k'.val := by omega
    exact Prod.ext (Fin.ext ht) (Fin.ext hk)
  · intro r
    have hr := r.isLt
    refine ⟨(⟨r.val / 2000, by omega⟩, ⟨r.val % 2000, Nat.mod_lt _ (by norm_num)⟩), Fin.ext ?_⟩
    show 2000 * (r.val / 2000) + r.val % 2000 = r.val
    exact Nat.div_add_mod r.val 2000

/-- Pooling block by block and then over the blocks is pooling over all nodes. -/
theorem sum_partialPool (h : Fin 50000 → Fin 256 → EReal) (gid : Fin 50000 → BitVec 32) (s d : Fin 256) :
    ∑ t : Fin 25, partialPool h gid t s d = pool h gid s d := by
  unfold partialPool pool
  rw [Finset.sum_filter]
  rw [← Finset.sum_product' (Finset.univ : Finset (Fin 25)) (Finset.univ : Finset (Fin 2000))
    (fun t k => onehot (gid (node t k)) s * h (node t k) d)]
  rw [Finset.univ_product_univ]
  rw [← (Equiv.ofBijective _ node_bijective).sum_comp (fun r => if (gid r).toInt = (s.val : Int) then h r d else 0)]
  refine Finset.sum_congr rfl fun p _ => ?_
  exact onehot_mul _ _ _

end Cert.Gnn

end
-- ==== Proof.KSage0.lean ====
import proofs.«411381_j53893249630287_2_alg».proof.Proof.Gen.KernelIdeal.Frame
import proofs.«411381_j53893249630287_2_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Sage0

open Cert.KernelIdeal Cert.KernelIdeal.Gen Idealize.ShloMosaic Idealize.ShloMosaic.ValueIdx Idealize.ShloMosaic.TcCoe Idealize.SL.Sem Cert.Gnn
open Idealize.ShloMosaic.Pipeline (Dat Cfg Window)

variable (V : (c : Dev nD) → (b : Ref sig .tc) → Buf (Elt Ideal) ((c : Thread nD τ).loc b))

/-! The arrays region 0 reads, as the region finds them, each at its literal type. -/
abbrev x0 (c : Dev nD) : Vec Ideal S50000x128 .f32 := V c (Pipeline.arrRef spec0 0)
abbrev x1 (c : Dev nD) : Vec Ideal S50000x128 .f32 := V c (Pipeline.arrRef spec0 1)
abbrev x2 (c : Dev nD) : Vec Ideal S50000x1 .i32 := V c (Pipeline.arrRef spec0 2)
abbrev x3 (c : Dev nD) : Vec Ideal S128x256 .bf16 := V c (Pipeline.arrRef spec0 3)
abbrev x4 (c : Dev nD) : Vec Ideal S128x256 .bf16 := V c (Pipeline.arrRef spec0 4)
abbrev x5 (c : Dev nD) : Vec Ideal S1x256 .f32 := V c (Pipeline.arrRef spec0 5)
abbrev x6 (c : Dev nD) : Vec Ideal S1x256 .f32 := V c (Pipeline.arrRef spec0 6)
abbrev x7 (c : Dev nD) : Vec Ideal S1x256 .f32 := V c (Pipeline.arrRef spec0 7)
abbrev x8 (c : Dev nD) : Vec Ideal S1x256 .f32 := V c (Pipeline.arrRef spec0 8)
abbrev x9 (c : Dev nD) : Vec Ideal S1x256 .f32 := V c (Pipeline.arrRef spec0 9)

/-! ## The block product at an entry -/

private abbrev dA := dot_S2000x128_S128x256_S2000x256_1_0_0_1_n_n

theorem lhsA_0 (i : S2000x256.Idx) (q : dA.contr.Idx) : (dA.lhsIdx i q 0).val = (i 0).val := by
  unfold DotDims.lhsIdx
  rw [dif_neg (show ¬(0 : Fin S2000x128.rank) ∈ dA.lhsBatch by decide), dif_pos (show (0 : Fin S2000x128.rank) ∈ dA.lhsNonContracting by decide)]
  rfl
theorem lhsA_1 (i : S2000x256.Idx) (q : dA.contr.Idx) : (dA.lhsIdx i q 1).val = (q ⟨0, by decide⟩).val :=
  dA.lhsIdx_val_of_single rfl i q
theorem rhsA_0 (i : S2000x256.Idx) (q : dA.contr.Idx) : (dA.rhsIdx i q 0).val = (q ⟨0, by decide⟩).val :=
  dA.rhsIdx_val_of_single rfl i q
theorem rhsA_1 (i : S2000x256.Idx) (q : dA.contr.Idx) : (dA.rhsIdx i q 1).val = (i 1).val := by
  unfold DotDims.rhsIdx
  rw [dif_neg (show ¬(1 : Fin S128x256.rank) ∈ dA.rhsBatch by decide), dif_pos (show (1 : Fin S128x256.rank) ∈ dA.rhsNonContracting by decide)]
  rfl

/-- A block of rows times a weight table, into a zero accumulator, at an entry: the row against the column. -/
theorem rowsTimes_apply (a : FVec Ideal S2000x128 .bf16) (b : FVec Ideal S128x256 .bf16) (p : Fin 2000) (q : Fin 256) :
    matmul dA none a b (constant (F := Ideal) S2000x256 .f32 0x00000000#32) (ix2 p q)
      = ∑ k : Fin 128, a (ix2 p k) * b (ix2 k q) := by
  simp only [matmul]
  rw [Ideal.matmul_constant_zero_apply, ← Equiv.sum_comp (ValueIdx.contrEquiv1 dA 128 rfl rfl).symm]
  refine Finset.sum_congr rfl fun k _ => ?_
  have hk := ValueIdx.contrEquiv1_symm_val dA 128 rfl rfl k
  have el : dA.lhsIdx (ix2 p q) ((ValueIdx.contrEquiv1 dA 128 rfl rfl).symm k) = ix2 p k := funext fun a => Fin.ext (by
    match a with
    | ⟨0, _⟩ => exact lhsA_0 _ _
    | ⟨1, _⟩ => exact (lhsA_1 _ _).trans hk)
  have er : dA.rhsIdx (ix2 p q) ((ValueIdx.contrEquiv1 dA 128 rfl rfl).symm k) = ix2 k q := funext fun a => Fin.ext (by
    match a with
    | ⟨0, _⟩ => exact (rhsA_0 _ _).trans hk
    | ⟨1, _⟩ => exact rhsA_1 _ _)
  rw [el, er]

/-- The layer on a block of 2000 rows, at an entry. -/
theorem layerBlock_apply (v0 v2 : Vec Ideal S2000x128 .f32) (v5 v7 : Vec Ideal S128x256 .bf16)
    (v12 v18 v20 v26 v32 : Vec Ideal S1x256 .f32) (p : Fin 2000) (q : Fin 256) :
    k0_pay2 (F := Ideal) v0 v2 v5 v7 v12 v18 v20 v26 v32 (ix2 p q)
      = bnRelu ((∑ k : Fin 128, v0 (ix2 p k) * v5 (ix2 k q)) + (∑ k : Fin 128, v2 (ix2 p k) * v7 (ix2 k q)))
          (v12 (ix2 (0 : Fin 1) q)) (v18 (ix2 (0 : Fin 1) q)) (v32 (ix2 (0 : Fin 1) q)) (v26 (ix2 (0 : Fin 1) q)) (v20 (ix2 (0 : Fin 1) q)) := by
  unfold k0_pay2 bnRelu
  simp only [shapeCast_self]
  simp only [addf_apply, mulf_apply, subf_apply, maximumf_apply]
  rw [rowsTimes_apply, rowsTimes_apply]
  simp only [broadcastTo_1b_ab_apply, broadcast_apply, truncf_apply, mulf_apply]
  rfl

/-! ## The pooled block at an entry -/

private abbrev dB := dot_S2000x256_S2000x256_S256x256_0_0_1_1_n_n

theorem lhsB_0 (i : S256x256.Idx) (q : dB.contr.Idx) : (dB.lhsIdx i q 0).val = (q ⟨0, by decide⟩).val :=
  dB.lhsIdx_val_of_single rfl i q
theorem lhsB_1 (i : S256x256.Idx) (q : dB.contr.Idx) : (dB.lhsIdx i q 1).val = (i 0).val := by
  unfold DotDims.lhsIdx
  rw [dif_neg (show ¬(1 : Fin S2000x256.rank) ∈ dB.lhsBatch by decide), dif_pos (show (1 : Fin S2000x256.rank) ∈ dB.lhsNonContracting by decide)]
  rfl
theorem rhsB_0 (i : S256x256.Idx) (q : dB.contr.Idx) : (dB.rhsIdx i q 0).val = (q ⟨0, by decide⟩).val :=
  dB.rhsIdx_val_of_single rfl i q
theorem rhsB_1 (i : S256x256.Idx) (q : dB.contr.Idx) : (dB.rhsIdx i q 1).val = (i 1).val := by
  unfold DotDims.rhsIdx
  rw [dif_neg (show ¬(1 : Fin S2000x256.rank) ∈ dB.rhsBatch by decide), dif_pos (show (1 : Fin S2000x256.rank) ∈ dB.rhsNonContracting by decide)]
  rfl

/-- Two blocks of 2000 rows contracted along their rows, into a zero accumulator, at an entry: column against column. -/
theorem colsTimes_apply (a b : FVec Ideal S2000x256 .bf16) (s d : Fin 256) :
    matmul dB none a b (constant (F := Ideal) S256x256 .f32 0x00000000#32) (ix2 s d)
      = ∑ k : Fin 2000, a (ix2 k s) * b (ix2 k d) := by
  simp only [matmul]
  rw [Ideal.matmul_constant_zero_apply, ← Equiv.sum_comp (ValueIdx.contrEquiv1 dB 2000 rfl rfl).symm]
  refine Finset.sum_congr rfl fun k _ => ?_
  have hk := ValueIdx.contrEquiv1_symm_val dB 2000 rfl rfl k
  have el : dB.lhsIdx (ix2 s d) ((ValueIdx.contrEquiv1 dB 2000 rfl rfl).symm k) = ix2 k s := funext fun a => Fin.ext (by
    match a with
    | ⟨0, _⟩ => exact (lhsB_0 _ _).trans hk
    | ⟨1, _⟩ => exact lhsB_1 _ _)
  have er : dB.rhsIdx (ix2 s d) ((ValueIdx.contrEquiv1 dB 2000 rfl rfl).symm k) = ix2 k d := funext fun a => Fin.ext (by
    match a with
    | ⟨0, _⟩ => exact (rhsB_0 _ _).trans hk
    | ⟨1, _⟩ => exact rhsB_1 _ _)
  rw [el, er]

/-- One column broadcast over many: an `[a, 1]` array broadcast to `[a, b]` reads, at `(p, c)`, the operand's row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The widened equality bit of a word against a graph number below 256, as a real: the indicator. -/
theorem onehot_word (w : BitVec 32) (s : Fin 256) :
    ((((IntOp.cmpi .eq w (BitVec.ofNat 32 s.val)).setWidth 32).toInt : ℝ) : EReal) = onehot w s := by
  unfold onehot
  have hs : (BitVec.ofNat 32 s.val).toInt = (s.val : Int) := by
    have hlt := s.isLt
    have hn : (BitVec.ofNat 32 s.val).toNat = s.val := by
      rw [BitVec.toNat_ofNat, Nat.mod_eq_of_lt (by omega)]
    rw [BitVec.toInt_eq_toNat_of_lt (by rw [hn]; omega), hn]
  by_cases h : w = BitVec.ofNat 32 s.val
  · rw [if_pos (h ▸ hs), IntOp.cmpi_eq.mpr h]
    norm_num
  · have hc : IntOp.cmpi .eq w (BitVec.ofNat 32 s.val) = 0#1 :=
      eq_zero_of_ne_one (fun h' => h (IntOp.cmpi_eq.mp h'))
    rw [hc, if_neg (fun h' => h (BitVec.eq_of_toInt_eq (h'.trans hs.symm)))]
    norm_num

/-- The block's pooled table at an entry: the indicator of the block's graph numbers times the block's rows, summed. -/
theorem poolBlock_apply (h : FVec Ideal S2000x256 .f32) (g : Vec Ideal S2000x1 .i32) (u : Fin 1) (s d : Fin 256) :
    k0_pay1 (F := Ideal) h g (ix3 u s d) = ∑ k : Fin 2000, onehot (g (ix2 k (0 : Fin 1))) s * h (ix2 k d) := by
  unfold k0_pay1
  simp only [shapeCast_self]
  rw [shapeCast_ab_1ab_apply, colsTimes_apply]
  refine Finset.sum_congr rfl fun k _ => ?_
  simp only [truncf_apply, sitofp_apply, extui_apply]
  have e1 : broadcastTo S2000x256 g broadcasts_S2000x1_S2000x256 (ix2 k s) = g (ix2 k (0 : Fin 1)) :=
    broadcastTo_a1_ab_apply _ _ _ _
  have e2 : broadcastTo S2000x256 (iota Kind.tc S1x256 32 [1] iota_S1x256_d1_w32) broadcasts_S1x256_S2000x256 (ix2 k s)
      = BitVec.ofNat 32 s.val := by
    rw [broadcastTo_1b_ab_apply, iota_single_apply]
  show FloatOps.sitofp (F := Ideal) .f32 (BitVec.setWidth 32 (IntOp.cmpi .eq
      (broadcastTo S2000x256 g broadcasts_S2000x1_S2000x256 (ix2 k s))
      (broadcastTo S2000x256 (iota Kind.tc S1x256 32 [1] iota_S1x256_d1_w32) broadcasts_S1x256_S2000x256 (ix2 k s)))) * _ = _
  rw [e1, e2]
  exact congrArg (· * h (ix2 k d)) (onehot_word _ s)

/-! ## From blocks to the arrays -/

theorem zeros2 : (![0, 0] : Fin 2 → Nat) = fun _ => 0 := funext fun a => by fin_cases a <;> rfl
theorem zeros3 : (![0, 0, 0] : Fin 3 → Nat) = fun _ => 0 := funext fun a => by fin_cases a <;> rfl

theorem points_eq : cfg0.N = 25 := by decide

/-- The block indices of the twelve windows at a point: the row-blocked ones move with the point, the tables stay. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = t.val ∧ win0_10.index t (1 : Fin 2) = 0
    ∧ win0_11.index t (0 : Fin 3) = t.val ∧ win0_11.index t (1 : Fin 3) = 0 ∧ win0_11.index t (2 : Fin 3) = 0 :=
  (by decide +kernel : ∀ t : Fin grid0.N, _)

/-- Row `p` of point `t`'s block of a row-blocked input is row `2000 t + p` of its array. -/
theorem blk0_apply (c : Dev nD) (t : Fin cfg0.N) (p : Fin 2000) (k : Fin 128) (r : Fin 50000)
    (hr : r.val = 2000 * t.val + p.val) :
    (iblk0 (F := Ideal) V c 0 t : Vec Ideal S2000x128 .f32) (ix2 p k) = x0 V c (ix2 r k) := by
  obtain ⟨e0, e1, -⟩ := index_facts t
  unfold iblk0
  rw [View.read_apply]
  show V c (Pipeline.arrRef spec0 0) _ = V c (Pipeline.arrRef spec0 0) _
  congr 1
  funext a
  apply Fin.ext
  match a with
  | ⟨0, _⟩ => show win0_0.index t 0 * 2000 + 1 * p.val = r.val; rw [e0, hr]; omega
  | ⟨1, _⟩ => show win0_0.index t 1 * 128 + 1 * k.val = k.val; rw [e1]; omega

theorem blk1_apply (c : Dev nD) (t : Fin cfg0.N) (p : Fin 2000) (k : Fin 128) (r : Fin 50000)
    (hr : r.val = 2000 * t.val + p.val) :
    (iblk0 (F := Ideal) V c 1 t : Vec Ideal S2000x128 .f32) (ix2 p k) = x1 V c (ix2 r k) := by
  obtain ⟨-, -, e0, e1, -⟩ := index_facts t
  unfold iblk0
  rw [View.read_apply]
  show V c (Pipeline.arrRef spec0 1) _ = V c (Pipeline.arrRef spec0 1) _
  congr 1
  funext a
  apply Fin.ext
  match a with
  | ⟨0, _⟩ => show win0_1.index t 0 * 2000 + 1 * p.val = r.val; rw [e0, hr]; omega
  | ⟨1, _⟩ => show win0_1.index t 1 * 128 + 1 * k.val = k.val; rw [e1]; omega

theorem blk2_apply (c : Dev nD) (t : Fin cfg0.N) (p : Fin 2000) (k : Fin 1) (r : Fin 50000)
    (hr : r.val = 2000 * t.val + p.val) :
    (iblk0 (F := Ideal) V c 2 t : Vec Ideal S2000x1 .i32) (ix2 p k) = x2 V c (ix2 r k) := by
  obtain ⟨-, -, -, -, e0, e1, -⟩ := index_facts t
  unfold iblk0
  rw [View.read_apply]
  show V c (Pipeline.arrRef spec0 2) _ = V c (Pipeline.arrRef spec0 2) _
  congr 1
  funext a
  apply Fin.ext
  match a with
  | ⟨0, _⟩ => show win0_2.index t 0 * 2000 + 1 * p.val = r.val; rw [e0, hr]; omega
  | ⟨1, _⟩ => show win0_2.index t 1 * 1 + 1 * k.val = k.val; rw [e1]; omega

/-- A table's block at every point is the table. -/
theorem blk3_apply (c : Dev nD) (t : Fin cfg0.N) (k : Fin 128) (q : Fin 256) :
    (iblk0 (F := Ideal) V c 3 t : Vec Ideal S128x256 .bf16) (ix2 k q) = x3 V c (ix2 k q) := by
  obtain ⟨-, -, -, -, -, -, e0, e1, -⟩ := index_facts t
  unfold iblk0
  rw [View.read_apply]
  show V c (Pipeline.arrRef spec0 3) _ = V c (Pipeline.arrRef spec0 3) _
  congr 1
  funext a
  apply Fin.ext
  match a with
  | ⟨0, _⟩ => show win0_3.index t 0 * 128 + 1 * k.val = k.val; rw [e0]; omega
  | ⟨1, _⟩ => show win0_3.index t 1 * 256 + 1 * q.val = q.val; rw [e1]; omega

theorem blk4_apply (c : Dev nD) (t : Fin cfg0.N) (k : Fin 128) (q : Fin 256) :
    (iblk0 (F := Ideal) V c 4 t : Vec Ideal S128x256 .bf16) (ix2 k q) = x4 V c (ix2 k q) := by
  obtain ⟨-, -, -, -, -, -, -, -, e0, e1, -⟩ := index_facts t
  unfold iblk0
  rw [View.read_apply]
  show V c (Pipeline.arrRef spec0 4) _ = V c (Pipeline.arrRef spec0 4) _
  congr 1
  funext a
  apply Fin.ext
  match a with
  | ⟨0, _⟩ => show win0_4.index t 0 * 128 + 1 * k.val = k.val; rw [e0]; omega
  | ⟨1, _⟩ => show win0_4.index t 1 * 256 + 1 * q.val = q.val; rw [e1]; omega

theorem blk5_apply (c : Dev nD) (t : Fin cfg0.N) (k : Fin 1) (q : Fin 256) :
    (iblk0 (F := Ideal) V c 5 t : Vec Ideal S1x256 .f32) (ix2 k q) = x5 V c (ix2 k q) := by
  obtain ⟨-, -, -, -, -, -, -, -, -, -, e0, e1, -⟩ := index_facts t
  unfold iblk0
  rw [View.read_apply]
  show V c (Pipeline.arrRef spec0 5) _ = V c (Pipeline.arrRef spec0 5) _
  congr 1
  funext a
  apply Fin.ext
  match a with
  | ⟨0, _⟩ => show win0_5.index t 0 * 1 + 1 * k.val = k.val; rw [e0]; omega
  | ⟨1, _⟩ => show win0_5.index t 1 * 256 + 1 * q.val = q.val; rw [e1]; omega

theorem blk6_apply (c : Dev nD) (t : Fin cfg0.N) (k : Fin 1) (q : Fin 256) :
    (iblk0 (F := Ideal) V c 6 t : Vec Ideal S1x256 .f32) (ix2 k q) = x6 V c (ix2 k q) := by
  obtain ⟨-, -, -, -, -, -, -, -, -, -, -, -, e0, e1, -⟩ := index_facts t
  unfold iblk0
  rw [View.read_apply]
  show V c (Pipeline.arrRef spec0 6) _ = V c (Pipeline.arrRef spec0 6) _
  congr 1
  funext a
  apply Fin.ext
  match a with
  | ⟨0, _⟩ => show win0_6.index t 0 * 1 + 1 * k.val = k.val; rw [e0]; omega
  | ⟨1, _⟩ => show win0_6.index t 1 * 256 + 1 * q.val = q.val; rw [e1]; omega

theorem blk7_apply (c : Dev nD) (t : Fin cfg0.N) (k : Fin 1) (q : Fin 256) :
    (iblk0 (F := Ideal) V c 7 t : Vec Ideal S1x256 .f32) (ix2 k q) = x7 V c (ix2 k q) := by
  obtain ⟨-, -, -, -, -, -, -, -, -, -, -, -, -, -, e0, e1, -⟩ := index_facts t
  unfold iblk0
  rw [View.read_apply]
  show V c (Pipeline.arrRef spec0 7) _ = V c (Pipeline.arrRef spec0 7) _
  congr 1
  funext a
  apply Fin.ext
  match a with
  | ⟨0, _⟩ => show win0_7.index t 0 * 1 + 1 * k.val = k.val; rw [e0]; omega
  | ⟨1, _⟩ => show win0_7.index t 1 * 256 + 1 * q.val = q.val; rw [e1]; omega

theorem blk8_apply (c : Dev nD) (t : Fin cfg0.N) (k : Fin 1) (q : Fin 256) :
    (iblk0 (F := Ideal) V c 8 t : Vec Ideal S1x256 .f32) (ix2 k q) = x8 V c (ix2 k q) := by
  obtain ⟨-, -, -, -, -, -, -, -, -, -, -, -, -, -, -, -, e0, e1, -⟩ := index_facts t
  unfold iblk0
  rw [View.read_apply]
  show V c (Pipeline.arrRef spec0 8) _ = V c (Pipeline.arrRef spec0 8) _
  congr 1
  funext a
  apply Fin.ext
  match a with
  | ⟨0, _⟩ => show win0_8.index t 0 * 1 + 1 * k.val = k.val; rw [e0]; omega
  | ⟨1, _⟩ => show win0_8.index t 1 * 256 + 1 * q.val = q.val; rw [e1]; omega

theorem blk9_apply (c : Dev nD) (t : Fin cfg0.N) (k : Fin 1) (q : Fin 256) :
    (iblk0 (F := Ideal) V c 9 t : Vec Ideal S1x256 .f32) (ix2 k q) = x9 V c (ix2 k q) := by
  obtain ⟨-, -, -, -, -, -, -, -, -, -, -, -, -, -, -, -, -, -, e0, e1, -⟩ := index_facts t
  unfold iblk0
  rw [View.read_apply]
  show V c (Pipeline.arrRef spec0 9) _ = V c (Pipeline.arrRef spec0 9) _
  congr 1
  funext a
  apply Fin.ext
  match a with
  | ⟨0, _⟩ => show win0_9.index t 0 * 1 + 1 * k.val = k.val; rw [e0]; omega
  | ⟨1, _⟩ => show win0_9.index t 1 * 256 + 1 * q.val = q.val; rw [e1]; omega

/-- The layer's output array as one function of the region's input arrays. -/
abbrev layerArr (c : Dev nD) : S50000x256.Idx → EReal := fun i =>
  sage (fun r k => x0 V c (ix2 r k)) (fun r k => x1 V c (ix2 r k))
    (fun k j => x3 V c (ix2 k j)) (fun k j => x4 V c (ix2 k j))
    (fun j => x5 V c (ix2 (0 : Fin 1) j)) (fun j => x6 V c (ix2 (0 : Fin 1) j)) (fun j => x7 V c (ix2 (0 : Fin 1) j))
    (fun j => x8 V c (ix2 (0 : Fin 1) j)) (fun j => x9 V c (ix2 (0 : Fin 1) j)) ⟨(i 0).val, idx2_lt0 i⟩ ⟨(i 1).val, idx2_lt1 i⟩

/-- The layer on point `t`'s blocks, at row `p`, is `layerArr` at row `2000 t + p`. -/
theorem layerBlock_eq (c : Dev nD) (t : Fin cfg0.N) (p : Fin 2000) (q : Fin 256) (r : Fin 50000)
    (hr : r.val = 2000 * t.val + p.val) :
    k0_pay2 (F := Ideal) (iblk0 V c 0 t) (iblk0 V c 1 t) (iblk0 V c 3 t) (iblk0 V c 4 t) (iblk0 V c 5 t) (iblk0 V c 6 t)
        (iblk0 V c 9 t) (iblk0 V c 8 t) (iblk0 V c 7 t) (ix2 p q)
      = layerArr V c (ix2 r q) := by
  refine (layerBlock_apply _ _ _ _ _ _ _ _ _ p q).trans ?_
  show _ = sage (fun r k => x0 V c (ix2 r k)) (fun r k => x1 V c (ix2 r k))
    (fun k j => x3 V c (ix2 k j)) (fun k j => x4 V c (ix2 k j))
    (fun j => x5 V c (ix2 (0 : Fin 1) j)) (fun j => x6 V c (ix2 (0 : Fin 1) j)) (fun j => x7 V c (ix2 (0 : Fin 1) j))
    (fun j => x8 V c (ix2 (0 : Fin 1) j)) (fun j => x9 V c (ix2 (0 : Fin 1) j)) r q
  unfold sage
  simp only [blk0_apply V c t p _ r hr, blk1_apply V c t p _ r hr,
    blk3_apply V c t, blk4_apply V c t, blk5_apply V c t, blk6_apply V c t, blk7_apply V c t, blk8_apply V c t, blk9_apply V c t]

/-- What point `t` writes back to the layer's output array is block `t` of `layerArr`. -/
theorem flushed10_eq (c : Dev nD) (t : Fin cfg0.N) :
    (dat0 (F := Ideal) V c).flushed 10 t = ((cfg0.win 10).blk t).view.read (Elt Ideal) (layerArr V c) := by
  show (cfg0.win 10).cut (grid0.coords t) ((dat0 (F := Ideal) V c).after 10 t) = _
  rw [after0_10]
  unfold out0_10
  rw [View.canon_unit_zero zeros2]
  simp only [View.ld_unit_zero (S := S2000x128) zeros2, View.ld_unit_zero (S := S128x256) zeros2, View.ld_unit_zero (S := S1x256) zeros2]
  obtain ⟨-, -, -, -, -, -, -, -, -, -, -, -, -, -, -, -, -, -, -, -, e0, e1, -⟩ := index_facts t
  refine funext fun (j : S2000x256.Idx) => ?_
  obtain ⟨p, q, rfl⟩ : ∃ (p : Fin 2000) (q : Fin 256), j = ix2 p q := ⟨j 0, j 1, eq_ix2 j⟩
  have hr : 2000 * t.val + p.val < 50000 := by
    have ht : t.val < 25 := lt_of_lt_of_eq t.isLt points_eq
    have := p.isLt; omega
  have hemb : ((cfg0.win 10).blk t).view.emb (ix2 p q) = ix2 (⟨2000 * t.val + p.val, hr⟩ : Fin 50000) q := by
    funext a
    apply Fin.ext
    match a with
    | ⟨0, _⟩ => show win0_10.index t 0 * 2000 + 1 * p.val = 2000 * t.val + p.val; rw [e0]; omega
    | ⟨1, _⟩ => show win0_10.index t 1 * 256 + 1 * q.val = q.val; rw [e1]; omega
  show _ = layerArr V c (((cfg0.win 10).blk t).view.emb (ix2 p q))
  rw [hemb]
  exact layerBlock_eq V c t p q _ rfl

/-- An index of the layer's output array is in point `t`'s block iff each coordinate is in the block's range. -/
theorem mem_blk10 (t : Fin cfg0.N) (i : S50000x256.Idx) :
    i ∈ ((cfg0.win 10).blk t).view.set ↔ ∀ a : Fin 2, win0_10.index t a * S2000x256.size a ≤ (i a).val ∧ (i a).val < win0_10.index t a * S2000x256.size a + S2000x256.size a := by
  show i ∈ ((View.whole main_v38_0).slice (win0_10.rect t)).set ↔ _
  rw [View.set_slice_whole, Rect.mem_set_unit]
  exact Iff.rfl

/-- The layer's output array after the region. -/
theorem layer_final (c : Dev nD) : (dat0 (F := Ideal) V c).arrAt 10 cfg0.N = layerArr V c :=
  (dat0 (F := Ideal) V c).arrAt_eq_of_cover 10 (layerArr V c) (fun t _ => flushed10_eq V c t) fun (i : S50000x256.Idx) => by
    have hi0 : (i 0).val < 50000 := (i 0).isLt
    have hi1 : (i 1).val < 256 := (i 1).isLt
    obtain ⟨t, ht⟩ : ∃ t : Fin cfg0.N, t.val = (i 0).val / 2000 := ⟨⟨(i 0).val / 2000, by rw [points_eq]; omega⟩, rfl⟩
    obtain ⟨-, -, -, -, -, -, -, -, -, -, -, -, -, -, -, -, -, -, -, -, e0, e1, -⟩ := index_facts t
    refine ⟨t, flush0_10 t, ?_⟩
    rw [mem_blk10]
    intro a
    match a with
    | ⟨0, _⟩ => show win0_10.index t 0 * 2000 ≤ (i 0).val ∧ (i 0).val < win0_10.index t 0 * 2000 + 2000; rw [e0, ht]; omega
    | ⟨1, _⟩ => show win0_10.index t 1 * 256 ≤ (i 1).val ∧ (i 1).val < win0_10.index t 1 * 256 + 256; rw [e1]; omega

/-- The layer's output array after the region, entry by entry. -/
theorem h_apply (c : Dev nD) (r : Fin 50000) (j : Fin 256) :
    (dat0 (F := Ideal) V c).arrAt 10 cfg0.N (ix2 r j)
      = sage (fun r k => x0 V c (ix2 r k)) (fun r k => x1 V c (ix2 r k))
          (fun k j => x3 V c (ix2 k j)) (fun k j => x4 V c (ix2 k j))
          (fun j => x5 V c (ix2 (0 : Fin 1) j)) (fun j => x6 V c (ix2 (0 : Fin 1) j)) (fun j => x7 V c (ix2 (0 : Fin 1) j))
          (fun j => x8 V c (ix2 (0 : Fin 1) j)) (fun j => x9 V c (ix2 (0 : Fin 1) j)) r j := by
  rw [layer_final V c]

/-- The per-block pooled table as one function of the region's input arrays. -/
abbrev poolArr (c : Dev nD) : S25x256x256.Idx → EReal := fun i =>
  partialPool (fun r j => layerArr V c (ix2 r j)) (fun r => x2 V c (ix2 r (0 : Fin 1)))
    ⟨(i 0).val, (i 0).isLt⟩ ⟨(i 1).val, (i 1).isLt⟩ ⟨(i 2).val, (i 2).isLt⟩

/-- What point `t` writes back to the pooled table is block `t` of `poolArr`. -/
theorem flushed11_eq (c : Dev nD) (t : Fin cfg0.N) :
    (dat0 (F := Ideal) V c).flushed 11 t = ((cfg0.win 11).blk t).view.read (Elt Ideal) (poolArr V c) := by
  show (cfg0.win 11).cut (grid0.coords t) ((dat0 (F := Ideal) V c).after 11 t) = _
  rw [after0_11]
  unfold out0_11
  rw [View.canon_unit_zero zeros3]
  simp only [View.ld_unit_zero (S := S2000x128) zeros2, View.ld_unit_zero (S := S128x256) zeros2, View.ld_unit_zero (S := S1x256) zeros2,
    View.ld_unit_zero (S := S2000x1) zeros2]
  obtain ⟨-, -, -, -, -, -, -, -, -, -, -, -, -, -, -, -, -, -, -, -, -, -, e0, e1, e2⟩ := index_facts t
  have ht : t.val < 25 := lt_of_lt_of_eq t.isLt points_eq
  refine funext fun (j : S1x256x256.Idx) => ?_
  obtain ⟨u, s, d, rfl⟩ : ∃ (u : Fin 1) (s d : Fin 256), j = ix3 u s d := ⟨j 0, j 1, j 2, eq_ix3 j⟩
  have hemb : ((cfg0.win 11).blk t).view.emb (ix3 u s d) = ix3 (⟨t.val, ht⟩ : Fin 25) s d := by
    funext a
    apply Fin.ext
    match a with
    | ⟨0, _⟩ => show win0_11.index t 0 * 1 + 1 * u.val = t.val; rw [e0]; omega
    | ⟨1, _⟩ => show win0_11.index t 1 * 256 + 1 * s.val = s.val; rw [e1]; omega
    | ⟨2, _⟩ => show win0_11.index t 2 * 256 + 1 * d.val = d.val; rw [e2]; omega
  show _ = poolArr V c (((cfg0.win 11).blk t).view.emb (ix3 u s d))
  rw [hemb]
  refine (poolBlock_apply _ _ u s d).trans ?_
  show _ = partialPool (fun r j => layerArr V c (ix2 r j)) (fun r => x2 V c (ix2 r (0 : Fin 1))) (⟨t.val, ht⟩ : Fin 25) s d
  unfold partialPool
  refine Finset.sum_congr rfl fun k _ => ?_
  rw [blk2_apply V c t k 0 (node ⟨t.val, ht⟩ k) rfl, layerBlock_eq V c t k d (node ⟨t.val, ht⟩ k) rfl]

/-- An index of the pooled table is in point `t`'s block iff each coordinate is in the block's range. -/
theorem mem_blk11 (t : Fin cfg0.N) (i : S25x256x256.Idx) :
    i ∈ ((cfg0.win 11).blk t).view.set ↔ ∀ a : Fin 3, win0_11.index t a * S1x256x256.size a ≤ (i a).val ∧ (i a).val < win0_11.index t a * S1x256x256.size a + S1x256x256.size a := by
  show i ∈ ((View.whole main_v38_1).slice (win0_11.rect t)).set ↔ _
  rw [View.set_slice_whole, Rect.mem_set_unit]
  exact Iff.rfl

/-- The pooled table after the region. -/
theorem pool_final (c : Dev nD) : (dat0 (F := Ideal) V c).arrAt 11 cfg0.N = poolArr V c :=
  (dat0 (F := Ideal) V c).arrAt_eq_of_cover 11 (poolArr V c) (fun t _ => flushed11_eq V c t) fun (i : S25x256x256.Idx) => by
    have hi0 : (i 0).val < 25 := (i 0).isLt
    have hi1 : (i 1).val < 256 := (i 1).isLt
    have hi2 : (i 2).val < 256 := (i 2).isLt
    obtain ⟨t, ht⟩ : ∃ t : Fin cfg0.N, t.val = (i 0).val := ⟨⟨(i 0).val, by rw [points_eq]; omega⟩, rfl⟩
    obtain ⟨-, -, -, -, -, -, -, -, -, -, -, -, -, -, -, -, -, -, -, -, -, -, e0, e1, e2⟩ := index_facts t
    refine ⟨t, flush0_11 t, ?_⟩
    rw [mem_blk11]
    intro a
    match a with
    | ⟨0, _⟩ => show win0_11.index t 0 * 1 ≤ (i 0).val ∧ (i 0).val < win0_11.index t 0 * 1 + 1; rw [e0, ht]; omega
    | ⟨1, _⟩ => show win0_11.index t 1 * 256 ≤ (i 1).val ∧ (i 1).val < win0_11.index t 1 * 256 + 256; rw [e1]; omega
    | ⟨2, _⟩ => show win0_11.index t 2 * 256 ≤ (i 2).val ∧ (i 2).val < win0_11.index t 2 * 256 + 256; rw [e2]; omega

/-- The per-block pooled table after the region, entry by entry. -/
theorem p_apply (c : Dev nD) (t : Fin 25) (s d : Fin 256) :
    (dat0 (F := Ideal) V c).arrAt 11 cfg0.N (ix3 t s d)
      = partialPool (fun r j => (dat0 (F := Ideal) V c).arrAt 10 cfg0.N (ix2 r j)) (fun r => x2 V c (ix2 r (0 : Fin 1))) t s d := by
  rw [pool_final V c, layer_final V c]

end Cert.KernelIdeal.Sage0

end
-- ==== Proof.KSage1.lean ====
import proofs.«411381_j53893249630287_2_alg».proof.Proof.Gen.KernelIdeal.Frame
import proofs.«411381_j53893249630287_2_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Sage1

open Cert.KernelIdeal Cert.KernelIdeal.Gen Idealize.ShloMosaic Idealize.ShloMosaic.ValueIdx Idealize.ShloMosaic.TcCoe Idealize.SL.Sem Cert.Gnn
open Idealize.ShloMosaic.Pipeline (Dat Cfg Window)

/-! ## The two products, entry by entry -/

/-- The layer product's left operand is read at the output's row … -/
theorem lhs_layer_0 (i : S2000x256.Idx) (q : dot_S2000x256_S256x256_S2000x256_1_0_0_1_n_n.contr.Idx) :
    (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
/-- … and at the summation index; … -/
theorem lhs_layer_1 (i : S2000x256.Idx) (q : dot_S2000x256_S256x256_S2000x256_1_0_0_1_n_n.contr.Idx) :
    (dot_S2000x256_S256x256_S2000x256_1_0_0_1_n_n.lhsIdx i q 1).val = (q ⟨0, by decide⟩).val :=
  dot_S2000x256_S256x256_S2000x256_1_0_0_1_n_n.lhsIdx_val_of_single rfl i q
/-- … the right operand at the summation index … -/
theorem rhs_layer_0 (i : S2000x256.Idx) (q : dot_S2000x256_S256x256_S2000x256_1_0_0_1_n_n.contr.Idx) :
    (dot_S2000x256_S256x256_S2000x256_1_0_0_1_n_n.rhsIdx i q 0).val = (q ⟨0, by decide⟩).val :=
  dot_S2000x256_S256x256_S2000x256_1_0_0_1_n_n.rhsIdx_val_of_single rfl i q
/-- … and at the output's column. -/
theorem rhs_layer_1 (i : S2000x256.Idx) (q : dot_S2000x256_S256x256_S2000x256_1_0_0_1_n_n.contr.Idx) :
    (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- A layer product into a zero accumulator, at row p and column q: the sum over the 256 inner positions. -/
theorem layer_matmul_apply (a : FVec Ideal S2000x256 .bf16) (b : FVec Ideal S256x256 .bf16) (p : Fin 2000) (q : Fin 256) :
    matmul dot_S2000x256_S256x256_S2000x256_1_0_0_1_n_n none a b (constant S2000x256 .f32 0x00000000#32) (ix2 p q)
      = ∑ k : Fin 256, a (ix2 p k) * b (ix2 k q) := by
  simp only [matmul]
  rw [Ideal.matmul_constant_zero_apply, ← Equiv.sum_comp (contrEquiv1 dot_S2000x256_S256x256_S2000x256_1_0_0_1_n_n 256 rfl rfl).symm]
  refine Finset.sum_congr rfl fun k _ => ?_
  have hk := contrEquiv1_symm_val dot_S2000x256_S256x256_S2000x256_1_0_0_1_n_n 256 rfl rfl k
  have el : dot_S2000x256_S256x256_S2000x256_1_0_0_1_n_n.lhsIdx (ix2 p q) ((contrEquiv1 dot_S2000x256_S256x256_S2000x256_1_0_0_1_n_n 256 rfl rfl).symm k) = ix2 p k := funext fun ax => Fin.ext (by
    match ax with
    | ⟨0, _⟩ => exact lhs_layer_0 _ _
    | ⟨1, _⟩ => exact (lhs_layer_1 _ _).trans hk)
  have er : dot_S2000x256_S256x256_S2000x256_1_0_0_1_n_n.rhsIdx (ix2 p q) ((contrEquiv1 dot_S2000x256_S256x256_S2000x256_1_0_0_1_n_n 256 rfl rfl).symm k) = ix2 k q := funext fun ax => Fin.ext (by
    match ax with
    | ⟨0, _⟩ => exact (rhs_layer_0 _ _).trans hk
    | ⟨1, _⟩ => exact rhs_layer_1 _ _)
  rw [el, er]

/-- The pooling product's left operand is read at the summation index … -/
theorem lhs_pool_0 (i : S256x256.Idx) (q : dot_S2000x256_S2000x256_S256x256_0_0_1_1_n_n.contr.Idx) :
    (dot_S2000x256_S2000x256_S256x256_0_0_1_1_n_n.lhsIdx i q 0).val = (q ⟨0, by decide⟩).val :=
  dot_S2000x256_S2000x256_S256x256_0_0_1_1_n_n.lhsIdx_val_of_single rfl i q
/-- … and at the output's row; … -/
theorem lhs_pool_1 (i : S256x256.Idx) (q : dot_S2000x256_S2000x256_S256x256_0_0_1_1_n_n.contr.Idx) :
    (dot_S2000x256_S2000x256_S256x256_0_0_1_1_n_n.lhsIdx i q 1).val = (i 0).val := by
  unfold DotDims.lhsIdx
  rw [dif_neg (show ¬(1 : Fin S2000x256.rank) ∈ dot_S2000x256_S2000x256_S256x256_0_0_1_1_n_n.lhsBatch by decide), dif_pos (show (1 : Fin S2000x256.rank) ∈ dot_S2000x256_S2000x256_S256x256_0_0_1_1_n_n.lhsNonContracting by decide)]
  rfl
/-- … the right operand at the summation index … -/
theorem rhs_pool_0 (i : S256x256.Idx) (q : dot_S2000x256_S2000x256_S256x256_0_0_1_1_n_n.contr.Idx) :
    (dot_S2000x256_S2000x256_S256x256_0_0_1_1_n_n.rhsIdx i q 0).val = (q ⟨0, by decide⟩).val :=
  dot_S2000x256_S2000x256_S256x256_0_0_1_1_n_n.rhsIdx_val_of_single rfl i q
/-- … and at the output's column. -/
theorem rhs_pool_1 (i : S256x256.Idx) (q : dot_S2000x256_S2000x256_S256x256_0_0_1_1_n_n.contr.Idx) :
    (dot_S2000x256_S2000x256_S256x256_0_0_1_1_n_n.rhsIdx i q 1).val = (i 1).val := by
  unfold DotDims.rhsIdx
  rw [dif_neg (show ¬(1 : Fin S2000x256.rank) ∈ dot_S2000x256_S2000x256_S256x256_0_0_1_1_n_n.rhsBatch by decide), dif_pos (show (1 : Fin S2000x256.rank) ∈ dot_S2000x256_S2000x256_S256x256_0_0_1_1_n_n.rhsNonContracting by decide)]
  rfl

/-- The pooling product into a zero accumulator, at row s and column d: the sum over the block's 2000 rows. -/
theorem pool_matmul_apply (a b : FVec Ideal S2000x256 .bf16) (s d : Fin 256) :
    matmul dot_S2000x256_S2000x256_S256x256_0_0_1_1_n_n none a b (constant S256x256 .f32 0x00000000#32) (ix2 s d)
      = ∑ k : Fin 2000, a (ix2 k s) * b (ix2 k d) := by
  simp only [matmul]
  rw [Ideal.matmul_constant_zero_apply, ← Equiv.sum_comp (contrEquiv1 dot_S2000x256_S2000x256_S256x256_0_0_1_1_n_n 2000 rfl rfl).symm]
  refine Finset.sum_congr rfl fun k _ => ?_
  have hk := contrEquiv1_symm_val dot_S2000x256_S2000x256_S256x256_0_0_1_1_n_n 2000 rfl rfl k
  have el : dot_S2000x256_S2000x256_S256x256_0_0_1_1_n_n.lhsIdx (ix2 s d) ((contrEquiv1 dot_S2000x256_S2000x256_S256x256_0_0_1_1_n_n 2000 rfl rfl).symm k) = ix2 k s := funext fun ax => Fin.ext (by
    match ax with
    | ⟨0, _⟩ => exact (lhs_pool_0 _ _).trans hk
    | ⟨1, _⟩ => exact lhs_pool_1 _ _)
  have er : dot_S2000x256_S2000x256_S256x256_0_0_1_1_n_n.rhsIdx (ix2 s d) ((contrEquiv1 dot_S2000x256_S2000x256_S256x256_0_0_1_1_n_n 2000 rfl rfl).symm k) = ix2 k d := funext fun ax => Fin.ext (by
    match ax with
    | ⟨0, _⟩ => exact (rhs_pool_0 _ _).trans hk
    | ⟨1, _⟩ => exact rhs_pool_1 _ _)
  rw [el, er]

/-! ## The layer on a block of 2000 rows -/

/-- The layer's payload at row p and column q of the block. -/
theorem pay2_apply (v0 v3 : Vec Ideal S2000x256 .f32) (v6 v8 : Vec Ideal S256x256 .bf16) (v13 v19 v21 v27 v33 : Vec Ideal S1x256 .f32)
    (p : Fin 2000) (q : Fin 256) :
    k1_pay2 (F := Ideal) v0 v3 v6 v8 v13 v19 v21 v27 v33 (ix2 p q)
      = bnRelu ((∑ k : Fin 256, v0 (ix2 p k) * v6 (ix2 k q)) + (∑ k : Fin 256, v3 (ix2 p k) * v8 (ix2 k q)))
          (v13 (ix2 (0 : Fin 1) q)) (v19 (ix2 (0 : Fin 1) q)) (v33 (ix2 (0 : Fin 1) q)) (v27 (ix2 (0 : Fin 1) q)) (v21 (ix2 (0 : Fin 1) q)) := by
  unfold k1_pay2 bnRelu
  simp only [shapeCast_self, addf_apply, mulf_apply, subf_apply, maximumf_apply, broadcastTo_1b_ab_apply, broadcast_apply,
    layer_matmul_apply, truncf_apply]
  rfl

/-! ## The pooling of a block -/

/-- For a graph number below 256, a 32-bit word is that number's word exactly when its signed value is that number. -/
theorem word_eq_iff (w : BitVec 32) (s : Fin 256) : w = BitVec.ofNat 32 s.val ↔ w.toInt = (s.val : Int) := by
  have hs : (BitVec.ofNat 32 s.val).toInt = (s.val : Int) := by
    have hlt := s.isLt
    have hm : s.val % 2 ^ 32 = s.val := Nat.mod_eq_of_lt (by omega)
    rw [BitVec.toInt_eq_toNat_cond, BitVec.toNat_ofNat, hm]
    split <;> omega
  constructor
  · intro h; rw [h, hs]
  · intro h; exact BitVec.eq_of_toInt_eq (h.trans hs.symm)

/-- The comparison of a word with a graph number, widened and converted: the indicator. -/
theorem onehot_entry (w : BitVec 32) (s : Fin 256) :
    FloatOps.sitofp (F := Ideal) .f32 ((IntOp.cmpi .eq w (BitVec.ofNat 32 s.val)).setWidth 32) = onehot w s := by
  unfold onehot
  by_cases h : w.toInt = (s.val : Int)
  · rw [if_pos h, IntOp.cmpi_eq.mpr ((word_eq_iff w s).mpr h)]
    show (((1#1 : BitVec 1).setWidth 32).toInt : ℝ) = ((1 : ℝ) : EReal)
    norm_num
  · rw [if_neg h, eq_zero_of_ne_one (fun e => h ((word_eq_iff w s).mp (IntOp.cmpi_eq.mp e)))]
    show (((0#1 : BitVec 1).setWidth 32).toInt : ℝ) = ((0 : ℝ) : EReal)
    norm_num

/-- The block's graph numbers spread along the columns. -/
theorem bcast_col_apply (g : IVec S2000x1 32) (k : Fin 2000) (s : Fin 256) :
    broadcastTo S2000x256 g broadcasts_S2000x1_S2000x256 (ix2 k s) = g (ix2 k (0 : Fin 1)) := by
  refine broadcastTo_apply g broadcasts_S2000x1_S2000x256 (ix2 k s) (ix2 k (0 : Fin 1)) fun ax => ?_
  match ax with
  | ⟨0, _⟩ => rfl
  | ⟨1, _⟩ => rfl

/-- The pooling payload at graph s and column d: the indicator times the block's rows, summed. -/
theorem pay1_apply (h : FVec Ideal S2000x256 .f32) (g : Vec Ideal S2000x1 .i32) (s d : Fin 256) :
    k1_pay1 (F := Ideal) h g (ix3 (0 : Fin 1) s d) = ∑ k : Fin 2000, onehot (g (ix2 k (0 : Fin 1))) s * h (ix2 k d) := by
  unfold k1_pay1
  simp only [shapeCast_self]
  rw [shapeCast_ab_1ab_apply, pool_matmul_apply]
  refine Finset.sum_congr rfl fun k _ => ?_
  rw [truncf_apply, truncf_apply, sitofp_apply, extui_apply]
  show FloatOps.sitofp (F := Ideal) .f32 ((IntOp.cmpi .eq (broadcastTo S2000x256 g broadcasts_S2000x1_S2000x256 (ix2 k s))
      (broadcastTo S2000x256 (iota .tc S1x256 32 [1] iota_S1x256_d1_w32) broadcasts_S1x256_S2000x256 (ix2 k s))).setWidth 32) * h (ix2 k d) = _
  rw [bcast_col_apply, broadcastTo_1b_ab_apply, iota_single_apply]
  show FloatOps.sitofp (F := Ideal) .f32 ((IntOp.cmpi .eq (g (ix2 k (0 : Fin 1))) (BitVec.ofNat 32 s.val)).setWidth 32) * h (ix2 k d) = _
  rw [onehot_entry]

variable (V : (c : Dev nD) → (b : Ref sig .tc) → Buf (Elt Ideal) ((c : Thread nD τ).loc b))

/-! The arrays region 1 reads, as the region finds them, each at its literal type. -/
abbrev x0 (c : Dev nD) : Vec Ideal S50000x256 .f32 := V c (Pipeline.arrRef spec1 0)
abbrev x1 (c : Dev nD) : Vec Ideal S50000x256 .f32 := V c (Pipeline.arrRef spec1 1)
abbrev x2 (c : Dev nD) : Vec Ideal S50000x1 .i32 := V c (Pipeline.arrRef spec1 2)
abbrev x3 (c : Dev nD) : Vec Ideal S256x256 .bf16 := V c (Pipeline.arrRef spec1 3)
abbrev x4 (c : Dev nD) : Vec Ideal S256x256 .bf16 := V c (Pipeline.arrRef spec1 4)
abbrev x5 (c : Dev nD) : Vec Ideal S1x256 .f32 := V c (Pipeline.arrRef spec1 5)
abbrev x6 (c : Dev nD) : Vec Ideal S1x256 .f32 := V c (Pipeline.arrRef spec1 6)
abbrev x7 (c : Dev nD) : Vec Ideal S1x256 .f32 := V c (Pipeline.arrRef spec1 7)
abbrev x8 (c : Dev nD) : Vec Ideal S1x256 .f32 := V c (Pipeline.arrRef spec1 8)
abbrev x9 (c : Dev nD) : Vec Ideal S1x256 .f32 := V c (Pipeline.arrRef spec1 9)

/-! ## The windows' index maps, decided once over the grid -/

/-- The windows that move with the block row are at block row t, block column 0. -/
theorem idx_row : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_10.index t (0 : Fin 2) = t.val ∧ win1_10.index t (1 : Fin 2) = 0 :=
  (by decide +kernel : ∀ t : Fin grid1.N, _)

/-- The weights' and the parameter rows' windows stay at block 0. -/
theorem idx_const : ∀ t : Fin cfg1.N,
    win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = 0 ∧ win1_9.index t (1 : Fin 2) = 0 :=
  (by decide +kernel : ∀ t : Fin grid1.N, _)

/-- The pooled table's window is at block (t, 0, 0). -/
theorem idx_pool : ∀ t : Fin cfg1.N,
    win1_11.index t (0 : Fin 3) = t.val ∧ win1_11.index t (1 : Fin 3) = 0 ∧ win1_11.index t (2 : Fin 3) = 0 :=
  (by decide +kernel : ∀ t : Fin grid1.N, _)

/-! ## The blocks the body loads, read off the arrays -/

/-- Block t of the node rows is rows 2000 t … 2000 t + 1999. -/
theorem blk0_read (c : Dev nD) (t : Fin cfg1.N) (p : Fin 2000) (k : Fin 256) :
    iblk1 V c 0 t (ix2 p k) = x0 V c (ix2 (node t p) k) := by
  obtain ⟨e0, e1, -⟩ := idx_row t
  show x0 V c (((cfg1.win 0).blk t).view.emb (ix2 p k)) = _
  refine congrArg (x0 V c) (funext fun a => Fin.ext ?_)
  match a with
  | ⟨0, _⟩ => show win1_0.index t (0 : Fin 2) * 2000 + 1 * p.val = 2000 * t.val + p.val; omega
  | ⟨1, _⟩ => show win1_0.index t (1 : Fin 2) * 256 + 1 * k.val = k.val; omega
theorem blk1_read (c : Dev nD) (t : Fin cfg1.N) (p : Fin 2000) (k : Fin 256) :
    iblk1 V c 1 t (ix2 p k) = x1 V c (ix2 (node t p) k) := by
  obtain ⟨-, -, e0, e1, -⟩ := idx_row t
  show x1 V c (((cfg1.win 1).blk t).view.emb (ix2 p k)) = _
  refine congrArg (x1 V c) (funext fun a => Fin.ext ?_)
  match a with
  | ⟨0, _⟩ => show win1_1.index t (0 : Fin 2) * 2000 + 1 * p.val = 2000 * t.val + p.val; omega
  | ⟨1, _⟩ => show win1_1.index t (1 : Fin 2) * 256 + 1 * k.val = k.val; omega
/-- Block t of the graph numbers likewise. -/
theorem blk2_read (c : Dev nD) (t : Fin cfg1.N) (p : Fin 2000) :
    iblk1 V c 2 t (ix2 p (0 : Fin 1)) = x2 V c (ix2 (node t p) (0 : Fin 1)) := by
  obtain ⟨-, -, -, -, e0, e1, -⟩ := idx_row t
  show x2 V c (((cfg1.win 2).blk t).view.emb (ix2 p (0 : Fin 1))) = _
  refine congrArg (x2 V c) (funext fun a => Fin.ext ?_)
  match a with
  | ⟨0, _⟩ => show win1_2.index t (0 : Fin 2) * 2000 + 1 * p.val = 2000 * t.val + p.val; omega
  | ⟨1, _⟩ => show win1_2.index t (1 : Fin 2) * 1 + 1 * 0 = 0; omega
/-- The weights' blocks are the whole tables. -/
theorem blk3_read (c : Dev nD) (t : Fin cfg1.N) (k q : Fin 256) : iblk1 V c 3 t (ix2 k q) = x3 V c (ix2 k q) := by
  obtain ⟨e0, e1, -⟩ := idx_const t
  show x3 V c (((cfg1.win 3).blk t).view.emb (ix2 k q)) = _
  refine congrArg (x3 V c) (funext fun a => Fin.ext ?_)
  match a with
  | ⟨0, _⟩ => show win1_3.index t (0 : Fin 2) * 256 + 1 * k.val = k.val; omega
  | ⟨1, _⟩ => show win1_3.index t (1 : Fin 2) * 256 + 1 * q.val = q.val; omega
theorem blk4_read (c : Dev nD) (t : Fin cfg1.N) (k q : Fin 256) : iblk1 V c 4 t (ix2 k q) = x4 V c (ix2 k q) := by
  obtain ⟨-, -, e0, e1, -⟩ := idx_const t
  show x4 V c (((cfg1.win 4).blk t).view.emb (ix2 k q)) = _
  refine congrArg (x4 V c) (funext fun a => Fin.ext ?_)
  match a with
  | ⟨0, _⟩ => show win1_4.index t (0 : Fin 2) * 256 + 1 * k.val = k.val; omega
  | ⟨1, _⟩ => show win1_4.index t (1 : Fin 2) * 256 + 1 * q.val = q.val; omega
/-- The parameter rows' blocks are the whole rows. -/
theorem blk5_read (c : Dev nD) (t : Fin cfg1.N) (q : Fin 256) : iblk1 V c 5 t (ix2 (0 : Fin 1) q) = x5 V c (ix2 (0 : Fin 1) q) := by
  obtain ⟨-, -, -, -, e0, e1, -⟩ := idx_const t
  show x5 V c (((cfg1.win 5).blk t).view.emb (ix2 (0 : Fin 1) q)) = _
  refine congrArg (x5 V c) (funext fun a => Fin.ext ?_)
  match a with
  | ⟨0, _⟩ => show win1_5.index t (0 : Fin 2) * 1 + 1 * 0 = 0; omega
  | ⟨1, _⟩ => show win1_5.index t (1 : Fin 2) * 256 + 1 * q.val = q.val; omega
theorem blk6_read (c : Dev nD) (t : Fin cfg1.N) (q : Fin 256) : iblk1 V c 6 t (ix2 (0 : Fin 1) q) = x6 V c (ix2 (0 : Fin 1) q) := by
  obtain ⟨-, -, -, -, -, -, e0, e1, -⟩ := idx_const t
  show x6 V c (((cfg1.win 6).blk t).view.emb (ix2 (0 : Fin 1) q)) = _
  refine congrArg (x6 V c) (funext fun a => Fin.ext ?_)
  match a with
  | ⟨0, _⟩ => show win1_6.index t (0 : Fin 2) * 1 + 1 * 0 = 0; omega
  | ⟨1, _⟩ => show win1_6.index t (1 : Fin 2) * 256 + 1 * q.val = q.val; omega
theorem blk7_read (c : Dev nD) (t : Fin cfg1.N) (q : Fin 256) : iblk1 V c 7 t (ix2 (0 : Fin 1) q) = x7 V c (ix2 (0 : Fin 1) q) := by
  obtain ⟨-, -, -, -, -, -, -, -, e0, e1, -⟩ := idx_const t
  show x7 V c (((cfg1.win 7).blk t).view.emb (ix2 (0 : Fin 1) q)) = _
  refine congrArg (x7 V c) (funext fun a => Fin.ext ?_)
  match a with
  | ⟨0, _⟩ => show win1_7.index t (0 : Fin 2) * 1 + 1 * 0 = 0; omega
  | ⟨1, _⟩ => show win1_7.index t (1 : Fin 2) * 256 + 1 * q.val = q.val; omega
theorem blk8_read (c : Dev nD) (t : Fin cfg1.N) (q : Fin 256) : iblk1 V c 8 t (ix2 (0 : Fin 1) q) = x8 V c (ix2 (0 : Fin 1) q) := by
  obtain ⟨-, -, -, -, -, -, -, -, -, -, e0, e1, -⟩ := idx_const t
  show x8 V c (((cfg1.win 8).blk t).view.emb (ix2 (0 : Fin 1) q)) = _
  refine congrArg (x8 V c) (funext fun a => Fin.ext ?_)
  match a with
  | ⟨0, _⟩ => show win1_8.index t (0 : Fin 2) * 1 + 1 * 0 = 0; omega
  | ⟨1, _⟩ => show win1_8.index t (1 : Fin 2) * 256 + 1 * q.val = q.val; omega
theorem blk9_read (c : Dev nD) (t : Fin cfg1.N) (q : Fin 256) : iblk1 V c 9 t (ix2 (0 : Fin 1) q) = x9 V c (ix2 (0 : Fin 1) q) := by
  obtain ⟨-, -, -, -, -, -, -, -, -, -, -, -, e0, e1⟩ := idx_const t
  show x9 V c (((cfg1.win 9).blk t).view.emb (ix2 (0 : Fin 1) q)) = _
  refine congrArg (x9 V c) (funext fun a => Fin.ext ?_)
  match a with
  | ⟨0, _⟩ => show win1_9.index t (0 : Fin 2) * 1 + 1 * 0 = 0; omega
  | ⟨1, _⟩ => show win1_9.index t (1 : Fin 2) * 256 + 1 * q.val = q.val; omega

/-! ## The two arrays as functions of the arrays the region finds -/

/-- The layer at node r and column j. -/
def layerAt (c : Dev nD) (r : Fin 50000) (j : Fin 256) : EReal :=
  sage (fun r k => x0 V c (ix2 r k)) (fun r k => x1 V c (ix2 r k))
    (fun k j => x3 V c (ix2 k j)) (fun k j => x4 V c (ix2 k j))
    (fun j => x5 V c (ix2 (0 : Fin 1) j)) (fun j => x6 V c (ix2 (0 : Fin 1) j)) (fun j => x7 V c (ix2 (0 : Fin 1) j))
    (fun j => x8 V c (ix2 (0 : Fin 1) j)) (fun j => x9 V c (ix2 (0 : Fin 1) j)) r j

/-- The layer over the whole array. -/
def layerArr (c : Dev nD) : Vec Ideal S50000x256 .f32 := fun i => layerAt V c ⟨(i 0).val, (i 0).isLt⟩ ⟨(i 1).val, (i 1).isLt⟩

theorem layerArr_of_val (c : Dev nD) (i : S50000x256.Idx) (r : Fin 50000) (q : Fin 256) (h0 : (i 0).val = r.val) (h1 : (i 1).val = q.val) :
    layerArr V c i = layerAt V c r q := by
  have e0 : (⟨(i 0).val, (i 0).isLt⟩ : Fin 50000) = r := Fin.ext h0
  have e1 : (⟨(i 1).val, (i 1).isLt⟩ : Fin 256) = q := Fin.ext h1
  unfold layerArr
  rw [e0, e1]

/-- Block t's share of the pooled table at graph s and column d. -/
def poolAt (c : Dev nD) (t : Fin 25) (s d : Fin 256) : EReal :=
  partialPool (fun r j => layerAt V c r j) (fun r => x2 V c (ix2 r (0 : Fin 1))) t s d

/-- The pooled table over the whole array. -/
def poolArr (c : Dev nD) : Vec Ideal S25x256x256 .f32 := fun i =>
  poolAt V c ⟨(i 0).val, (i 0).isLt⟩ ⟨(i 1).val, (i 1).isLt⟩ ⟨(i 2).val, (i 2).isLt⟩

theorem poolArr_of_val (c : Dev nD) (i : S25x256x256.Idx) (t : Fin 25) (s d : Fin 256)
    (h0 : (i 0).val = t.val) (h1 : (i 1).val = s.val) (h2 : (i 2).val = d.val) : poolArr V c i = poolAt V c t s d := by
  have e0 : (⟨(i 0).val, (i 0).isLt⟩ : Fin 25) = t := Fin.ext h0
  have e1 : (⟨(i 1).val, (i 1).isLt⟩ : Fin 256) = s := Fin.ext h1
  have e2 : (⟨(i 2).val, (i 2).isLt⟩ : Fin 256) = d := Fin.ext h2
  unfold poolArr
  rw [e0, e1, e2]

/-! ## What the body computes on block t -/

/-- The layer's payload on block t, at row p and column q: the layer at node 2000 t + p. -/
theorem layer_block (c : Dev nD) (t : Fin cfg1.N) (p : Fin 2000) (q : Fin 256) :
    k1_pay2 (F := Ideal) (iblk1 V c 0 t) (iblk1 V c 1 t) (iblk1 V c 3 t) (iblk1 V c 4 t) (iblk1 V c 5 t) (iblk1 V c 6 t)
        (iblk1 V c 9 t) (iblk1 V c 8 t) (iblk1 V c 7 t) (ix2 p q)
      = layerAt V c (node t p) q := by
  rw [pay2_apply]
  simp only [blk0_read, blk1_read, blk3_read, blk4_read, blk5_read, blk6_read, blk7_read, blk8_read, blk9_read]
  rfl

/-- The pooling payload on block t, at graph s and column d: the block's share. -/
theorem pool_block (c : Dev nD) (t : Fin cfg1.N) (s d : Fin 256) :
    k1_pay1 (F := Ideal) (k1_pay2 (F := Ideal) (iblk1 V c 0 t) (iblk1 V c 1 t) (iblk1 V c 3 t) (iblk1 V c 4 t) (iblk1 V c 5 t) (iblk1 V c 6 t)
        (iblk1 V c 9 t) (iblk1 V c 8 t) (iblk1 V c 7 t)) (iblk1 V c 2 t) (ix3 (0 : Fin 1) s d)
      = poolAt V c t s d := by
  rw [pay1_apply]
  unfold poolAt partialPool
  refine Finset.sum_congr rfl fun k _ => ?_
  rw [layer_block, blk2_read]

/-! ## What each point writes back -/

theorem zero2 : (![0, 0] : Fin 2 → Nat) = fun _ => 0 := funext fun a => by fin_cases a <;> rfl
theorem zero3 : (![0, 0, 0] : Fin 3 → Nat) = fun _ => 0 := funext fun a => by fin_cases a <;> rfl

/-- Point t writes back block t of the layer over the whole array. -/
theorem flushed10_eq (c : Dev nD) (t : Fin cfg1.N) :
    (dat1 (F := Ideal) V c).flushed 10 t = ((cfg1.win 10).blk t).view.read (Elt Ideal) (layerArr V c) := by
  show (cfg1.win 10).cut (grid1.coords t) ((dat1 V c).after 10 t) = _
  rw [after1_10]
  unfold out1_10
  rw [View.canon_unit_zero zero2]
  simp only [View.ld_unit_zero (S := S2000x256) zero2, View.ld_unit_zero (S := S256x256) zero2, View.ld_unit_zero (S := S1x256) zero2]
  funext j
  have hj0 : (j 0).val < 2000 := (j 0).isLt
  have hj1 : (j 1).val < 256 := (j 1).isLt
  obtain ⟨-, -, -, -, -, -, e0, e1⟩ := idx_row t
  have hx : (win1 10).xinj (grid1.coords t) j = ix2 (⟨(j 0).val, hj0⟩ : Fin 2000) (⟨(j 1).val, hj1⟩ : Fin 256) :=
    funext fun a => by match a with | ⟨0, _⟩ => rfl | ⟨1, _⟩ => rfl
  show k1_pay2 (F := Ideal) (iblk1 V c 0 t) (iblk1 V c 1 t) (iblk1 V c 3 t) (iblk1 V c 4 t) (iblk1 V c 5 t) (iblk1 V c 6 t)
      (iblk1 V c 9 t) (iblk1 V c 8 t) (iblk1 V c 7 t) ((win1 10).xinj (grid1.coords t) j)
    = layerArr V c (((cfg1.win 10).blk t).view.emb j)
  rw [hx, layer_block]
  exact (layerArr_of_val V c _ (node t ⟨(j 0).val, hj0⟩) ⟨(j 1).val, hj1⟩
    (by show win1_10.index t (0 : Fin 2) * 2000 + 1 * (j 0).val = 2000 * t.val + (j 0).val; omega)
    (by show win1_10.index t (1 : Fin 2) * 256 + 1 * (j 1).val = (j 1).val; omega)).symm

/-- Point t writes back block t of the pooled table over the whole array. -/
theorem flushed11_eq (c : Dev nD) (t : Fin cfg1.N) :
    (dat1 (F := Ideal) V c).flushed 11 t = ((cfg1.win 11).blk t).view.read (Elt Ideal) (poolArr V c) := by
  show (cfg1.win 11).cut (grid1.coords t) ((dat1 V c).after 11 t) = _
  rw [after1_11]
  unfold out1_11
  rw [View.canon_unit_zero zero3]
  simp only [View.ld_unit_zero (S := S2000x256) zero2, View.ld_unit_zero (S := S256x256) zero2, View.ld_unit_zero (S := S1x256) zero2,
    View.ld_unit_zero (S := S2000x1) zero2]
  funext j
  have hj0 : (j 0).val < 1 := (j 0).isLt
  have hj1 : (j 1).val < 256 := (j 1).isLt
  have hj2 : (j 2).val < 256 := (j 2).isLt
  obtain ⟨e0, e1, e2⟩ := idx_pool t
  have hx : (win1 11).xinj (grid1.coords t) j = ix3 (0 : Fin 1) (⟨(j 1).val, hj1⟩ : Fin 256) (⟨(j 2).val, hj2⟩ : Fin 256) :=
    funext fun a => by
      match a with
      | ⟨0, _⟩ => exact Fin.ext (by show (j 0).val = 0; omega)
      | ⟨1, _⟩ => rfl
      | ⟨2, _⟩ => rfl
  show k1_pay1 (F := Ideal) (k1_pay2 (F := Ideal) (iblk1 V c 0 t) (iblk1 V c 1 t) (iblk1 V c 3 t) (iblk1 V c 4 t) (iblk1 V c 5 t) (iblk1 V c 6 t)
      (iblk1 V c 9 t) (iblk1 V c 8 t) (iblk1 V c 7 t)) (iblk1 V c 2 t) ((win1 11).xinj (grid1.coords t) j)
    = poolArr V c (((cfg1.win 11).blk t).view.emb j)
  rw [hx, pool_block]
  exact (poolArr_of_val V c _ t ⟨(j 1).val, hj1⟩ ⟨(j 2).val, hj2⟩
    (by show win1_11.index t (0 : Fin 3) * 1 + 1 * (j 0).val = t.val; omega)
    (by show win1_11.index t (1 : Fin 3) * 256 + 1 * (j 1).val = (j 1).val; omega)
    (by show win1_11.index t (2 : Fin 3) * 256 + 1 * (j 2).val = (j 2).val; omega)).symm

/-! ## The blocks cover the arrays -/

/-- An index of the layer's array is in point t's block iff each coordinate is in the block's range on its axis. -/
theorem mem_blk10 (t : Fin cfg1.N) (i : S50000x256.Idx) :
    i ∈ ((cfg1.win 10).blk t).view.set ↔ ∀ a : Fin 2, win1_10.index t a * S2000x256.size a ≤ (i a).val ∧ (i a).val < win1_10.index t a * S2000x256.size a + S2000x256.size a := by
  show i ∈ ((View.whole main_v58_0).slice (win1_10.rect t)).set ↔ _
  rw [View.set_slice_whole, Rect.mem_set_unit]
  exact Iff.rfl

/-- Row r of the layer's array is in the block of point r / 2000. -/
theorem cover10 (i : S50000x256.Idx) : ∃ t : Fin cfg1.N, (cfg1.win 10).flush t = true ∧ i ∈ ((cfg1.win 10).blk t).view.set := by
  have h0 : (i 0).val < 50000 := (i 0).isLt
  have h1 : (i 1).val < 256 := (i 1).isLt
  obtain ⟨t, ht⟩ : ∃ t : Fin cfg1.N, t.val = (i 0).val / 2000 := ⟨⟨(i 0).val / 2000, by show (i 0).val / 2000 < 25; omega⟩, rfl⟩
  obtain ⟨-, -, -, -, -, -, e0, e1⟩ := idx_row t
  refine ⟨t, flush1_10 t, ?_⟩
  rw [mem_blk10]
  intro a
  match a with
  | ⟨0, _⟩ => show win1_10.index t (0 : Fin 2) * 2000 ≤ (i 0).val ∧ (i 0).val < win1_10.index t (0 : Fin 2) * 2000 + 2000; omega
  | ⟨1, _⟩ => show win1_10.index t (1 : Fin 2) * 256 ≤ (i 1).val ∧ (i 1).val < win1_10.index t (1 : Fin 2) * 256 + 256; omega

/-- An index of the pooled table is in point t's block iff each coordinate is in the block's range on its axis. -/
theorem mem_blk11 (t : Fin cfg1.N) (i : S25x256x256.Idx) :
    i ∈ ((cfg1.win 11).blk t).view.set ↔ ∀ a : Fin 3, win1_11.index t a * S1x256x256.size a ≤ (i a).val ∧ (i a).val < win1_11.index t a * S1x256x256.size a + S1x256x256.size a := by
  show i ∈ ((View.whole main_v58_1).slice (win1_11.rect t)).set ↔ _
  rw [View.set_slice_whole, Rect.mem_set_unit]
  exact Iff.rfl

/-- Slab t of the pooled table is the block of point t. -/
theorem cover11 (i : S25x256x256.Idx) : ∃ t : Fin cfg1.N, (cfg1.win 11).flush t = true ∧ i ∈ ((cfg1.win 11).blk t).view.set := by
  have h0 : (i 0).val < 25 := (i 0).isLt
  have h1 : (i 1).val < 256 := (i 1).isLt
  have h2 : (i 2).val < 256 := (i 2).isLt
  obtain ⟨t, ht⟩ : ∃ t : Fin cfg1.N, t.val = (i 0).val := ⟨⟨(i 0).val, h0⟩, rfl⟩
  obtain ⟨e0, e1, e2⟩ := idx_pool t
  refine ⟨t, flush1_11 t, ?_⟩
  rw [mem_blk11]
  intro a
  match a with
  | ⟨0, _⟩ => show win1_11.index t (0 : Fin 3) * 1 ≤ (i 0).val ∧ (i 0).val < win1_11.index t (0 : Fin 3) * 1 + 1; omega
  | ⟨1, _⟩ => show win1_11.index t (1 : Fin 3) * 256 ≤ (i 1).val ∧ (i 1).val < win1_11.index t (1 : Fin 3) * 256 + 256; omega
  | ⟨2, _⟩ => show win1_11.index t (2 : Fin 3) * 256 ≤ (i 2).val ∧ (i 2).val < win1_11.index t (2 : Fin 3) * 256 + 256; omega

/-! ## The two arrays after the region -/

/-- The layer's output array after the region is the layer over the whole array. -/
theorem h_array (c : Dev nD) : (dat1 (F := Ideal) V c).arrAt 10 cfg1.N = layerArr V c :=
  (dat1 (F := Ideal) V c).arrAt_eq_of_cover 10 (layerArr V c) (fun t _ => flushed10_eq V c t) cover10

/-- The pooled table after the region is the pooled table over the whole array. -/
theorem p_array (c : Dev nD) : (dat1 (F := Ideal) V c).arrAt 11 cfg1.N = poolArr V c :=
  (dat1 (F := Ideal) V c).arrAt_eq_of_cover 11 (poolArr V c) (fun t _ => flushed11_eq V c t) cover11

/-- The layer's output array after the region, entry by entry. -/
theorem h_apply (c : Dev nD) (r : Fin 50000) (j : Fin 256) :
    (dat1 (F := Ideal) V c).arrAt 10 cfg1.N (ix2 r j)
      = sage (fun r k => x0 V c (ix2 r k)) (fun r k => x1 V c (ix2 r k))
          (fun k j => x3 V c (ix2 k j)) (fun k j => x4 V c (ix2 k j))
          (fun j => x5 V c (ix2 (0 : Fin 1) j)) (fun j => x6 V c (ix2 (0 : Fin 1) j)) (fun j => x7 V c (ix2 (0 : Fin 1) j))
          (fun j => x8 V c (ix2 (0 : Fin 1) j)) (fun j => x9 V c (ix2 (0 : Fin 1) j)) r j :=
  (congrFun (h_array V c) (ix2 r j)).trans rfl

/-- The per-block pooled table after the region, entry by entry. -/
theorem p_apply (c : Dev nD) (t : Fin 25) (s d : Fin 256) :
    (dat1 (F := Ideal) V c).arrAt 11 cfg1.N (ix3 t s d)
      = partialPool (fun r j => (dat1 (F := Ideal) V c).arrAt 10 cfg1.N (ix2 r j)) (fun r => x2 V c (ix2 r (0 : Fin 1))) t s d := by
  have e : (fun (r : Fin 50000) (j : Fin 256) => (dat1 (F := Ideal) V c).arrAt 10 cfg1.N (ix2 r j)) = fun r j => layerAt V c r j :=
    funext fun r => funext fun j => (congrFun (h_array V c) (ix2 r j)).trans rfl
  rw [e]
  exact (congrFun (p_array V c) (ix3 t s d)).trans rfl

end Cert.KernelIdeal.Sage1

end
-- ==== Proof.KReadout.lean ====
import proofs.«411381_j53893249630287_2_alg».proof.Proof.Gen.KernelIdeal.Frame
import proofs.«411381_j53893249630287_2_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Readout

open Cert.KernelIdeal Cert.KernelIdeal.Gen Idealize.ShloMosaic Idealize.ShloMosaic.ValueIdx Idealize.ShloMosaic.TcCoe Idealize.SL.Sem Cert.Gnn
open Idealize.ShloMosaic.Pipeline (Dat Cfg Window)

/-! ## Each non-pointwise operation of the read-out, read at explicit coordinates -/

/-- The sum over the 25 blocks: at (s, k) it is the sum over t of the operand at (t, s, k). -/
theorem blockSum_apply (x : FVec Ideal S25x256x256 .f32) (hφ : FKind.Formats .f32)
    (hacc : (0x00000000#32 : BitVec 32) = 0x00000000#32) (s k : Fin 256) :
    multiReduction (F := Ideal) .add [0] S256x256 x 0x00000000#32 reduces_S25x256x256_S256x256 hφ hacc (ix2 s k)
      = ∑ t : Fin 25, x (ix3 t s k) := by
  refine (Ideal.multiReduction_add_single x 0x00000000#32 reduces_S25x256x256_S256x256 hφ hacc (ix2 s k)).trans ?_
  refine Finset.sum_congr rfl fun t _ => congrArg x ?_
  funext a; apply Fin.ext
  match a with
  | ⟨0, _⟩ => rfl
  | ⟨1, _⟩ => rfl
  | ⟨2, _⟩ => rfl

/-- A row's sum over its 32 classes. -/
theorem rowSum_apply (x : FVec Ideal S256x32 .f32) (hφ : FKind.Formats .f32)
    (hacc : (0x00000000#32 : BitVec 32) = 0x00000000#32) (s : Fin 256) :
    multiReduction (F := Ideal) .add [1] S256 x 0x00000000#32 reduces_S256x32_S256 hφ hacc (ix1 s)
      = ∑ o : Fin 32, x (ix2 s o) := by
  refine (Ideal.multiReduction_add_single x 0x00000000#32 reduces_S256x32_S256 hφ hacc (ix1 s)).trans ?_
  refine Finset.sum_congr rfl fun o _ => congrArg x ?_
  funext a; apply Fin.ext
  match a with
  | ⟨0, _⟩ => rfl
  | ⟨1, _⟩ => rfl

/-- A row's maximum over its 32 classes, folded from the accumulator's value. -/
theorem rowMax_apply (x : FVec Ideal S256x32 .f32) (hφ : FKind.Formats .f32)
    (hacc : (0xFF800000#32 : BitVec 32) = 0xFF800000#32) (s : Fin 256) :
    multiReduction (F := Ideal) .maximumf [1] S256 x 0xFF800000#32 reduces_S256x32_S256 hφ hacc (ix1 s)
      = (Finset.univ : Finset (Fin 32)).fold max ninf (fun o => x (ix2 s o)) := by
  refine (Ideal.multiReduction_maximumf_single x 0xFF800000#32 reduces_S256x32_S256 hφ hacc (ix1 s)).trans ?_
  refine congrArg (fun f : Fin 32 → EReal => (Finset.univ : Finset (Fin 32)).fold max ninf f) ?_
  funext o
  refine congrArg x ?_
  funext a; apply Fin.ext
  match a with
  | ⟨0, _⟩ => rfl
  | ⟨1, _⟩ => rfl

/-- A column [256] cast to [256, 1] reads, at (s, u), the operand at s. -/
theorem colCast_apply (x : FVec Ideal S256 .f32) (s : Fin 256) (u : Fin 1) :
    shapeCast S256x1 x shapeCasts_S256_S256x1 (ix2 s u) = x (ix1 s) :=
  shapeCast_apply x shapeCasts_S256_S256x1 _ _ (by
    have hu : u.val = 0 := by omega
    rw [Shape.rowMajor_val_two, Shape.rowMajor_val_one]
    show s.val = s.val * 1 + u.val
    rw [hu, Nat.mul_one, Nat.add_zero])

/-- A [256, 1] column broadcast to [256, 32] reads, at (s, o), the operand at (s, 0). -/
theorem colBroadcast_apply (x : FVec Ideal S256x1 .f32) (s : Fin 256) (o : Fin 32) :
    broadcastTo S256x32 x broadcasts_S256x1_S256x32 (ix2 s o) = x (ix2 s (0 : Fin 1)) := by
  refine broadcastTo_apply x broadcasts_S256x1_S256x32 (ix2 s o) (ix2 s (0 : Fin 1)) fun ax => ?_
  match ax with
  | ⟨0, _⟩ =>
    show s.val = if (256 : ℕ) = 1 then 0 else s.val
    rw [if_neg (by decide)]
  | ⟨1, _⟩ => rfl

/-- A [1, 32] row broadcast to [256, 32] reads, at (s, o), the row at o. -/
theorem rowBroadcast_apply (x : FVec Ideal S1x32 .f32) (s : Fin 256) (o : Fin 32) :
    broadcastTo S256x32 x broadcasts_S1x32_S256x32 (ix2 s o) = x (ix2 (0 : Fin 1) o) :=
  broadcastTo_1b_ab_apply x broadcasts_S1x32_S256x32 s o

/-- The same, as a function of the index. -/
theorem blockSum_fun (x : FVec Ideal S25x256x256 .f32) (hφ : FKind.Formats .f32)
    (hacc : (0x00000000#32 : BitVec 32) = 0x00000000#32) :
    multiReduction (F := Ideal) .add [0] S256x256 x 0x00000000#32 reduces_S25x256x256_S256x256 hφ hacc
      = fun j : S256x256.Idx => ∑ t : Fin 25, x (ix3 t (⟨(j 0).val, (j 0).isLt⟩ : Fin 256) (⟨(j 1).val, (j 1).isLt⟩ : Fin 256)) := by
  funext j
  obtain ⟨s, k, rfl⟩ : ∃ (s k : Fin 256), j = ix2 s k := ⟨j 0, j 1, eq_ix2 j⟩
  exact blockSum_apply x hφ hacc s k

/-! ## The two matrix products -/

/-! The product's operand indices at output index `i` and contraction index `q`, axis by axis. -/

theorem mm_lhs_0 (i : S256x32.Idx) (q : dot_S256x256_S256x32_S256x32_1_0_0_1_n_n.contr.Idx) :
    (dot_S256x256_S256x32_S256x32_1_0_0_1_n_n.lhsIdx i q 0).val = (i 0).val := by
  unfold DotDims.lhsIdx
  rw [dif_neg (show ¬(0 : Fin S256x256.rank) ∈ dot_S256x256_S256x32_S256x32_1_0_0_1_n_n.lhsBatch by decide), dif_pos (show (0 : Fin S256x256.rank) ∈ dot_S256x256_S256x32_S256x32_1_0_0_1_n_n.lhsNonContracting by decide)]
  rfl
theorem mm_lhs_1 (i : S256x32.Idx) (q : dot_S256x256_S256x32_S256x32_1_0_0_1_n_n.contr.Idx) :
    (dot_S256x256_S256x32_S256x32_1_0_0_1_n_n.lhsIdx i q 1).val = (q ⟨0, by decide⟩).val :=
  dot_S256x256_S256x32_S256x32_1_0_0_1_n_n.lhsIdx_val_of_single rfl i q
theorem mm_rhs_0 (i : S256x32.Idx) (q : dot_S256x256_S256x32_S256x32_1_0_0_1_n_n.contr.Idx) :
    (dot_S256x256_S256x32_S256x32_1_0_0_1_n_n.rhsIdx i q 0).val = (q ⟨0, by decide⟩).val :=
  dot_S256x256_S256x32_S256x32_1_0_0_1_n_n.rhsIdx_val_of_single rfl i q
theorem mm_rhs_1 (i : S256x32.Idx) (q : dot_S256x256_S256x32_S256x32_1_0_0_1_n_n.contr.Idx) :
    (dot_S256x256_S256x32_S256x32_1_0_0_1_n_n.rhsIdx i q 1).val = (i 1).val := by
  unfold DotDims.rhsIdx
  rw [dif_neg (show ¬(1 : Fin S256x32.rank) ∈ dot_S256x256_S256x32_S256x32_1_0_0_1_n_n.rhsBatch by decide), dif_pos (show (1 : Fin S256x32.rank) ∈ dot_S256x256_S256x32_S256x32_1_0_0_1_n_n.rhsNonContracting by decide)]
  rfl

/-- A [256, 256] by [256, 32] product into the zero accumulator: at (s, o) the sum over k of row s times column o. -/
theorem mm_apply (l : FVec Ideal S256x256 .bf16) (r : FVec Ideal S256x32 .bf16) (s : Fin 256) (o : Fin 32) :
    matmul dot_S256x256_S256x32_S256x32_1_0_0_1_n_n none l r (constant (F := Ideal) S256x32 .f32 0x00000000#32) (ix2 s o)
      = ∑ k : Fin 256, l (ix2 s k) * r (ix2 k o) := by
  refine (Ideal.matmul_constant_zero_apply dot_S256x256_S256x32_S256x32_1_0_0_1_n_n none l r (ix2 s o)).trans ?_
  rw [← Equiv.sum_comp (ValueIdx.contrEquiv1 dot_S256x256_S256x32_S256x32_1_0_0_1_n_n 256 rfl rfl).symm]
  refine Finset.sum_congr rfl fun k _ => ?_
  have hk := ValueIdx.contrEquiv1_symm_val dot_S256x256_S256x32_S256x32_1_0_0_1_n_n 256 rfl rfl k
  have el : dot_S256x256_S256x32_S256x32_1_0_0_1_n_n.lhsIdx (ix2 s o) ((ValueIdx.contrEquiv1 dot_S256x256_S256x32_S256x32_1_0_0_1_n_n 256 rfl rfl).symm k) = ix2 s k := funext fun a => Fin.ext (by
    match a with
    | ⟨0, _⟩ => exact mm_lhs_0 _ _
    | ⟨1, _⟩ => exact (mm_lhs_1 _ _).trans hk)
  have er : dot_S256x256_S256x32_S256x32_1_0_0_1_n_n.rhsIdx (ix2 s o) ((ValueIdx.contrEquiv1 dot_S256x256_S256x32_S256x32_1_0_0_1_n_n 256 rfl rfl).symm k) = ix2 k o := funext fun a => Fin.ext (by
    match a with
    | ⟨0, _⟩ => exact (mm_rhs_0 _ _).trans hk
    | ⟨1, _⟩ => exact mm_rhs_1 _ _)
  rw [el, er]

/-! ## The pointwise unary operations at an index -/

theorem rsqrt_at {s : Shape} (x : FVec Ideal s .f32) (i : s.Idx) : rsqrt x i = Ideal.rsqrt (x i) := rfl
theorem exp_at {s : Shape} (x : FVec Ideal s .f32) (i : s.Idx) : exp x i = Ideal.exp (x i) := rfl
theorem log_at {s : Shape} (x : FVec Ideal s .f32) (i : s.Idx) : log x i = Ideal.log (x i) := rfl

/-! ## The read-out's payloads at explicit coordinates -/

/-- The pooled table of the second head's operand: the 25 blocks' shares summed. -/
theorem pay2_apply (v3 : Vec Ideal S25x256x256 .f32) (s k : Fin 256) :
    k2_pay2 (F := Ideal) v3 (ix2 s k) = ∑ t : Fin 25, v3 (ix3 t s k) := by
  unfold k2_pay2
  simp only [truncf_apply, shapeCast_self]
  rw [blockSum_apply]

/-- The second head's weights, as they are. -/
theorem pay3_eq (v10 : Vec Ideal S256x32 .bf16) : k2_pay3 (F := Ideal) v10 = v10 := by
  unfold k2_pay3
  simp only [shapeCast_self]

/-- The last step: the shifted scores less the logarithm of the row's sum of exponentials. -/
theorem pay1_apply (v72 : FVec Ideal S256x32 .f32) (v75 : FVec Ideal S256x1 .f32) (s : Fin 256) (o : Fin 32) :
    k2_pay1 (F := Ideal) v72 v75 (ix2 s o) = v72 (ix2 s o) - Ideal.log (v75 (ix2 s (0 : Fin 1))) := by
  unfold k2_pay1
  simp only [subf_apply, colBroadcast_apply, log_at]

/-- The first head before its shift: the pooled table times the weights, the bias, the rectifier, the normalisation's scale. -/
theorem pay4_apply (v0 : Vec Ideal S25x256x256 .f32) (v8 : Vec Ideal S256x32 .bf16) (v13 v19 v21 v27 : Vec Ideal S1x32 .f32)
    (s : Fin 256) (o : Fin 32) :
    k2_pay4 (F := Ideal) v0 v8 v13 v19 v21 v27 (ix2 s o)
      = (max ((∑ k : Fin 256, (∑ t : Fin 25, v0 (ix3 t s k)) * v8 (ix2 k o)) + v13 (ix2 (0 : Fin 1) o)) zero32
            - v27 (ix2 (0 : Fin 1) o))
          * (v19 (ix2 (0 : Fin 1) o) * Ideal.rsqrt (v21 (ix2 (0 : Fin 1) o) + eps)) := by
  unfold k2_pay4
  simp only [mulf_apply, subf_apply, addf_apply, maximumf_apply, rowBroadcast_apply, broadcast_apply, rsqrt_at,
    shapeCast_self, mm_apply, truncf_apply, Ideal.ofBits_def]
  rw [blockSum_fun]

/-- The shifted scores: the two heads mixed, less the row's maximum. The first head arrives without its shift, which is added here. -/
theorem pay5_apply (v7 : FVec Ideal S256x256 .bf16) (v11 : FVec Ideal S256x32 .bf16) (v32 : FVec Ideal S256x32 .f32)
    (v33 v38 v44 v46 v52 v58 : Vec Ideal S1x32 .f32) (s : Fin 256) (o : Fin 32) :
    k2_pay5 (F := Ideal) v7 v11 v32 v33 v38 v44 v46 v52 v58 (ix2 s o)
      = mix (fun s o => v32 (ix2 s o) + v33 (ix2 (0 : Fin 1) o))
            (head (fun s k => v7 (ix2 s k)) (fun k o => v11 (ix2 k o)) (fun o => v38 (ix2 (0 : Fin 1) o))
              (fun o => v44 (ix2 (0 : Fin 1) o)) (fun o => v58 (ix2 (0 : Fin 1) o)) (fun o => v52 (ix2 (0 : Fin 1) o))
              (fun o => v46 (ix2 (0 : Fin 1) o))) s o
        - rowMax (mix (fun s o => v32 (ix2 s o) + v33 (ix2 (0 : Fin 1) o))
            (head (fun s k => v7 (ix2 s k)) (fun k o => v11 (ix2 k o)) (fun o => v38 (ix2 (0 : Fin 1) o))
              (fun o => v44 (ix2 (0 : Fin 1) o)) (fun o => v58 (ix2 (0 : Fin 1) o)) (fun o => v52 (ix2 (0 : Fin 1) o))
              (fun o => v46 (ix2 (0 : Fin 1) o)))) s := by
  unfold k2_pay5
  simp only [subf_apply, colBroadcast_apply, colCast_apply, maximumf_apply, broadcast_apply, Ideal.ofBits_def]
  rw [rowMax_apply]
  simp only [mulf_apply, subf_apply, addf_apply, maximumf_apply, rowBroadcast_apply, broadcast_apply, rsqrt_at,
    shapeCast_self, mm_apply, Ideal.ofBits_def]
  rfl

/-- The row's sum of the exponentials of the shifted scores. -/
theorem pay6_apply (v7 : FVec Ideal S256x256 .bf16) (v11 : FVec Ideal S256x32 .bf16) (v32 : FVec Ideal S256x32 .f32)
    (v33 v38 v44 v46 v52 v58 : Vec Ideal S1x32 .f32) (s : Fin 256) (u : Fin 1) :
    k2_pay6 (F := Ideal) v7 v11 v32 v33 v38 v44 v46 v52 v58 (ix2 s u)
      = ∑ o : Fin 32, Ideal.exp (k2_pay5 (F := Ideal) v7 v11 v32 v33 v38 v44 v46 v52 v58 (ix2 s o)) := by
  unfold k2_pay6
  simp only [colCast_apply]
  rw [rowSum_apply]
  rfl

/-! ## The body's result at an entry -/

theorem hz2 : (![0, 0] : Fin 2 → Nat) = fun _ => 0 := funext fun a => by fin_cases a <;> rfl
theorem hz3 : (![0, 0, 0] : Fin 3 → Nat) = fun _ => 0 := funext fun a => by fin_cases a <;> rfl

/-- What the body leaves from whole arrays: the logarithmic softmax of the two heads' mixed scores. -/
theorem out2_14_apply (x0 x1 : Vec Ideal S25x256x256 .f32) (x2 : Vec Ideal S256x32 .bf16) (x3 x4 x5 x6 x7 : Vec Ideal S1x32 .f32)
    (x8 : Vec Ideal S256x32 .bf16) (x9 x10 x11 x12 x13 : Vec Ideal S1x32 .f32) (s : Fin 256) (o : Fin 32) :
    out2_14 (F := Ideal) x0 x1 x2 x3 x4 x5 x6 x7 x8 x9 x10 x11 x12 x13 (ix2 s o)
      = logSoftmax (mix
          (head (fun s k => ∑ t : Fin 25, x0 (ix3 t s k)) (fun k o => x2 (ix2 k o))
            (fun o => x3 (ix2 (0 : Fin 1) o)) (fun o => x4 (ix2 (0 : Fin 1) o)) (fun o => x5 (ix2 (0 : Fin 1) o))
            (fun o => x6 (ix2 (0 : Fin 1) o)) (fun o => x7 (ix2 (0 : Fin 1) o)))
          (head (fun s k => ∑ t : Fin 25, x1 (ix3 t s k)) (fun k o => x8 (ix2 k o))
            (fun o => x9 (ix2 (0 : Fin 1) o)) (fun o => x10 (ix2 (0 : Fin 1) o)) (fun o => x11 (ix2 (0 : Fin 1) o))
            (fun o => x12 (ix2 (0 : Fin 1) o)) (fun o => x13 (ix2 (0 : Fin 1) o)))) s o := by
  have hH1 : (fun (s : Fin 256) (o : Fin 32) => k2_pay4 (F := Ideal) x0 x2 x3 x4 x7 x6 (ix2 s o) + x5 (ix2 (0 : Fin 1) o))
      = head (fun s k => ∑ t : Fin 25, x0 (ix3 t s k)) (fun k o => x2 (ix2 k o))
            (fun o => x3 (ix2 (0 : Fin 1) o)) (fun o => x4 (ix2 (0 : Fin 1) o)) (fun o => x5 (ix2 (0 : Fin 1) o))
            (fun o => x6 (ix2 (0 : Fin 1) o)) (fun o => x7 (ix2 (0 : Fin 1) o)) := by
    funext s o
    rw [pay4_apply]
    rfl
  have hP2 : (fun (s k : Fin 256) => k2_pay2 (F := Ideal) x1 (ix2 s k)) = fun s k => ∑ t : Fin 25, x1 (ix3 t s k) := by
    funext s k
    exact pay2_apply x1 s k
  unfold out2_14
  rw [View.canon_unit_zero hz2]
  simp only [View.ld_unit_zero (S := S25x256x256) hz3, View.ld_unit_zero (S := S256x32) hz2, View.ld_unit_zero (S := S1x32) hz2]
  rw [pay1_apply, pay6_apply]
  simp only [pay5_apply, pay3_eq]
  rw [hH1, hP2]
  rfl

/-- The body's result depends on its operands only. -/
theorem out2_14_congr
    {a0 b0 : Vec Ideal S25x256x256 .f32} {a1 b1 : Vec Ideal S25x256x256 .f32} {a2 b2 : Vec Ideal S256x32 .bf16} {a3 b3 : Vec Ideal S1x32 .f32} {a4 b4 : Vec Ideal S1x32 .f32} {a5 b5 : Vec Ideal S1x32 .f32} {a6 b6 : Vec Ideal S1x32 .f32} {a7 b7 : Vec Ideal S1x32 .f32} {a8 b8 : Vec Ideal S256x32 .bf16} {a9 b9 : Vec Ideal S1x32 .f32} {a10 b10 : Vec Ideal S1x32 .f32} {a11 b11 : Vec Ideal S1x32 .f32} {a12 b12 : Vec Ideal S1x32 .f32} {a13 b13 : Vec Ideal S1x32 .f32}
    (h0 : a0 = b0) (h1 : a1 = b1) (h2 : a2 = b2) (h3 : a3 = b3) (h4 : a4 = b4) (h5 : a5 = b5) (h6 : a6 = b6) (h7 : a7 = b7) (h8 : a8 = b8) (h9 : a9 = b9) (h10 : a10 = b10) (h11 : a11 = b11) (h12 : a12 = b12) (h13 : a13 = b13) :
    out2_14 (F := Ideal) a0 a1 a2 a3 a4 a5 a6 a7 a8 a9 a10 a11 a12 a13 = out2_14 (F := Ideal) b0 b1 b2 b3 b4 b5 b6 b7 b8 b9 b10 b11 b12 b13 := by
  subst h0 h1 h2 h3 h4 h5 h6 h7 h8 h9 h10 h11 h12 h13
  rfl

variable (V : (c : Dev nD) → (b : Ref sig .tc) → Buf (Elt Ideal) ((c : Thread nD τ).loc b))

/-! The arrays region 2 reads, as the region finds them, each at its literal type. -/
abbrev y0 (c : Dev nD) : Vec Ideal S25x256x256 .f32 := V c (Pipeline.arrRef spec2 0)
abbrev y1 (c : Dev nD) : Vec Ideal S25x256x256 .f32 := V c (Pipeline.arrRef spec2 1)
abbrev y2 (c : Dev nD) : Vec Ideal S256x32 .bf16 := V c (Pipeline.arrRef spec2 2)
abbrev y3 (c : Dev nD) : Vec Ideal S1x32 .f32 := V c (Pipeline.arrRef spec2 3)
abbrev y4 (c : Dev nD) : Vec Ideal S1x32 .f32 := V c (Pipeline.arrRef spec2 4)
abbrev y5 (c : Dev nD) : Vec Ideal S1x32 .f32 := V c (Pipeline.arrRef spec2 5)
abbrev y6 (c : Dev nD) : Vec Ideal S1x32 .f32 := V c (Pipeline.arrRef spec2 6)
abbrev y7 (c : Dev nD) : Vec Ideal S1x32 .f32 := V c (Pipeline.arrRef spec2 7)
abbrev y8 (c : Dev nD) : Vec Ideal S256x32 .bf16 := V c (Pipeline.arrRef spec2 8)
abbrev y9 (c : Dev nD) : Vec Ideal S1x32 .f32 := V c (Pipeline.arrRef spec2 9)
abbrev y10 (c : Dev nD) : Vec Ideal S1x32 .f32 := V c (Pipeline.arrRef spec2 10)
abbrev y11 (c : Dev nD) : Vec Ideal S1x32 .f32 := V c (Pipeline.arrRef spec2 11)
abbrev y12 (c : Dev nD) : Vec Ideal S1x32 .f32 := V c (Pipeline.arrRef spec2 12)
abbrev y13 (c : Dev nD) : Vec Ideal S1x32 .f32 := V c (Pipeline.arrRef spec2 13)

/-! ## From the one block to the array

The region has one grid point, and at it every window's block index is zero on every axis, so every block is its whole array. -/

theorem idx2_0 : ∀ (t : Fin cfg2.N) (a : Fin 3), win2_0.index t a = 0 :=
  (by decide +kernel : ∀ (t : Fin grid2.N) (a : Fin 3), win2_0.index t a = 0)
theorem idx2_1 : ∀ (t : Fin cfg2.N) (a : Fin 3), win2_1.index t a = 0 :=
  (by decide +kernel : ∀ (t : Fin grid2.N) (a : Fin 3), win2_1.index t a = 0)
theorem idx2_2 : ∀ (t : Fin cfg2.N) (a : Fin 2), win2_2.index t a = 0 :=
  (by decide +kernel : ∀ (t : Fin grid2.N) (a : Fin 2), win2_2.index t a = 0)
theorem idx2_3 : ∀ (t : Fin cfg2.N) (a : Fin 2), win2_3.index t a = 0 :=
  (by decide +kernel : ∀ (t : Fin grid2.N) (a : Fin 2), win2_3.index t a = 0)
theorem idx2_4 : ∀ (t : Fin cfg2.N) (a : Fin 2), win2_4.index t a = 0 :=
  (by decide +kernel : ∀ (t : Fin grid2.N) (a : Fin 2), win2_4.index t a = 0)
theorem idx2_5 : ∀ (t : Fin cfg2.N) (a : Fin 2), win2_5.index t a = 0 :=
  (by decide +kernel : ∀ (t : Fin grid2.N) (a : Fin 2), win2_5.index t a = 0)
theorem idx2_6 : ∀ (t : Fin cfg2.N) (a : Fin 2), win2_6.index t a = 0 :=
  (by decide +kernel : ∀ (t : Fin grid2.N) (a : Fin 2), win2_6.index t a = 0)
theorem idx2_7 : ∀ (t : Fin cfg2.N) (a : Fin 2), win2_7.index t a = 0 :=
  (by decide +kernel : ∀ (t : Fin grid2.N) (a : Fin 2), win2_7.index t a = 0)
theorem idx2_8 : ∀ (t : Fin cfg2.N) (a : Fin 2), win2_8.index t a = 0 :=
  (by decide +kernel : ∀ (t : Fin grid2.N) (a : Fin 2), win2_8.index t a = 0)
theorem idx2_9 : ∀ (t : Fin cfg2.N) (a : Fin 2), win2_9.index t a = 0 :=
  (by decide +kernel : ∀ (t : Fin grid2.N) (a : Fin 2), win2_9.index t a = 0)
theorem idx2_10 : ∀ (t : Fin cfg2.N) (a : Fin 2), win2_10.index t a = 0 :=
  (by decide +kernel : ∀ (t : Fin grid2.N) (a : Fin 2), win2_10.index t a = 0)
theorem idx2_11 : ∀ (t : Fin cfg2.N) (a : Fin 2), win2_11.index t a = 0 :=
  (by decide +kernel : ∀ (t : Fin grid2.N) (a : Fin 2), win2_11.index t a = 0)
theorem idx2_12 : ∀ (t : Fin cfg2.N) (a : Fin 2), win2_12.index t a = 0 :=
  (by decide +kernel : ∀ (t : Fin grid2.N) (a : Fin 2), win2_12.index t a = 0)
theorem idx2_13 : ∀ (t : Fin cfg2.N) (a : Fin 2), win2_13.index t a = 0 :=
  (by decide +kernel : ∀ (t : Fin grid2.N) (a : Fin 2), win2_13.index t a = 0)
theorem idx2_14 : ∀ (t : Fin cfg2.N) (a : Fin 2), win2_14.index t a = 0 :=
  (by decide +kernel : ∀ (t : Fin grid2.N) (a : Fin 2), win2_14.index t a = 0)

/-- Window 0's block is its array. -/
theorem iblk2_0_eq (c : Dev nD) (t : Fin cfg2.N) :
    (iblk2 (F := Ideal) V c 0 t : Vec Ideal S25x256x256 .f32) = V c (Pipeline.arrRef spec2 0) := by
  funext j
  show V c (Pipeline.arrRef spec2 0) (((cfg2.win 0).blk t).view.emb j) = V c (Pipeline.arrRef spec2 0) j
  refine congrArg _ ?_
  funext a; apply Fin.ext
  match a with
  | ⟨0, _⟩ => show win2_0.index t (0 : Fin 3) * 25 + 1 * (j 0).val = (j 0).val; rw [idx2_0 t 0]; omega
  | ⟨1, _⟩ => show win2_0.index t (1 : Fin 3) * 256 + 1 * (j 1).val = (j 1).val; rw [idx2_0 t 1]; omega
  | ⟨2, _⟩ => show win2_0.index t (2 : Fin 3) * 256 + 1 * (j 2).val = (j 2).val; rw [idx2_0 t 2]; omega

/-- Window 1's block is its array. -/
theorem iblk2_1_eq (c : Dev nD) (t : Fin cfg2.N) :
    (iblk2 (F := Ideal) V c 1 t : Vec Ideal S25x256x256 .f32) = V c (Pipeline.arrRef spec2 1) := by
  funext j
  show V c (Pipeline.arrRef spec2 1) (((cfg2.win 1).blk t).view.emb j) = V c (Pipeline.arrRef spec2 1) j
  refine congrArg _ ?_
  funext a; apply Fin.ext
  match a with
  | ⟨0, _⟩ => show win2_1.index t (0 : Fin 3) * 25 + 1 * (j 0).val = (j 0).val; rw [idx2_1 t 0]; omega
  | ⟨1, _⟩ => show win2_1.index t (1 : Fin 3) * 256 + 1 * (j 1).val = (j 1).val; rw [idx2_1 t 1]; omega
  | ⟨2, _⟩ => show win2_1.index t (2 : Fin 3) * 256 + 1 * (j 2).val = (j 2).val; rw [idx2_1 t 2]; omega

/-- Window 2's block is its array. -/
theorem iblk2_2_eq (c : Dev nD) (t : Fin cfg2.N) :
    (iblk2 (F := Ideal) V c 2 t : Vec Ideal S256x32 .bf16) = V c (Pipeline.arrRef spec2 2) := by
  funext j
  show V c (Pipeline.arrRef spec2 2) (((cfg2.win 2).blk t).view.emb j) = V c (Pipeline.arrRef spec2 2) j
  refine congrArg _ ?_
  funext a; apply Fin.ext
  match a with
  | ⟨0, _⟩ => show win2_2.index t (0 : Fin 2) * 256 + 1 * (j 0).val = (j 0).val; rw [idx2_2 t 0]; omega
  | ⟨1, _⟩ => show win2_2.index t (1 : Fin 2) * 32 + 1 * (j 1).val = (j 1).val; rw [idx2_2 t 1]; omega

/-- Window 3's block is its array. -/
theorem iblk2_3_eq (c : Dev nD) (t : Fin cfg2.N) :
    (iblk2 (F := Ideal) V c 3 t : Vec Ideal S1x32 .f32) = V c (Pipeline.arrRef spec2 3) := by
  funext j
  show V c (Pipeline.arrRef spec2 3) (((cfg2.win 3).blk t).view.emb j) = V c (Pipeline.arrRef spec2 3) j
  refine congrArg _ ?_
  funext a; apply Fin.ext
  match a with
  | ⟨0, _⟩ => show win2_3.index t (0 : Fin 2) * 1 + 1 * (j 0).val = (j 0).val; rw [idx2_3 t 0]; omega
  | ⟨1, _⟩ => show win2_3.index t (1 : Fin 2) * 32 + 1 * (j 1).val = (j 1).val; rw [idx2_3 t 1]; omega

/-- Window 4's block is its array. -/
theorem iblk2_4_eq (c : Dev nD) (t : Fin cfg2.N) :
    (iblk2 (F := Ideal) V c 4 t : Vec Ideal S1x32 .f32) = V c (Pipeline.arrRef spec2 4) := by
  funext j
  show V c (Pipeline.arrRef spec2 4) (((cfg2.win 4).blk t).view.emb j) = V c (Pipeline.arrRef spec2 4) j
  refine congrArg _ ?_
  funext a; apply Fin.ext
  match a with
  | ⟨0, _⟩ => show win2_4.index t (0 : Fin 2) * 1 + 1 * (j 0).val = (j 0).val; rw [idx2_4 t 0]; omega
  | ⟨1, _⟩ => show win2_4.index t (1 : Fin 2) * 32 + 1 * (j 1).val = (j 1).val; rw [idx2_4 t 1]; omega

/-- Window 5's block is its array. -/
theorem iblk2_5_eq (c : Dev nD) (t : Fin cfg2.N) :
    (iblk2 (F := Ideal) V c 5 t : Vec Ideal S1x32 .f32) = V c (Pipeline.arrRef spec2 5) := by
  funext j
  show V c (Pipeline.arrRef spec2 5) (((cfg2.win 5).blk t).view.emb j) = V c (Pipeline.arrRef spec2 5) j
  refine congrArg _ ?_
  funext a; apply Fin.ext
  match a with
  | ⟨0, _⟩ => show win2_5.index t (0 : Fin 2) * 1 + 1 * (j 0).val = (j 0).val; rw [idx2_5 t 0]; omega
  | ⟨1, _⟩ => show win2_5.index t (1 : Fin 2) * 32 + 1 * (j 1).val = (j 1).val; rw [idx2_5 t 1]; omega

/-- Window 6's block is its array. -/
theorem iblk2_6_eq (c : Dev nD) (t : Fin cfg2.N) :
    (iblk2 (F := Ideal) V c 6 t : Vec Ideal S1x32 .f32) = V c (Pipeline.arrRef spec2 6) := by
  funext j
  show V c (Pipeline.arrRef spec2 6) (((cfg2.win 6).blk t).view.emb j) = V c (Pipeline.arrRef spec2 6) j
  refine congrArg _ ?_
  funext a; apply Fin.ext
  match a with
  | ⟨0, _⟩ => show win2_6.index t (0 : Fin 2) * 1 + 1 * (j 0).val = (j 0).val; rw [idx2_6 t 0]; omega
  | ⟨1, _⟩ => show win2_6.index t (1 : Fin 2) * 32 + 1 * (j 1).val = (j 1).val; rw [idx2_6 t 1]; omega

/-- Window 7's block is its array. -/
theorem iblk2_7_eq (c : Dev nD) (t : Fin cfg2.N) :
    (iblk2 (F := Ideal) V c 7 t : Vec Ideal S1x32 .f32) = V c (Pipeline.arrRef spec2 7) := by
  funext j
  show V c (Pipeline.arrRef spec2 7) (((cfg2.win 7).blk t).view.emb j) = V c (Pipeline.arrRef spec2 7) j
  refine congrArg _ ?_
  funext a; apply Fin.ext
  match a with
  | ⟨0, _⟩ => show win2_7.index t (0 : Fin 2) * 1 + 1 * (j 0).val = (j 0).val; rw [idx2_7 t 0]; omega
  | ⟨1, _⟩ => show win2_7.index t (1 : Fin 2) * 32 + 1 * (j 1).val = (j 1).val; rw [idx2_7 t 1]; omega

/-- Window 8's block is its array. -/
theorem iblk2_8_eq (c : Dev nD) (t : Fin cfg2.N) :
    (iblk2 (F := Ideal) V c 8 t : Vec Ideal S256x32 .bf16) = V c (Pipeline.arrRef spec2 8) := by
  funext j
  show V c (Pipeline.arrRef spec2 8) (((cfg2.win 8).blk t).view.emb j) = V c (Pipeline.arrRef spec2 8) j
  refine congrArg _ ?_
  funext a; apply Fin.ext
  match a with
  | ⟨0, _⟩ => show win2_8.index t (0 : Fin 2) * 256 + 1 * (j 0).val = (j 0).val; rw [idx2_8 t 0]; omega
  | ⟨1, _⟩ => show win2_8.index t (1 : Fin 2) * 32 + 1 * (j 1).val = (j 1).val; rw [idx2_8 t 1]; omega

/-- Window 9's block is its array. -/
theorem iblk2_9_eq (c : Dev nD) (t : Fin cfg2.N) :
    (iblk2 (F := Ideal) V c 9 t : Vec Ideal S1x32 .f32) = V c (Pipeline.arrRef spec2 9) := by
  funext j
  show V c (Pipeline.arrRef spec2 9) (((cfg2.win 9).blk t).view.emb j) = V c (Pipeline.arrRef spec2 9) j
  refine congrArg _ ?_
  funext a; apply Fin.ext
  match a with
  | ⟨0, _⟩ => show win2_9.index t (0 : Fin 2) * 1 + 1 * (j 0).val = (j 0).val; rw [idx2_9 t 0]; omega
  | ⟨1, _⟩ => show win2_9.index t (1 : Fin 2) * 32 + 1 * (j 1).val = (j 1).val; rw [idx2_9 t 1]; omega

/-- Window 10's block is its array. -/
theorem iblk2_10_eq (c : Dev nD) (t : Fin cfg2.N) :
    (iblk2 (F := Ideal) V c 10 t : Vec Ideal S1x32 .f32) = V c (Pipeline.arrRef spec2 10) := by
  funext j
  show V c (Pipeline.arrRef spec2 10) (((cfg2.win 10).blk t).view.emb j) = V c (Pipeline.arrRef spec2 10) j
  refine congrArg _ ?_
  funext a; apply Fin.ext
  match a with
  | ⟨0, _⟩ => show win2_10.index t (0 : Fin 2) * 1 + 1 * (j 0).val = (j 0).val; rw [idx2_10 t 0]; omega
  | ⟨1, _⟩ => show win2_10.index t (1 : Fin 2) * 32 + 1 * (j 1).val = (j 1).val; rw [idx2_10 t 1]; omega

/-- Window 11's block is its array. -/
theorem iblk2_11_eq (c : Dev nD) (t : Fin cfg2.N) :
    (iblk2 (F := Ideal) V c 11 t : Vec Ideal S1x32 .f32) = V c (Pipeline.arrRef spec2 11) := by
  funext j
  show V c (Pipeline.arrRef spec2 11) (((cfg2.win 11).blk t).view.emb j) = V c (Pipeline.arrRef spec2 11) j
  refine congrArg _ ?_
  funext a; apply Fin.ext
  match a with
  | ⟨0, _⟩ => show win2_11.index t (0 : Fin 2) * 1 + 1 * (j 0).val = (j 0).val; rw [idx2_11 t 0]; omega
  | ⟨1, _⟩ => show win2_11.index t (1 : Fin 2) * 32 + 1 * (j 1).val = (j 1).val; rw [idx2_11 t 1]; omega

/-- Window 12's block is its array. -/
theorem iblk2_12_eq (c : Dev nD) (t : Fin cfg2.N) :
    (iblk2 (F := Ideal) V c 12 t : Vec Ideal S1x32 .f32) = V c (Pipeline.arrRef spec2 12) := by
  funext j
  show V c (Pipeline.arrRef spec2 12) (((cfg2.win 12).blk t).view.emb j) = V c (Pipeline.arrRef spec2 12) j
  refine congrArg _ ?_
  funext a; apply Fin.ext
  match a with
  | ⟨0, _⟩ => show win2_12.index t (0 : Fin 2) * 1 + 1 * (j 0).val = (j 0).val; rw [idx2_12 t 0]; omega
  | ⟨1, _⟩ => show win2_12.index t (1 : Fin 2) * 32 + 1 * (j 1).val = (j 1).val; rw [idx2_12 t 1]; omega

/-- Window 13's block is its array. -/
theorem iblk2_13_eq (c : Dev nD) (t : Fin cfg2.N) :
    (iblk2 (F := Ideal) V c 13 t : Vec Ideal S1x32 .f32) = V c (Pipeline.arrRef spec2 13) := by
  funext j
  show V c (Pipeline.arrRef spec2 13) (((cfg2.win 13).blk t).view.emb j) = V c (Pipeline.arrRef spec2 13) j
  refine congrArg _ ?_
  funext a; apply Fin.ext
  match a with
  | ⟨0, _⟩ => show win2_13.index t (0 : Fin 2) * 1 + 1 * (j 0).val = (j 0).val; rw [idx2_13 t 0]; omega
  | ⟨1, _⟩ => show win2_13.index t (1 : Fin 2) * 32 + 1 * (j 1).val = (j 1).val; rw [idx2_13 t 1]; omega

/-- What the region leaves in its result array: the body's result from the whole arrays it reads. -/
abbrev G (c : Dev nD) : Vec Ideal S256x32 .f32 :=
  out2_14 (F := Ideal) (y0 V c) (y1 V c) (y2 V c) (y3 V c) (y4 V c) (y5 V c) (y6 V c) (y7 V c) (y8 V c) (y9 V c) (y10 V c) (y11 V c) (y12 V c) (y13 V c)

/-- What the one point writes back is the one block of `G`. -/
theorem flushed_eq (c : Dev nD) (t : Fin cfg2.N) :
    (dat2 (F := Ideal) V c).flushed 14 t = ((cfg2.win 14).blk t).view.read (Elt Ideal) (G V c) := by
  show (cfg2.win 14).cut (grid2.coords t) ((dat2 (F := Ideal) V c).after 14 t) = _
  rw [after2_14, out2_14_congr (iblk2_0_eq V c t) (iblk2_1_eq V c t) (iblk2_2_eq V c t) (iblk2_3_eq V c t) (iblk2_4_eq V c t) (iblk2_5_eq V c t) (iblk2_6_eq V c t) (iblk2_7_eq V c t) (iblk2_8_eq V c t) (iblk2_9_eq V c t) (iblk2_10_eq V c t) (iblk2_11_eq V c t) (iblk2_12_eq V c t) (iblk2_13_eq V c t)]
  funext j
  show G V c j = G V c (((cfg2.win 14).blk t).view.emb j)
  refine congrArg _ ?_
  funext a; apply Fin.ext
  match a with
  | ⟨0, _⟩ => show (j 0).val = win2_14.index t (0 : Fin 2) * 256 + 1 * (j 0).val; rw [idx2_14 t 0]; omega
  | ⟨1, _⟩ => show (j 1).val = win2_14.index t (1 : Fin 2) * 32 + 1 * (j 1).val; rw [idx2_14 t 1]; omega

/-- An entry of the result array is in the point's block iff each coordinate is in the block's range on its axis. -/
theorem mem_blk (t : Fin cfg2.N) (i : S256x32.Idx) :
    i ∈ ((cfg2.win 14).blk t).view.set ↔ ∀ a : Fin 2, win2_14.index t a * S256x32.size a ≤ (i a).val ∧ (i a).val < win2_14.index t a * S256x32.size a + S256x32.size a := by
  show i ∈ ((View.whole main_v69).slice (win2_14.rect t)).set ↔ _
  rw [View.set_slice_whole, Rect.mem_set_unit]
  exact Iff.rfl

/-- The one block is the whole result array. -/
theorem cover (i : S256x32.Idx) :
    ∃ t : Fin cfg2.N, (cfg2.win 14).flush t = true ∧ i ∈ ((cfg2.win 14).blk t).view.set := by
  refine ⟨t2_0, flush2_14 t2_0, ?_⟩
  rw [mem_blk]
  intro a
  match a with
  | ⟨0, _⟩ =>
    show win2_14.index t2_0 (0 : Fin 2) * 256 ≤ (i 0).val ∧ (i 0).val < win2_14.index t2_0 (0 : Fin 2) * 256 + 256
    rw [idx2_14 t2_0 0]; have h : (i 0).val < 256 := (i 0).isLt; omega
  | ⟨1, _⟩ =>
    show win2_14.index t2_0 (1 : Fin 2) * 32 ≤ (i 1).val ∧ (i 1).val < win2_14.index t2_0 (1 : Fin 2) * 32 + 32
    rw [idx2_14 t2_0 1]; have h : (i 1).val < 32 := (i 1).isLt; omega

/-- The result array after the region is `G`. -/
theorem final (c : Dev nD) : (dat2 (F := Ideal) V c).arrAt 14 cfg2.N = G V c :=
  (dat2 (F := Ideal) V c).arrAt_eq_of_cover 14 (G V c) (fun t _ => flushed_eq V c t) cover

/-- The read-out's result array after the region, entry by entry. -/
theorem out_apply (c : Dev nD) (s : Fin 256) (o : Fin 32) :
    (dat2 (F := Ideal) V c).arrAt 14 cfg2.N (ix2 s o)
      = logSoftmax (mix
          (head (fun s k => ∑ t : Fin 25, y0 V c (ix3 t s k)) (fun k o => y2 V c (ix2 k o))
            (fun o => y3 V c (ix2 (0 : Fin 1) o)) (fun o => y4 V c (ix2 (0 : Fin 1) o)) (fun o => y5 V c (ix2 (0 : Fin 1) o))
            (fun o => y6 V c (ix2 (0 : Fin 1) o)) (fun o => y7 V c (ix2 (0 : Fin 1) o)))
          (head (fun s k => ∑ t : Fin 25, y1 V c (ix3 t s k)) (fun k o => y8 V c (ix2 k o))
            (fun o => y9 V c (ix2 (0 : Fin 1) o)) (fun o => y10 V c (ix2 (0 : Fin 1) o)) (fun o => y11 V c (ix2 (0 : Fin 1) o))
            (fun o => y12 V c (ix2 (0 : Fin 1) o)) (fun o => y13 V c (ix2 (0 : Fin 1) o)))) s o := by
  refine (congrFun (final V c) (ix2 s o)).trans ?_
  exact out2_14_apply (y0 V c) (y1 V c) (y2 V c) (y3 V c) (y4 V c) (y5 V c) (y6 V c) (y7 V c) (y8 V c) (y9 V c) (y10 V c) (y11 V c) (y12 V c) (y13 V c) s o

end Cert.KernelIdeal.Readout

end
-- ==== Proof.KHostA.lean ====
import proofs.«411381_j53893249630287_2_alg».proof.Proof.Gen.KernelIdeal.Frame
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.HostA

open Cert.KernelIdeal Cert.KernelIdeal.Gen Idealize.ShloMosaic Idealize.ShloMosaic.ValueIdx Idealize.ShloMosaic.TcCoe Idealize.SL.Sem Idealize.ShloMosaic.StableHlo

variable (m : (ℓ : Loc nD τ sig) → Buf (Elt Ideal) ℓ) (ρ : Dev nD → PrngReg)

/-- The mean over a node's in-neighbours of the rows of `x`, as @main's host operations compute it: the rows gathered at the edges' sources
    (a negative source number counted from the end), summed into the edges' targets, and scaled by the inverse in-degree
    (zero for a node with no in-edge). -/
def nm128 {F : FTy → Type} [FloatOps F] (x : Vec F S50000x128 .f32) (src dst : IVec S800000 32) : Vec F S50000x128 .f32 :=
  mulf
    (Host.scatterAdd scatter_S50000x128_S800000x1_S800000x128_1_0_0_1
      (broadcastInDim S50000x128 ![] bcast_S_S50000x128 (constant (F := F) S_ .f32 0x00000000#32))
      (broadcastInDim S800000x1 ![0] bcast_S800000_S800000x1_0 dst)
      (extf .f32
        (Host.gather gather_S50000x128_S800000x1_S800000x128_1_0_n_n_0_1_1128
          (truncf .bf16 x bitsLt_bf16_f32)
          (broadcastInDim S800000x1 ![0] bcast_S800000_S800000x1_0
            (select
              (cmpi .slt src (broadcastInDim S800000 ![] bcast_S_S800000 (constantI S_ 32 0#32)))
              (addi src (broadcastInDim S800000 ![] bcast_S_S800000 (constantI S_ 32 50000#32)))
              src)))
        bitsLt_bf16_f32))
    (broadcastInDim S50000x128 ![0, 1] bcast_S50000x1_S50000x128_0_1
      (broadcastInDim S50000x1 ![0] bcast_S50000_S50000x1_0
        (select
          (cmpf (F := F) .ogt
            (Host.scatterAdd scatter_S50000_S800000x1_S800000_n_0_0_1
              (broadcastInDim S50000 ![] bcast_S_S50000 (constant (F := F) S_ .f32 0x00000000#32))
              (broadcastInDim S800000x1 ![0] bcast_S800000_S800000x1_0 dst)
              (broadcastInDim S800000 ![] bcast_S_S800000 (constant (F := F) S_ .f32 0x3F800000#32)))
            (broadcastInDim S50000 ![] bcast_S_S50000 (constant (F := F) S_ .f32 0x00000000#32)))
          (Host.divf
            (broadcastInDim S50000 ![] bcast_S_S50000 (constant (F := F) S_ .f32 0x3F800000#32))
            (maximumf
              (Host.scatterAdd scatter_S50000_S800000x1_S800000_n_0_0_1
                (broadcastInDim S50000 ![] bcast_S_S50000 (constant (F := F) S_ .f32 0x00000000#32))
                (broadcastInDim S800000x1 ![0] bcast_S800000_S800000x1_0 dst)
                (broadcastInDim S800000 ![] bcast_S_S800000 (constant (F := F) S_ .f32 0x3F800000#32)))
              (broadcastInDim S50000 ![] bcast_S_S50000 (constant (F := F) S_ .f32 0x3F800000#32))))
          (broadcastInDim S50000 ![] bcast_S_S50000 (constant (F := F) S_ .f32 0x00000000#32)))))

/-- A buffer that no operation of a stretch writes holds after the stretch what it held before. -/
local macro "unwritten " ops:ident : tactic => `(tactic| (
  refine StableHlo.after_of_forall_not_mem _ _ (List.forall_iff_forall_mem.mp ?_)
  simp only [$ops:ident, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-- An argument of @main that none of the three stretches writes holds at region 0's entry what the launch memory holds. -/
theorem arg_kept (c : Dev nD) (a : Ref sig .tc)
    (h2 : W3 m ρ c (Proc.devRef .tc a) = W2 m ρ c (Proc.devRef .tc a))
    (h1 : W2 m ρ c (Proc.devRef .tc a) = W1 m ρ c (Proc.devRef .tc a))
    (h0 : W1 m ρ c (Proc.devRef .tc a) = W0 m ρ c (Proc.devRef .tc a)) :
    W3 m ρ c (Proc.devRef .tc a) = m ((c : Thread nD τ).loc a) :=
  h2.trans (h1.trans (h0.trans rfl))

/-- An argument of @main that neither of the first two stretches writes holds before the third what the launch memory holds. -/
theorem arg_kept2 (c : Dev nD) (a : Ref sig .tc)
    (h1 : W2 m ρ c (Proc.devRef .tc a) = W1 m ρ c (Proc.devRef .tc a))
    (h0 : W1 m ρ c (Proc.devRef .tc a) = W0 m ρ c (Proc.devRef .tc a)) :
    W2 m ρ c (Proc.devRef .tc a) = m ((c : Thread nD τ).loc a) :=
  h1.trans (h0.trans rfl)

/-! ## What each stretch leaves in the buffers region 0 reads, over any contents `X` before the stretch -/

section Stretches

variable (X : Valuation τ sig (Elt Ideal))

/-- The first stretch: the in-degree compared with zero. -/
theorem s0_v5 : (StableHlo.after hostOps0 X (Proc.devRef .tc main_v5) : IVec S50000 1) =
    cmpf (F := Ideal) .ogt
      (Host.scatterAdd scatter_S50000_S800000x1_S800000_n_0_0_1
        (broadcastInDim S50000 ![] bcast_S_S50000 (constant (F := Ideal) S_ .f32 0x00000000#32))
        (broadcastInDim S800000x1 ![0] bcast_S800000_S800000x1_0 (X (Proc.devRef .tc main_arg2)))
        (broadcastInDim S800000 ![] bcast_S_S800000 (constant (F := Ideal) S_ .f32 0x3F800000#32)))
      (broadcastInDim S50000 ![] bcast_S_S50000 (constant (F := Ideal) S_ .f32 0x00000000#32)) := by
  after_results

/-- The first stretch: one over the in-degree raised to at least one. -/
theorem s0_v9 : (StableHlo.after hostOps0 X (Proc.devRef .tc main_v9) : Vec Ideal S50000 .f32) =
    Host.divf
      (broadcastInDim S50000 ![] bcast_S_S50000 (constant (F := Ideal) S_ .f32 0x3F800000#32))
      (maximumf
        (Host.scatterAdd scatter_S50000_S800000x1_S800000_n_0_0_1
          (broadcastInDim S50000 ![] bcast_S_S50000 (constant (F := Ideal) S_ .f32 0x00000000#32))
          (broadcastInDim S800000x1 ![0] bcast_S800000_S800000x1_0 (X (Proc.devRef .tc main_arg2)))
          (broadcastInDim S800000 ![] bcast_S_S800000 (constant (F := Ideal) S_ .f32 0x3F800000#32)))
        (broadcastInDim S50000 ![] bcast_S_S50000 (constant (F := Ideal) S_ .f32 0x3F800000#32))) := by
  after_results

/-- The first stretch: the zero the selection falls back to. -/
theorem s0_cst4 : (StableHlo.after hostOps0 X (Proc.devRef .tc main_cst_4) : Vec Ideal S_ .f32) =
    constant (F := Ideal) S_ .f32 0x00000000#32 := by
  after_results

/-- The second stretch: the selection between the inverse degree and zero. -/
theorem s1_v10 : (StableHlo.after hostOps0_1 X (Proc.devRef .tc main_v10) : Vec Ideal S50000 .f32) =
    select (X (Proc.devRef .tc main_v5) : IVec S50000 1) (X (Proc.devRef .tc main_v9) : Vec Ideal S50000 .f32)
      (broadcastInDim S50000 ![] bcast_S_S50000 (X (Proc.devRef .tc main_cst_4) : Vec Ideal S_ .f32)) := by
  rfl

/-- The third stretch: the gathered rows summed into the targets, times the broadcast of the selected inverse degree. -/
theorem s2_v32 : (StableHlo.after hostOps0_2 X (Proc.devRef .tc main_v32) : Vec Ideal S50000x128 .f32) =
    mulf
      (Host.scatterAdd scatter_S50000x128_S800000x1_S800000x128_1_0_0_1
        (broadcastInDim S50000x128 ![] bcast_S_S50000x128 (constant (F := Ideal) S_ .f32 0x00000000#32))
        (broadcastInDim S800000x1 ![0] bcast_S800000_S800000x1_0 (X (Proc.devRef .tc main_arg2)))
        (extf .f32
          (Host.gather gather_S50000x128_S800000x1_S800000x128_1_0_n_n_0_1_1128
            (truncf .bf16 (X (Proc.devRef .tc main_arg0) : Vec Ideal S50000x128 .f32) bitsLt_bf16_f32)
            (broadcastInDim S800000x1 ![0] bcast_S800000_S800000x1_0
              (select
                (cmpi .slt (X (Proc.devRef .tc main_arg1) : IVec S800000 32) (broadcastInDim S800000 ![] bcast_S_S800000 (constantI S_ 32 0#32)))
                (addi (X (Proc.devRef .tc main_arg1) : IVec S800000 32) (broadcastInDim S800000 ![] bcast_S_S800000 (constantI S_ 32 50000#32)))
                (X (Proc.devRef .tc main_arg1) : IVec S800000 32))))
          bitsLt_bf16_f32))
      (broadcastInDim S50000x128 ![0, 1] bcast_S50000x1_S50000x128_0_1
        (broadcastInDim S50000x1 ![0] bcast_S50000_S50000x1_0 (X (Proc.devRef .tc main_v10) : Vec Ideal S50000 .f32))) := by
  after_results_simp

/-- The third stretch: the node numbers' column. -/
theorem s2_v18 : (StableHlo.after hostOps0_2 X (Proc.devRef .tc main_v18) : IVec S50000x1 32) =
    shapeCast S50000x1 (X (Proc.devRef .tc main_arg3) : IVec S50000 32) shapeCasts_S50000_S50000x1 := by
  after_results_simp <;> rfl

/-- The third stretch: the two weight tables of layer 1, narrowed. -/
theorem s2_v12 : (StableHlo.after hostOps0_2 X (Proc.devRef .tc main_v12) : Vec Ideal S128x256 .bf16) =
    truncf (F := Ideal) (s := S128x256) (φ := .f32) .bf16 (X (Proc.devRef .tc main_arg4)) bitsLt_bf16_f32 := by
  after_results_simp <;> rfl
theorem s2_v13 : (StableHlo.after hostOps0_2 X (Proc.devRef .tc main_v13) : Vec Ideal S128x256 .bf16) =
    truncf (F := Ideal) (s := S128x256) (φ := .f32) .bf16 (X (Proc.devRef .tc main_arg5)) bitsLt_bf16_f32 := by
  after_results_simp <;> rfl

/-- The third stretch: the five per-column parameter rows of layer 1. -/
theorem s2_v33 : (StableHlo.after hostOps0_2 X (Proc.devRef .tc main_v33) : Vec Ideal S1x256 .f32) =
    shapeCast S1x256 (X (Proc.devRef .tc main_arg6) : Vec Ideal S256 .f32) shapeCasts_S256_S1x256 := by
  after_results_simp <;> rfl
theorem s2_v34 : (StableHlo.after hostOps0_2 X (Proc.devRef .tc main_v34) : Vec Ideal S1x256 .f32) =
    shapeCast S1x256 (X (Proc.devRef .tc main_arg7) : Vec Ideal S256 .f32) shapeCasts_S256_S1x256 := by
  after_results_simp <;> rfl
theorem s2_v35 : (StableHlo.after hostOps0_2 X (Proc.devRef .tc main_v35) : Vec Ideal S1x256 .f32) =
    shapeCast S1x256 (X (Proc.devRef .tc main_arg8) : Vec Ideal S256 .f32) shapeCasts_S256_S1x256 := by
  after_results_simp <;> rfl
theorem s2_v36 : (StableHlo.after hostOps0_2 X (Proc.devRef .tc main_v36) : Vec Ideal S1x256 .f32) =
    shapeCast S1x256 (X (Proc.devRef .tc main_arg9) : Vec Ideal S256 .f32) shapeCasts_S256_S1x256 := by
  after_results_simp <;> rfl
theorem s2_v37 : (StableHlo.after hostOps0_2 X (Proc.devRef .tc main_v37) : Vec Ideal S1x256 .f32) =
    shapeCast S1x256 (X (Proc.devRef .tc main_arg10) : Vec Ideal S256 .f32) shapeCasts_S256_S1x256 := by
  after_results_simp <;> rfl

end Stretches

/-- An argument's contents before the third stretch are the launch memory's. -/
local macro "kept2 " c:ident a:ident : term => `(arg_kept2 m ρ $c $a (by unwritten hostOps0_1) (by unwritten hostOps0))

/-! Region 0 is entered at `V3`: the launch memory after the three stretches of host operations before it. -/

theorem in0_0 (c : Dev nD) : V3 m ρ c main_arg0 = m ((c : Thread nD τ).loc main_arg0) :=
  arg_kept m ρ c main_arg0 (by unwritten hostOps0_2) (by unwritten hostOps0_1) (by unwritten hostOps0)
theorem in0_1 (c : Dev nD) : V3 m ρ c main_v32 = nm128 (m ((c : Thread nD τ).loc main_arg0)) (m ((c : Thread nD τ).loc main_arg1)) (m ((c : Thread nD τ).loc main_arg2)) := by
  have a0 := kept2 c main_arg0
  have a1 := kept2 c main_arg1
  have a2 := kept2 c main_arg2
  have k5 : W2 m ρ c (Proc.devRef .tc main_v5) = W1 m ρ c (Proc.devRef .tc main_v5) := by unwritten hostOps0_1
  have k9 : W2 m ρ c (Proc.devRef .tc main_v9) = W1 m ρ c (Proc.devRef .tc main_v9) := by unwritten hostOps0_1
  have e10 : (W2 m ρ c (Proc.devRef .tc main_v10) : Vec Ideal S50000 .f32) = _ := s1_v10 (W1 m ρ c)
  have e5 : (W1 m ρ c (Proc.devRef .tc main_v5) : IVec S50000 1) = _ := s0_v5 (W0 m ρ c)
  have e9 : (W1 m ρ c (Proc.devRef .tc main_v9) : Vec Ideal S50000 .f32) = _ := s0_v9 (W0 m ρ c)
  have e4 : (W1 m ρ c (Proc.devRef .tc main_cst_4) : Vec Ideal S_ .f32) = _ := s0_cst4 (W0 m ρ c)
  show StableHlo.after hostOps0_2 (W2 m ρ c) (Proc.devRef .tc main_v32) = _
  rw [s2_v32, a0, a1, a2, e10, e5, e9, e4]
  rfl
theorem in0_2 (c : Dev nD) (r : Fin 50000) : V3 m ρ c main_v18 (ix2 r (0 : Fin 1)) = m ((c : Thread nD τ).loc main_arg3) (ix1 r) := by
  have a := kept2 c main_arg3
  show StableHlo.after hostOps0_2 (W2 m ρ c) (Proc.devRef .tc main_v18) (ix2 r (0 : Fin 1)) = _
  rw [s2_v18, a]
  exact shapeCast_apply _ _ _ _ (by
    show ((⟨1, ![50000]⟩ : Shape).rowMajor (ix1 r)).val = ((⟨2, ![50000, 1]⟩ : Shape).rowMajor (ix2 r (0 : Fin 1))).val
    rw [Shape.rowMajor_val_two, Shape.rowMajor_val_one]
    show r.val = r.val * 1 + 0
    omega)
theorem in0_3 (c : Dev nD) (i : S128x256.Idx) : V3 m ρ c main_v12 i = m ((c : Thread nD τ).loc main_arg4) i := by
  have a := kept2 c main_arg4
  show StableHlo.after hostOps0_2 (W2 m ρ c) (Proc.devRef .tc main_v12) i = _
  rw [s2_v12, a]
  rfl
theorem in0_4 (c : Dev nD) (i : S128x256.Idx) : V3 m ρ c main_v13 i = m ((c : Thread nD τ).loc main_arg5) i := by
  have a := kept2 c main_arg5
  show StableHlo.after hostOps0_2 (W2 m ρ c) (Proc.devRef .tc main_v13) i = _
  rw [s2_v13, a]
  rfl
theorem in0_5 (c : Dev nD) (j : Fin 256) : V3 m ρ c main_v33 (ix2 (0 : Fin 1) j) = m ((c : Thread nD τ).loc main_arg6) (ix1 j) := by
  have a := kept2 c main_arg6
  show StableHlo.after hostOps0_2 (W2 m ρ c) (Proc.devRef .tc main_v33) (ix2 (0 : Fin 1) j) = _
  rw [s2_v33, a]
  exact shapeCast_a_1a_apply _ _ _ _
theorem in0_6 (c : Dev nD) (j : Fin 256) : V3 m ρ c main_v34 (ix2 (0 : Fin 1) j) = m ((c : Thread nD τ).loc main_arg7) (ix1 j) := by
  have a := kept2 c main_arg7
  show StableHlo.after hostOps0_2 (W2 m ρ c) (Proc.devRef .tc main_v34) (ix2 (0 : Fin 1) j) = _
  rw [s2_v34, a]
  exact shapeCast_a_1a_apply _ _ _ _
theorem in0_7 (c : Dev nD) (j : Fin 256) : V3 m ρ c main_v35 (ix2 (0 : Fin 1) j) = m ((c : Thread nD τ).loc main_arg8) (ix1 j) := by
  have a := kept2 c main_arg8
  show StableHlo.after hostOps0_2 (W2 m ρ c) (Proc.devRef .tc main_v35) (ix2 (0 : Fin 1) j) = _
  rw [s2_v35, a]
  exact shapeCast_a_1a_apply _ _ _ _
theorem in0_8 (c : Dev nD) (j : Fin 256) : V3 m ρ c main_v36 (ix2 (0 : Fin 1) j) = m ((c : Thread nD τ).loc main_arg9) (ix1 j) := by
  have a := kept2 c main_arg9
  show StableHlo.after hostOps0_2 (W2 m ρ c) (Proc.devRef .tc main_v36) (ix2 (0 : Fin 1) j) = _
  rw [s2_v36, a]
  exact shapeCast_a_1a_apply _ _ _ _
theorem in0_9 (c : Dev nD) (j : Fin 256) : V3 m ρ c main_v37 (ix2 (0 : Fin 1) j) = m ((c : Thread nD τ).loc main_arg10) (ix1 j) := by
  have a := kept2 c main_arg10
  show StableHlo.after hostOps0_2 (W2 m ρ c) (Proc.devRef .tc main_v37) (ix2 (0 : Fin 1) j) = _
  rw [s2_v37, a]
  exact shapeCast_a_1a_apply _ _ _ _

end Cert.KernelIdeal.HostA

end
-- ==== Proof.KHostB.lean ====
import proofs.«411381_j53893249630287_2_alg».proof.Proof.Gen.KernelIdeal.Frame
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.HostB

open Cert.KernelIdeal Cert.KernelIdeal.Gen Idealize.ShloMosaic Idealize.ShloMosaic.ValueIdx Idealize.ShloMosaic.TcCoe Idealize.SL.Sem Idealize.ShloMosaic.StableHlo

variable (m : (ℓ : Loc nD τ sig) → Buf (Elt Ideal) ℓ) (ρ : Dev nD → PrngReg)

/-- The inverse in-degree column: the number of edges into each node, counted by adding ones at the edges' targets,
    inverted where it is positive (the count held at one or above) and zero elsewhere, as a column. -/
def invDeg {F : FTy → Type} [FloatOps F] (dst : IVec S800000 32) : Vec F S50000x1 .f32 :=
  broadcastInDim S50000x1 ![0] bcast_S50000_S50000x1_0
    (select
      (cmpf (F := F) .ogt
        (Host.scatterAdd scatter_S50000_S800000x1_S800000_n_0_0_1
          (broadcastInDim S50000 ![] bcast_S_S50000 (constant (F := F) S_ .f32 0x00000000#32))
          (broadcastInDim S800000x1 ![0] bcast_S800000_S800000x1_0 dst)
          (broadcastInDim S800000 ![] bcast_S_S800000 (constant (F := F) S_ .f32 0x3F800000#32)))
        (broadcastInDim S50000 ![] bcast_S_S50000 (constant (F := F) S_ .f32 0x00000000#32)))
      (Host.divf
        (broadcastInDim S50000 ![] bcast_S_S50000 (constant (F := F) S_ .f32 0x3F800000#32))
        (maximumf
          (Host.scatterAdd scatter_S50000_S800000x1_S800000_n_0_0_1
            (broadcastInDim S50000 ![] bcast_S_S50000 (constant (F := F) S_ .f32 0x00000000#32))
            (broadcastInDim S800000x1 ![0] bcast_S800000_S800000x1_0 dst)
            (broadcastInDim S800000 ![] bcast_S_S800000 (constant (F := F) S_ .f32 0x3F800000#32)))
          (broadcastInDim S50000 ![] bcast_S_S50000 (constant (F := F) S_ .f32 0x3F800000#32))))
      (broadcastInDim S50000 ![] bcast_S_S50000 (id (constant (F := F) S_ .f32 0x00000000#32))))

/-- The mean over a node's in-neighbours of the rows of `x`, as @main's host operations compute it: the rows gathered at the edges' sources
    (a negative source number counted from the end), summed into the edges' targets, and scaled by the inverse in-degree
    (zero for a node with no in-edge). -/
def nm256 {F : FTy → Type} [FloatOps F] (x : Vec F S50000x256 .f32) (src dst : IVec S800000 32) : Vec F S50000x256 .f32 :=
  mulf
    (Host.scatterAdd scatter_S50000x256_S800000x1_S800000x256_1_0_0_1
      (broadcastInDim S50000x256 ![] bcast_S_S50000x256 (constant (F := F) S_ .f32 0x00000000#32))
      (broadcastInDim S800000x1 ![0] bcast_S800000_S800000x1_0 dst)
      (extf .f32
        (Host.gather gather_S50000x256_S800000x1_S800000x256_1_0_n_n_0_1_1256
          (truncf .bf16 x bitsLt_bf16_f32)
          (broadcastInDim S800000x1 ![0] bcast_S800000_S800000x1_0
            (select
              (cmpi .slt src (broadcastInDim S800000 ![] bcast_S_S800000 (constantI S_ 32 0#32)))
              (addi src (broadcastInDim S800000 ![] bcast_S_S800000 (constantI S_ 32 50000#32)))
              src)))
        bitsLt_bf16_f32))
    (broadcastInDim S50000x256 ![0, 1] bcast_S50000x1_S50000x256_0_1 (invDeg (F := F) dst))

/-- A buffer that no operation of the stretch writes keeps its contents. -/
local macro "keeps " ops:ident : tactic => `(tactic| (
  refine StableHlo.after_of_forall_not_mem _ _ (List.forall_iff_forall_mem.mp ?_)
  simp only [$ops:ident, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

/-- A length-`a` array cast to `[a, 1]` reads, at `(i, 0)`, the operand at `i`. -/
private theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-! ## One stretch of host operations at a time, over any contents before it -/

section Stretches

variable (X : Valuation τ sig (Elt Ideal))

/-- The in-degree is positive: the first stretch's comparison. -/
theorem ops0_v5 : StableHlo.after hostOps0 X (Proc.devRef .tc main_v5)
    = cmpf (F := Ideal) .ogt
        (Host.scatterAdd scatter_S50000_S800000x1_S800000_n_0_0_1
          (broadcastInDim S50000 ![] bcast_S_S50000 (constant (F := Ideal) S_ .f32 0x00000000#32))
          (broadcastInDim S800000x1 ![0] bcast_S800000_S800000x1_0 (X (Proc.devRef .tc main_arg2)))
          (broadcastInDim S800000 ![] bcast_S_S800000 (constant (F := Ideal) S_ .f32 0x3F800000#32)))
        (broadcastInDim S50000 ![] bcast_S_S50000 (constant (F := Ideal) S_ .f32 0x00000000#32)) := by
  after_results_simp

/-- One over the in-degree held at one or above: the first stretch's quotient. -/
theorem ops0_v9 : StableHlo.after hostOps0 X (Proc.devRef .tc main_v9)
    = Host.divf
        (broadcastInDim S50000 ![] bcast_S_S50000 (constant (F := Ideal) S_ .f32 0x3F800000#32))
        (maximumf
          (Host.scatterAdd scatter_S50000_S800000x1_S800000_n_0_0_1
            (broadcastInDim S50000 ![] bcast_S_S50000 (constant (F := Ideal) S_ .f32 0x00000000#32))
            (broadcastInDim S800000x1 ![0] bcast_S800000_S800000x1_0 (X (Proc.devRef .tc main_arg2)))
            (broadcastInDim S800000 ![] bcast_S_S800000 (constant (F := Ideal) S_ .f32 0x3F800000#32)))
          (broadcastInDim S50000 ![] bcast_S_S50000 (constant (F := Ideal) S_ .f32 0x3F800000#32))) := by
  after_results_simp

theorem ops0_cst4 : StableHlo.after hostOps0 X (Proc.devRef .tc main_cst_4) = constant (F := Ideal) S_ .f32 0x00000000#32 := by
  after_results_simp

/-- The second stretch selects the quotient where the in-degree is positive and zero elsewhere. -/
theorem ops01_v10 : StableHlo.after hostOps0_1 X (Proc.devRef .tc main_v10)
    = select (X (Proc.devRef .tc main_v5)) (X (Proc.devRef .tc main_v9))
        (broadcastInDim S50000 ![] bcast_S_S50000 (id (X (Proc.devRef .tc main_cst_4)))) := by
  after_results_simp
  rfl

end Stretches

section Stretches2

variable (X : Valuation τ sig (Elt Ideal))

/-- The third stretch broadcasts the inverse in-degree to a column … -/
theorem ops02_v11 : StableHlo.after hostOps0_2 X (Proc.devRef .tc main_v11)
    = broadcastInDim S50000x1 ![0] bcast_S50000_S50000x1_0 (X (Proc.devRef .tc main_v10)) := by
  after_results_simp

/-- … narrows the later layers' weights … -/
theorem ops02_v14 : StableHlo.after hostOps0_2 X (Proc.devRef .tc main_v14) = (truncf (F := Ideal) (s := S256x256) .bf16 (X (Proc.devRef .tc main_arg11)) bitsLt_bf16_f32 : FVec Ideal S256x256 .bf16) := by
  after_results_simp
theorem ops02_v15 : StableHlo.after hostOps0_2 X (Proc.devRef .tc main_v15) = (truncf (F := Ideal) (s := S256x256) .bf16 (X (Proc.devRef .tc main_arg12)) bitsLt_bf16_f32 : FVec Ideal S256x256 .bf16) := by
  after_results_simp
theorem ops02_v16 : StableHlo.after hostOps0_2 X (Proc.devRef .tc main_v16) = (truncf (F := Ideal) (s := S256x32) .bf16 (X (Proc.devRef .tc main_arg18)) bitsLt_bf16_f32 : FVec Ideal S256x32 .bf16) := by
  after_results_simp
theorem ops02_v17 : StableHlo.after hostOps0_2 X (Proc.devRef .tc main_v17) = (truncf (F := Ideal) (s := S256x32) .bf16 (X (Proc.devRef .tc main_arg24)) bitsLt_bf16_f32 : FVec Ideal S256x32 .bf16) := by
  after_results_simp

/-- … and lays the graph numbers out as a column. -/
theorem ops02_v18 : StableHlo.after hostOps0_2 X (Proc.devRef .tc main_v18)
    = shapeCast S50000x1 (X (Proc.devRef .tc main_arg3)) shapeCasts_S50000_S50000x1 := by
  after_results_simp <;> rfl

/-- The stretch between the first two regions computes the neighbour mean of the first layer's output … -/
theorem ops1_v52 : StableHlo.after hostOps1 X (Proc.devRef .tc main_v52)
    = mulf
    (Host.scatterAdd scatter_S50000x256_S800000x1_S800000x256_1_0_0_1
      (broadcastInDim S50000x256 ![] bcast_S_S50000x256 (constant (F := Ideal) S_ .f32 0x00000000#32))
      (broadcastInDim S800000x1 ![0] bcast_S800000_S800000x1_0 (X (Proc.devRef .tc main_arg2)))
      (extf .f32
        (Host.gather gather_S50000x256_S800000x1_S800000x256_1_0_n_n_0_1_1256
          (truncf .bf16 (X (Proc.devRef .tc main_v38_0)) bitsLt_bf16_f32)
          (broadcastInDim S800000x1 ![0] bcast_S800000_S800000x1_0
            (select
              (cmpi .slt (X (Proc.devRef .tc main_arg1)) (broadcastInDim S800000 ![] bcast_S_S800000 (constantI S_ 32 0#32)))
              (addi (X (Proc.devRef .tc main_arg1)) (broadcastInDim S800000 ![] bcast_S_S800000 (constantI S_ 32 50000#32)))
              (X (Proc.devRef .tc main_arg1)))))
        bitsLt_bf16_f32))
    (broadcastInDim S50000x256 ![0, 1] bcast_S50000x1_S50000x256_0_1 (X (Proc.devRef .tc main_v11))) := by
  after_results_simp

/-- … and lays the second layer's vectors out as rows. -/
theorem ops1_v53 : StableHlo.after hostOps1 X (Proc.devRef .tc main_v53) = shapeCast S1x256 (X (Proc.devRef .tc main_arg13)) shapeCasts_S256_S1x256 := by
  after_results_simp <;> rfl
theorem ops1_v54 : StableHlo.after hostOps1 X (Proc.devRef .tc main_v54) = shapeCast S1x256 (X (Proc.devRef .tc main_arg14)) shapeCasts_S256_S1x256 := by
  after_results_simp <;> rfl
theorem ops1_v55 : StableHlo.after hostOps1 X (Proc.devRef .tc main_v55) = shapeCast S1x256 (X (Proc.devRef .tc main_arg15)) shapeCasts_S256_S1x256 := by
  after_results_simp <;> rfl
theorem ops1_v56 : StableHlo.after hostOps1 X (Proc.devRef .tc main_v56) = shapeCast S1x256 (X (Proc.devRef .tc main_arg16)) shapeCasts_S256_S1x256 := by
  after_results_simp <;> rfl
theorem ops1_v57 : StableHlo.after hostOps1 X (Proc.devRef .tc main_v57) = shapeCast S1x256 (X (Proc.devRef .tc main_arg17)) shapeCasts_S256_S1x256 := by
  after_results_simp <;> rfl

/-- The stretch before the last region lays the heads' vectors out as rows. -/
theorem ops2_v59 : StableHlo.after hostOps2 X (Proc.devRef .tc main_v59) = shapeCast S1x32 (X (Proc.devRef .tc main_arg19)) shapeCasts_S32_S1x32 := by
  after_results_simp <;> rfl
theorem ops2_v60 : StableHlo.after hostOps2 X (Proc.devRef .tc main_v60) = shapeCast S1x32 (X (Proc.devRef .tc main_arg20)) shapeCasts_S32_S1x32 := by
  after_results_simp <;> rfl
theorem ops2_v61 : StableHlo.after hostOps2 X (Proc.devRef .tc main_v61) = shapeCast S1x32 (X (Proc.devRef .tc main_arg21)) shapeCasts_S32_S1x32 := by
  after_results_simp <;> rfl
theorem ops2_v62 : StableHlo.after hostOps2 X (Proc.devRef .tc main_v62) = shapeCast S1x32 (X (Proc.devRef .tc main_arg22)) shapeCasts_S32_S1x32 := by
  after_results_simp <;> rfl
theorem ops2_v63 : StableHlo.after hostOps2 X (Proc.devRef .tc main_v63) = shapeCast S1x32 (X (Proc.devRef .tc main_arg23)) shapeCasts_S32_S1x32 := by
  after_results_simp <;> rfl
theorem ops2_v64 : StableHlo.after hostOps2 X (Proc.devRef .tc main_v64) = shapeCast S1x32 (X (Proc.devRef .tc main_arg25)) shapeCasts_S32_S1x32 := by
  after_results_simp <;> rfl
theorem ops2_v65 : StableHlo.after hostOps2 X (Proc.devRef .tc main_v65) = shapeCast S1x32 (X (Proc.devRef .tc main_arg26)) shapeCasts_S32_S1x32 := by
  after_results_simp <;> rfl
theorem ops2_v66 : StableHlo.after hostOps2 X (Proc.devRef .tc main_v66) = shapeCast S1x32 (X (Proc.devRef .tc main_arg27)) shapeCasts_S32_S1x32 := by
  after_results_simp <;> rfl
theorem ops2_v67 : StableHlo.after hostOps2 X (Proc.devRef .tc main_v67) = shapeCast S1x32 (X (Proc.devRef .tc main_arg28)) shapeCasts_S32_S1x32 := by
  after_results_simp <;> rfl
theorem ops2_v68 : StableHlo.after hostOps2 X (Proc.devRef .tc main_v68) = shapeCast S1x32 (X (Proc.devRef .tc main_arg29)) shapeCasts_S32_S1x32 := by
  after_results_simp <;> rfl

end Stretches2

/-! ## A buffer that no stretch before a boundary writes, and that no region before it holds as an array, is as launched -/

section Back

variable (c : Dev nD) (b : Ref sig .tc)
  (h2 : ∀ X : Valuation τ sig (Elt Ideal), StableHlo.after hostOps0_2 X (Proc.devRef .tc b) = X (Proc.devRef .tc b))
  (h1 : ∀ X : Valuation τ sig (Elt Ideal), StableHlo.after hostOps0_1 X (Proc.devRef .tc b) = X (Proc.devRef .tc b))
  (h0 : ∀ X : Valuation τ sig (Elt Ideal), StableHlo.after hostOps0 X (Proc.devRef .tc b) = X (Proc.devRef .tc b))

include h1 h0 in
theorem W2_back : W2 m ρ c (Proc.devRef .tc b) = m ((c : Thread nD τ).loc b) :=
  (h1 _).trans ((h0 _).trans rfl)

include h2 h1 h0 in
theorem W3_back : W3 m ρ c (Proc.devRef .tc b) = m ((c : Thread nD τ).loc b) :=
  (h2 _).trans (W2_back m ρ c b h1 h0)

include h2 h1 h0 in
theorem W4_back (hne0 : ∀ w, Pipeline.arrRef spec0 w ≠ b) : W4 m ρ c (Proc.devRef .tc b) = m ((c : Thread nD τ).loc b) :=
  (W4_of_ne m ρ c b hne0).trans (W3_back m ρ c b h2 h1 h0)

include h2 h1 h0 in
theorem W6_back (hne1 : ∀ w, Pipeline.arrRef spec1 w ≠ b)
    (h11 : ∀ X : Valuation τ sig (Elt Ideal), StableHlo.after hostOps1 X (Proc.devRef .tc b) = X (Proc.devRef .tc b))
    (hne0 : ∀ w, Pipeline.arrRef spec0 w ≠ b) : W6 m ρ c (Proc.devRef .tc b) = m ((c : Thread nD τ).loc b) :=
  (W6_of_ne m ρ c b hne1).trans ((h11 _).trans (W4_back m ρ c b h2 h1 h0 hne0))

end Back

local macro "back2" : tactic => `(tactic| exact W2_back _ _ _ _ (fun _ => by keeps hostOps0_1) (fun _ => by keeps hostOps0))
local macro "back4" : tactic => `(tactic| exact W4_back _ _ _ _ (fun _ => by keeps hostOps0_2) (fun _ => by keeps hostOps0_1) (fun _ => by keeps hostOps0) (by decide))
local macro "back6" : tactic => `(tactic| exact W6_back _ _ _ _ (fun _ => by keeps hostOps0_2) (fun _ => by keeps hostOps0_1) (fun _ => by keeps hostOps0) (by decide) (fun _ => by keeps hostOps1) (by decide))

theorem W4_arg1 (c : Dev nD) : W4 m ρ c (Proc.devRef .tc main_arg1) = m ((c : Thread nD τ).loc main_arg1) := by back4
theorem W4_arg2 (c : Dev nD) : W4 m ρ c (Proc.devRef .tc main_arg2) = m ((c : Thread nD τ).loc main_arg2) := by back4

/-- The inverse in-degree column at region 0's exit is the one the first three stretches computed from the edges' targets. -/
theorem ops012_v11 (X : Valuation τ sig (Elt Ideal)) :
    StableHlo.after hostOps0_2 (StableHlo.after hostOps0_1 (StableHlo.after hostOps0 X)) (Proc.devRef .tc main_v11)
      = invDeg (F := Ideal) (X (Proc.devRef .tc main_arg2)) := by
  rw [ops02_v11, ops01_v10, ops0_v5, ops0_v9, ops0_cst4]
  rfl

theorem W4_v11 (c : Dev nD) : W4 m ρ c (Proc.devRef .tc main_v11) = invDeg (F := Ideal) (m ((c : Thread nD τ).loc main_arg2)) :=
  (W4_of_ne m ρ c main_v11 (by decide)).trans (ops012_v11 (W0 m ρ c))

/-! Region 1 is entered at `V5`: region 0's exit contents `W4` after the host operations between the two regions.
    Region 2 is entered at `V7`: region 1's exit contents `W6` after the host operations before it. -/

theorem in1_0 (c : Dev nD) : V5 m ρ c main_v38_0 = W4 m ρ c (Proc.devRef .tc main_v38_0) := by
  show StableHlo.after hostOps1 (W4 m ρ c) (Proc.devRef .tc main_v38_0) = _
  keeps hostOps1

theorem in1_1 (c : Dev nD) : V5 m ρ c main_v52 = nm256 (W4 m ρ c (Proc.devRef .tc main_v38_0)) (m ((c : Thread nD τ).loc main_arg1)) (m ((c : Thread nD τ).loc main_arg2)) := by
  refine (ops1_v52 (W4 m ρ c)).trans ?_
  rw [W4_arg1 m ρ c, W4_arg2 m ρ c, W4_v11 m ρ c]
  rfl

theorem in1_2 (c : Dev nD) (r : Fin 50000) : V5 m ρ c main_v18 (ix2 r (0 : Fin 1)) = m ((c : Thread nD τ).loc main_arg3) (ix1 r) := by
  have e : V5 m ρ c main_v18 = shapeCast S50000x1 (m ((c : Thread nD τ).loc main_arg3)) shapeCasts_S50000_S50000x1 :=
    calc V5 m ρ c main_v18
      _ = W4 m ρ c (Proc.devRef .tc main_v18) := by
          show StableHlo.after hostOps1 (W4 m ρ c) (Proc.devRef .tc main_v18) = _
          keeps hostOps1
      _ = W3 m ρ c (Proc.devRef .tc main_v18) := (W4_arr m ρ c 2).trans (((dat0 (V3 m ρ) c).arrAt_in 2 rfl _).trans (A_eq0 (V3 m ρ) c 2))
      _ = shapeCast S50000x1 (W2 m ρ c (Proc.devRef .tc main_arg3)) shapeCasts_S50000_S50000x1 := ops02_v18 (W2 m ρ c)
      _ = _ := by rw [show W2 m ρ c (Proc.devRef .tc main_arg3) = m ((c : Thread nD τ).loc main_arg3) by back2]
  exact (congrFun e _).trans (shapeCast_a_a1_apply _ _ r 0)

theorem in1_3 (c : Dev nD) (i : S256x256.Idx) : V5 m ρ c main_v14 i = m ((c : Thread nD τ).loc main_arg11) i := by
  have e : V5 m ρ c main_v14 = (truncf (F := Ideal) (s := S256x256) .bf16 (m ((c : Thread nD τ).loc main_arg11)) bitsLt_bf16_f32 : FVec Ideal S256x256 .bf16) :=
    calc V5 m ρ c main_v14
      _ = W4 m ρ c (Proc.devRef .tc main_v14) := by
          show StableHlo.after hostOps1 (W4 m ρ c) (Proc.devRef .tc main_v14) = _
          keeps hostOps1
      _ = W3 m ρ c (Proc.devRef .tc main_v14) := W4_of_ne m ρ c main_v14 (by decide)
      _ = (truncf (F := Ideal) (s := S256x256) .bf16 (W2 m ρ c (Proc.devRef .tc main_arg11)) bitsLt_bf16_f32 : FVec Ideal S256x256 .bf16) := ops02_v14 (W2 m ρ c)
      _ = _ := by rw [show W2 m ρ c (Proc.devRef .tc main_arg11) = m ((c : Thread nD τ).loc main_arg11) by back2]
  exact congrFun e i

theorem in1_4 (c : Dev nD) (i : S256x256.Idx) : V5 m ρ c main_v15 i = m ((c : Thread nD τ).loc main_arg12) i := by
  have e : V5 m ρ c main_v15 = (truncf (F := Ideal) (s := S256x256) .bf16 (m ((c : Thread nD τ).loc main_arg12)) bitsLt_bf16_f32 : FVec Ideal S256x256 .bf16) :=
    calc V5 m ρ c main_v15
      _ = W4 m ρ c (Proc.devRef .tc main_v15) := by
          show StableHlo.after hostOps1 (W4 m ρ c) (Proc.devRef .tc main_v15) = _
          keeps hostOps1
      _ = W3 m ρ c (Proc.devRef .tc main_v15) := W4_of_ne m ρ c main_v15 (by decide)
      _ = (truncf (F := Ideal) (s := S256x256) .bf16 (W2 m ρ c (Proc.devRef .tc main_arg12)) bitsLt_bf16_f32 : FVec Ideal S256x256 .bf16) := ops02_v15 (W2 m ρ c)
      _ = _ := by rw [show W2 m ρ c (Proc.devRef .tc main_arg12) = m ((c : Thread nD τ).loc main_arg12) by back2]
  exact congrFun e i

theorem in1_5 (c : Dev nD) (j : Fin 256) : V5 m ρ c main_v53 (ix2 (0 : Fin 1) j) = m ((c : Thread nD τ).loc main_arg13) (ix1 j) := by
  have e : V5 m ρ c main_v53 = shapeCast S1x256 (m ((c : Thread nD τ).loc main_arg13)) shapeCasts_S256_S1x256 :=
    (ops1_v53 (W4 m ρ c)).trans (by rw [show W4 m ρ c (Proc.devRef .tc main_arg13) = m ((c : Thread nD τ).loc main_arg13) by back4])
  exact (congrFun e _).trans (shapeCast_a_1a_apply _ _ 0 j)

theorem in1_6 (c : Dev nD) (j : Fin 256) : V5 m ρ c main_v54 (ix2 (0 : Fin 1) j) = m ((c : Thread nD τ).loc main_arg14) (ix1 j) := by
  have e : V5 m ρ c main_v54 = shapeCast S1x256 (m ((c : Thread nD τ).loc main_arg14)) shapeCasts_S256_S1x256 :=
    (ops1_v54 (W4 m ρ c)).trans (by rw [show W4 m ρ c (Proc.devRef .tc main_arg14) = m ((c : Thread nD τ).loc main_arg14) by back4])
  exact (congrFun e _).trans (shapeCast_a_1a_apply _ _ 0 j)

theorem in1_7 (c : Dev nD) (j : Fin 256) : V5 m ρ c main_v55 (ix2 (0 : Fin 1) j) = m ((c : Thread nD τ).loc main_arg15) (ix1 j) := by
  have e : V5 m ρ c main_v55 = shapeCast S1x256 (m ((c : Thread nD τ).loc main_arg15)) shapeCasts_S256_S1x256 :=
    (ops1_v55 (W4 m ρ c)).trans (by rw [show W4 m ρ c (Proc.devRef .tc main_arg15) = m ((c : Thread nD τ).loc main_arg15) by back4])
  exact (congrFun e _).trans (shapeCast_a_1a_apply _ _ 0 j)

theorem in1_8 (c : Dev nD) (j : Fin 256) : V5 m ρ c main_v56 (ix2 (0 : Fin 1) j) = m ((c : Thread nD τ).loc main_arg16) (ix1 j) := by
  have e : V5 m ρ c main_v56 = shapeCast S1x256 (m ((c : Thread nD τ).loc main_arg16)) shapeCasts_S256_S1x256 :=
    (ops1_v56 (W4 m ρ c)).trans (by rw [show W4 m ρ c (Proc.devRef .tc main_arg16) = m ((c : Thread nD τ).loc main_arg16) by back4])
  exact (congrFun e _).trans (shapeCast_a_1a_apply _ _ 0 j)

theorem in1_9 (c : Dev nD) (j : Fin 256) : V5 m ρ c main_v57 (ix2 (0 : Fin 1) j) = m ((c : Thread nD τ).loc main_arg17) (ix1 j) := by
  have e : V5 m ρ c main_v57 = shapeCast S1x256 (m ((c : Thread nD τ).loc main_arg17)) shapeCasts_S256_S1x256 :=
    (ops1_v57 (W4 m ρ c)).trans (by rw [show W4 m ρ c (Proc.devRef .tc main_arg17) = m ((c : Thread nD τ).loc main_arg17) by back4])
  exact (congrFun e _).trans (shapeCast_a_1a_apply _ _ 0 j)

theorem in2_0 (c : Dev nD) : V7 m ρ c main_v38_1 = W4 m ρ c (Proc.devRef .tc main_v38_1) :=
  calc V7 m ρ c main_v38_1
    _ = W6 m ρ c (Proc.devRef .tc main_v38_1) := by
        show StableHlo.after hostOps2 (W6 m ρ c) (Proc.devRef .tc main_v38_1) = _
        keeps hostOps2
    _ = W5 m ρ c (Proc.devRef .tc main_v38_1) := W6_of_ne m ρ c main_v38_1 (by decide)
    _ = W4 m ρ c (Proc.devRef .tc main_v38_1) := by
        show StableHlo.after hostOps1 (W4 m ρ c) (Proc.devRef .tc main_v38_1) = _
        keeps hostOps1

theorem in2_1 (c : Dev nD) : V7 m ρ c main_v58_1 = W6 m ρ c (Proc.devRef .tc main_v58_1) := by
  show StableHlo.after hostOps2 (W6 m ρ c) (Proc.devRef .tc main_v58_1) = _
  keeps hostOps2

theorem in2_2 (c : Dev nD) (i : S256x32.Idx) : V7 m ρ c main_v16 i = m ((c : Thread nD τ).loc main_arg18) i := by
  have e : V7 m ρ c main_v16 = (truncf (F := Ideal) (s := S256x32) .bf16 (m ((c : Thread nD τ).loc main_arg18)) bitsLt_bf16_f32 : FVec Ideal S256x32 .bf16) :=
    calc V7 m ρ c main_v16
      _ = W6 m ρ c (Proc.devRef .tc main_v16) := by
          show StableHlo.after hostOps2 (W6 m ρ c) (Proc.devRef .tc main_v16) = _
          keeps hostOps2
      _ = W5 m ρ c (Proc.devRef .tc main_v16) := W6_of_ne m ρ c main_v16 (by decide)
      _ = W4 m ρ c (Proc.devRef .tc main_v16) := by
          show StableHlo.after hostOps1 (W4 m ρ c) (Proc.devRef .tc main_v16) = _
          keeps hostOps1
      _ = W3 m ρ c (Proc.devRef .tc main_v16) := W4_of_ne m ρ c main_v16 (by decide)
      _ = (truncf (F := Ideal) (s := S256x32) .bf16 (W2 m ρ c (Proc.devRef .tc main_arg18)) bitsLt_bf16_f32 : FVec Ideal S256x32 .bf16) := ops02_v16 (W2 m ρ c)
      _ = _ := by rw [show W2 m ρ c (Proc.devRef .tc main_arg18) = m ((c : Thread nD τ).loc main_arg18) by back2]
  exact congrFun e i

theorem in2_3 (c : Dev nD) (o : Fin 32) : V7 m ρ c main_v59 (ix2 (0 : Fin 1) o) = m ((c : Thread nD τ).loc main_arg19) (ix1 o) := by
  have e : V7 m ρ c main_v59 = shapeCast S1x32 (m ((c : Thread nD τ).loc main_arg19)) shapeCasts_S32_S1x32 :=
    (ops2_v59 (W6 m ρ c)).trans (by rw [show W6 m ρ c (Proc.devRef .tc main_arg19) = m ((c : Thread nD τ).loc main_arg19) by back6])
  exact (congrFun e _).trans (shapeCast_a_1a_apply _ _ 0 o)

theorem in2_4 (c : Dev nD) (o : Fin 32) : V7 m ρ c main_v60 (ix2 (0 : Fin 1) o) = m ((c : Thread nD τ).loc main_arg20) (ix1 o) := by
  have e : V7 m ρ c main_v60 = shapeCast S1x32 (m ((c : Thread nD τ).loc main_arg20)) shapeCasts_S32_S1x32 :=
    (ops2_v60 (W6 m ρ c)).trans (by rw [show W6 m ρ c (Proc.devRef .tc main_arg20) = m ((c : Thread nD τ).loc main_arg20) by back6])
  exact (congrFun e _).trans (shapeCast_a_1a_apply _ _ 0 o)

theorem in2_5 (c : Dev nD) (o : Fin 32) : V7 m ρ c main_v61 (ix2 (0 : Fin 1) o) = m ((c : Thread nD τ).loc main_arg21) (ix1 o) := by
  have e : V7 m ρ c main_v61 = shapeCast S1x32 (m ((c : Thread nD τ).loc main_arg21)) shapeCasts_S32_S1x32 :=
    (ops2_v61 (W6 m ρ c)).trans (by rw [show W6 m ρ c (Proc.devRef .tc main_arg21) = m ((c : Thread nD τ).loc main_arg21) by back6])
  exact (congrFun e _).trans (shapeCast_a_1a_apply _ _ 0 o)

theorem in2_6 (c : Dev nD) (o : Fin 32) : V7 m ρ c main_v62 (ix2 (0 : Fin 1) o) = m ((c : Thread nD τ).loc main_arg22) (ix1 o) := by
  have e : V7 m ρ c main_v62 = shapeCast S1x32 (m ((c : Thread nD τ).loc main_arg22)) shapeCasts_S32_S1x32 :=
    (ops2_v62 (W6 m ρ c)).trans (by rw [show W6 m ρ c (Proc.devRef .tc main_arg22) = m ((c : Thread nD τ).loc main_arg22) by back6])
  exact (congrFun e _).trans (shapeCast_a_1a_apply _ _ 0 o)

theorem in2_7 (c : Dev nD) (o : Fin 32) : V7 m ρ c main_v63 (ix2 (0 : Fin 1) o) = m ((c : Thread nD τ).loc main_arg23) (ix1 o) := by
  have e : V7 m ρ c main_v63 = shapeCast S1x32 (m ((c : Thread nD τ).loc main_arg23)) shapeCasts_S32_S1x32 :=
    (ops2_v63 (W6 m ρ c)).trans (by rw [show W6 m ρ c (Proc.devRef .tc main_arg23) = m ((c : Thread nD τ).loc main_arg23) by back6])
  exact (congrFun e _).trans (shapeCast_a_1a_apply _ _ 0 o)

theorem in2_8 (c : Dev nD) (i : S256x32.Idx) : V7 m ρ c main_v17 i = m ((c : Thread nD τ).loc main_arg24) i := by
  have e : V7 m ρ c main_v17 = (truncf (F := Ideal) (s := S256x32) .bf16 (m ((c : Thread nD τ).loc main_arg24)) bitsLt_bf16_f32 : FVec Ideal S256x32 .bf16) :=
    calc V7 m ρ c main_v17
      _ = W6 m ρ c (Proc.devRef .tc main_v17) := by
          show StableHlo.after hostOps2 (W6 m ρ c) (Proc.devRef .tc main_v17) = _
          keeps hostOps2
      _ = W5 m ρ c (Proc.devRef .tc main_v17) := W6_of_ne m ρ c main_v17 (by decide)
      _ = W4 m ρ c (Proc.devRef .tc main_v17) := by
          show StableHlo.after hostOps1 (W4 m ρ c) (Proc.devRef .tc main_v17) = _
          keeps hostOps1
      _ = W3 m ρ c (Proc.devRef .tc main_v17) := W4_of_ne m ρ c main_v17 (by decide)
      _ = (truncf (F := Ideal) (s := S256x32) .bf16 (W2 m ρ c (Proc.devRef .tc main_arg24)) bitsLt_bf16_f32 : FVec Ideal S256x32 .bf16) := ops02_v17 (W2 m ρ c)
      _ = _ := by rw [show W2 m ρ c (Proc.devRef .tc main_arg24) = m ((c : Thread nD τ).loc main_arg24) by back2]
  exact congrFun e i

theorem in2_9 (c : Dev nD) (o : Fin 32) : V7 m ρ c main_v64 (ix2 (0 : Fin 1) o) = m ((c : Thread nD τ).loc main_arg25) (ix1 o) := by
  have e : V7 m ρ c main_v64 = shapeCast S1x32 (m ((c : Thread nD τ).loc main_arg25)) shapeCasts_S32_S1x32 :=
    (ops2_v64 (W6 m ρ c)).trans (by rw [show W6 m ρ c (Proc.devRef .tc main_arg25) = m ((c : Thread nD τ).loc main_arg25) by back6])
  exact (congrFun e _).trans (shapeCast_a_1a_apply _ _ 0 o)

theorem in2_10 (c : Dev nD) (o : Fin 32) : V7 m ρ c main_v65 (ix2 (0 : Fin 1) o) = m ((c : Thread nD τ).loc main_arg26) (ix1 o) := by
  have e : V7 m ρ c main_v65 = shapeCast S1x32 (m ((c : Thread nD τ).loc main_arg26)) shapeCasts_S32_S1x32 :=
    (ops2_v65 (W6 m ρ c)).trans (by rw [show W6 m ρ c (Proc.devRef .tc main_arg26) = m ((c : Thread nD τ).loc main_arg26) by back6])
  exact (congrFun e _).trans (shapeCast_a_1a_apply _ _ 0 o)

theorem in2_11 (c : Dev nD) (o : Fin 32) : V7 m ρ c main_v66 (ix2 (0 : Fin 1) o) = m ((c : Thread nD τ).loc main_arg27) (ix1 o) := by
  have e : V7 m ρ c main_v66 = shapeCast S1x32 (m ((c : Thread nD τ).loc main_arg27)) shapeCasts_S32_S1x32 :=
    (ops2_v66 (W6 m ρ c)).trans (by rw [show W6 m ρ c (Proc.devRef .tc main_arg27) = m ((c : Thread nD τ).loc main_arg27) by back6])
  exact (congrFun e _).trans (shapeCast_a_1a_apply _ _ 0 o)

theorem in2_12 (c : Dev nD) (o : Fin 32) : V7 m ρ c main_v67 (ix2 (0 : Fin 1) o) = m ((c : Thread nD τ).loc main_arg28) (ix1 o) := by
  have e : V7 m ρ c main_v67 = shapeCast S1x32 (m ((c : Thread nD τ).loc main_arg28)) shapeCasts_S32_S1x32 :=
    (ops2_v67 (W6 m ρ c)).trans (by rw [show W6 m ρ c (Proc.devRef .tc main_arg28) = m ((c : Thread nD τ).loc main_arg28) by back6])
  exact (congrFun e _).trans (shapeCast_a_1a_apply _ _ 0 o)

theorem in2_13 (c : Dev nD) (o : Fin 32) : V7 m ρ c main_v68 (ix2 (0 : Fin 1) o) = m ((c : Thread nD τ).loc main_arg29) (ix1 o) := by
  have e : V7 m ρ c main_v68 = shapeCast S1x32 (m ((c : Thread nD τ).loc main_arg29)) shapeCasts_S32_S1x32 :=
    (ops2_v68 (W6 m ρ c)).trans (by rw [show W6 m ρ c (Proc.devRef .tc main_arg29) = m ((c : Thread nD τ).loc main_arg29) by back6])
  exact (congrFun e _).trans (shapeCast_a_1a_apply _ _ 0 o)

end Cert.KernelIdeal.HostB

end
-- ==== Proof.LibRowScatter.lean ====
/-
  A row scatter-add read at an index, over the extended reals.

  jax's `segment_sum(upd, ids, N)` of updates `upd : [n, C]` lowers to a `stablehlo.scatter` with an `add` body whose scatter
  indices are the column `[n, 1]` of row numbers: operand axis 0 is the one inserted window axis and the one scattered axis,
  update axis 1 is the one window axis and carries the whole row. Update element `(e, p)` lands on operand element `(r, p)`
  exactly when the `e`-th row number, read as a signed integer and NOT clamped, is `r`; a row number outside `[0, N)` drops
  its row. Result element `(r, q)` is then the operand's plus the sum of `upd (e, q)` over the rows `e` numbered `r`.
-/
import Mathlib.Algebra.BigOperators.Group.Finset.Defs
import Idealize.ShloMosaic.Lib.ValueIdx
import Idealize.ShloMosaic.PureOps.Ideal

noncomputable section

namespace Idealize.ShloMosaic.RowScatter

open Idealize.ShloMosaic Idealize.ShloMosaic.ValueIdx

/-- The dimension numbers of a row scatter into a table `[N, C]` of updates `[n, C]` by a column `[n, 1]` of row numbers;
    their conditions `wf` are decided on a program's literal shapes. -/
abbrev rowDims (N C n : Nat)
    (wf : ScatterDims.WF ⟨2, ![N, C]⟩ ⟨2, ![n, 1]⟩ ⟨2, ![n, C]⟩ [1] [0] [0] 1) :
    ScatterDims ⟨2, ![N, C]⟩ ⟨2, ![n, 1]⟩ ⟨2, ![n, C]⟩ where
  updateWindowDims := [1]
  insertedWindowDims := [0]
  scatterDimsToOperandDims := [0]
  indexVectorDim := 1
  wf := wf

/-- On the row axis the window starts at the update row's number, read signed off the column of row numbers: the axis is the
    one the map names, and the scatter-indices index read is the update's row with `0` on the index vector's axis. -/
theorem start_row {N C n w : Nat}
    (wf : ScatterDims.WF ⟨2, ![N, C]⟩ ⟨2, ![n, 1]⟩ ⟨2, ![n, C]⟩ [1] [0] [0] 1)
    (idx : IVec ⟨2, ![n, 1]⟩ w) (e : Fin n) (p : Fin C) :
    (rowDims N C n wf).start (ix2 e p) idx 0 = (idx (ix2 e (0 : Fin 1))).toInt := by
  unfold ScatterDims.start
  rw [dif_pos (show (0 : Fin 2) ∈ (rowDims N C n wf).scatterDimsToOperandDims from List.mem_singleton.mpr rfl)]
  have hsi : (rowDims N C n wf).siIdx (ix2 e p) ⟨List.idxOf (0 : Fin 2) (rowDims N C n wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis the window starts at zero: the map does not name that axis. -/
theorem start_col {N C n w : Nat}
    (wf : ScatterDims.WF ⟨2, ![N, C]⟩ ⟨2, ![n, 1]⟩ ⟨2, ![n, C]⟩ [1] [0] [0] 1)
    (idx : IVec ⟨2, ![n, 1]⟩ w) (e : Fin n) (p : Fin C) :
    (rowDims N C n wf).start (ix2 e p) idx 1 = 0 := by
  unfold ScatterDims.start
  have h1 : ¬ (1 : Fin 2) ∈ ([0] : List (Fin 2)) := by decide
  rw [dif_neg (show ¬ (1 : Fin 2) ∈ (rowDims N C n wf).scatterDimsToOperandDims from h1)]

/-- The row axis is the inserted window axis: its window coordinate is zero. -/
theorem window_row {N C n : Nat}
    (wf : ScatterDims.WF ⟨2, ![N, C]⟩ ⟨2, ![n, 1]⟩ ⟨2, ![n, C]⟩ [1] [0] [0] 1) (e : Fin n) (p : Fin C) :
    (rowDims N C n wf).window (ix2 e p) 0 = 0 := by
  unfold ScatterDims.window
  have h0 : ¬ (0 : Fin 2) ∈ ([1] : List (Fin 2)) := by decide
  rw [dif_neg (show ¬ (0 : Fin 2) ∈ (rowDims N C n wf).sKept from h0)]

/-- The column axis is the one kept operand axis: its window coordinate is the update's own column. -/
theorem window_col {N C n : Nat}
    (wf : ScatterDims.WF ⟨2, ![N, C]⟩ ⟨2, ![n, 1]⟩ ⟨2, ![n, C]⟩ [1] [0] [0] 1) (e : Fin n) (p : Fin C) :
    (rowDims N C n wf).window (ix2 e p) 1 = p.val := by
  unfold ScatterDims.window
  rw [dif_pos (show (1 : Fin 2) ∈ (rowDims N C n wf).sKept from List.mem_singleton.mpr rfl)]
  rfl

/-- Where an update element lands: `(e, p)` lands on `(r, q)` exactly when row `e`'s number, read signed, is `r`, and the
    columns agree. -/
theorem resultIdx?_eq_some_iff {N C n w : Nat}
    (wf : ScatterDims.WF ⟨2, ![N, C]⟩ ⟨2, ![n, 1]⟩ ⟨2, ![n, C]⟩ [1] [0] [0] 1)
    (idx : IVec ⟨2, ![n, 1]⟩ w) (e : Fin n) (p : Fin C) (r : Fin N) (q : Fin C) :
    (rowDims N C n wf).resultIdx? (ix2 e p) idx = some (ix2 r q)
      ↔ (idx (ix2 e (0 : Fin 1))).toInt = (r.val : Int) ∧ p = q := by
  have hs0 := start_row wf idx e p
  have hs1 := start_col wf idx e p
  have hw0 := window_row wf e p
  have hw1 := window_col wf e p
  unfold ScatterDims.resultIdx?
  constructor
  · intro h
    split at h
    · rename_i hb
      have hf := Option.some.inj h
      have h0 := congrArg Fin.val (congrFun hf 0)
      have h1 := congrArg Fin.val (congrFun hf 1)
      have hb0 := (hb 0).1
      simp only [hs0, hw0] at h0 hb0
      simp only [hs1, hw1] at h1
      change ((idx (ix2 e (0 : Fin 1))).toInt + ((0 : Nat) : Int)).toNat = r.val at h0
      change ((0 : Int) + (p.val : Int)).toNat = q.val at h1
      refine ⟨by omega, Fin.ext (by omega)⟩
    · exact absurd h (by simp)
  · rintro ⟨hr, rfl⟩
    have hb : ∀ a, 0 ≤ (rowDims N C n wf).start (ix2 e p) idx a + (rowDims N C n wf).window (ix2 e p) a
        ∧ (rowDims N C n wf).start (ix2 e p) idx a + (rowDims N C n wf).window (ix2 e p) a
          < (⟨2, ![N, C]⟩ : Shape).size a := by
      intro a
      match a with
      | ⟨0, _⟩ =>
        have hN : r.val < N := r.isLt
        show 0 ≤ (rowDims N C n wf).start (ix2 e p) idx 0 + (rowDims N C n wf).window (ix2 e p) 0
          ∧ (rowDims N C n wf).start (ix2 e p) idx 0 + (rowDims N C n wf).window (ix2 e p) 0 < (N : Int)
        rw [hs0, hw0, hr]; omega
      | ⟨1, _⟩ =>
        have hC : p.val < C := p.isLt
        show 0 ≤ (rowDims N C n wf).start (ix2 e p) idx 1 + (rowDims N C n wf).window (ix2 e p) 1
          ∧ (rowDims N C n wf).start (ix2 e p) idx 1 + (rowDims N C n wf).window (ix2 e p) 1 < (C : Int)
        rw [hs1, hw1]; omega
    rw [dif_pos hb]
    congr 1
    funext a
    refine Fin.ext ?_
    match a with
    | ⟨0, _⟩ =>
      show ((rowDims N C n wf).start (ix2 e p) idx 0 + (rowDims N C n wf).window (ix2 e p) 0).toNat = r.val
      rw [hs0, hw0, hr]; omega
    | ⟨1, _⟩ =>
      show ((rowDims N C n wf).start (ix2 e p) idx 1 + (rowDims N C n wf).window (ix2 e p) 1).toNat = p.val
      rw [hs1, hw1]; omega

/-- THE ROW SCATTER-ADD READ AT `(r, q)`: the operand's element plus the sum, over the update rows `e` whose row number read
    signed is `r`, of the update's element `(e, q)`. The update elements landing on `(r, q)` are exactly the `(e, q)` with
    row `e` numbered `r`, one for each such row: the sum over them is re-indexed by the row. -/
theorem scatterAdd_rows_apply {N C n w : Nat}
    (wf : ScatterDims.WF ⟨2, ![N, C]⟩ ⟨2, ![n, 1]⟩ ⟨2, ![n, C]⟩ [1] [0] [0] 1)
    (x : (⟨2, ![N, C]⟩ : Shape).Idx → EReal) (idx : IVec ⟨2, ![n, 1]⟩ w)
    (upd : (⟨2, ![n, C]⟩ : Shape).Idx → EReal) (r : Fin N) (q : Fin C) :
    Ideal.hostScatterAdd (rowDims N C n wf) x idx upd (ix2 r q)
      = x (ix2 r q) + ∑ e ∈ Finset.univ.filter (fun e : Fin n => (idx (ix2 e (0 : Fin 1))).toInt = (r.val : Int)),
          upd (ix2 e q) := by
  unfold Ideal.hostScatterAdd
  congr 1
  symm
  refine Finset.sum_nbij' (fun e : Fin n => ix2 e q) (fun j => (j 0 : Fin n)) ?_ ?_ ?_ ?_ ?_
  · intro e he
    rw [Finset.mem_filter] at he ⊢
    exact ⟨Finset.mem_univ _, (resultIdx?_eq_some_iff wf idx e q r q).mpr ⟨he.2, rfl⟩⟩
  · intro j hj
    obtain ⟨e, p, rfl⟩ : ∃ (e : Fin n) (p : Fin C), j = ix2 e p := ⟨j 0, j 1, eq_ix2 j⟩
    rw [Finset.mem_filter] at hj
    exact Finset.mem_filter.mpr ⟨Finset.mem_univ e, ((resultIdx?_eq_some_iff wf idx e p r q).mp hj.2).1⟩
  · intro e _
    rfl
  · intro j hj
    obtain ⟨e, p, rfl⟩ : ∃ (e : Fin n) (p : Fin C), j = ix2 e p := ⟨j 0, j 1, eq_ix2 j⟩
    rw [Finset.mem_filter] at hj
    have hpq := ((resultIdx?_eq_some_iff wf idx e p r q).mp hj.2).2
    subst hpq
    rfl
  · intro e _
    rfl

end Idealize.ShloMosaic.RowScatter

end
-- ==== Proof.RefRead.lean ====
import proofs.«411381_j53893249630287_2_alg».proof.Proof.RefStages
import proofs.«411381_j53893249630287_2_alg».proof.Proof.Spec
import proofs.«411381_j53893249630287_2_alg».proof.Proof.LibRowScatter
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.ReferenceIdeal.RefRead

open Cert.ReferenceIdeal Cert.ReferenceIdeal.Read Idealize.ShloMosaic Idealize.ShloMosaic.ValueIdx Cert.Gnn

variable (x0 : Vec Ideal S50000x128 .f32) (x1 x2 : IVec S800000 32) (x3 : IVec S50000 32)
  (x4 x5 : Vec Ideal S128x256 .f32) (x6 x7 x8 x9 x10 : Vec Ideal S256 .f32)
  (x11 x12 : Vec Ideal S256x256 .f32) (x13 x14 x15 x16 x17 : Vec Ideal S256 .f32)
  (x18 : Vec Ideal S256x32 .f32) (x19 x20 x21 x22 x23 : Vec Ideal S32 .f32)
  (x24 : Vec Ideal S256x32 .f32) (x25 x26 x27 x28 x29 : Vec Ideal S32 .f32)

/-- The first layer's output, entry by entry: the layer of the features and their neighbour means. -/
theorem h1_apply (r : Fin 50000) (j : Fin 256) :
    val_main_v43 (F := Ideal) x0 x1 x2 x4 x5 x6 x7 x8 x9 x10 (ix2 r j)
      = sage (fun r k => x0 (ix2 r k)) (fun r k => val_main_v23 (F := Ideal) x0 x1 x2 (ix2 r k))
          (fun k j => x4 (ix2 k j)) (fun k j => x5 (ix2 k j))
          (fun j => x6 (ix1 j)) (fun j => x7 (ix1 j)) (fun j => x8 (ix1 j)) (fun j => x9 (ix1 j)) (fun j => x10 (ix1 j)) r j := by
  have el24 : ∀ k : Fin 128, lidx_main_v24 (ix2 r j) k = ix2 r k := fun k => funext fun a => Fin.ext (by match a with | ⟨0, _⟩ => rfl | ⟨1, _⟩ => rfl)
  have er24 : ∀ k : Fin 128, ridx_main_v24 (ix2 r j) k = ix2 k j := fun k => funext fun a => Fin.ext (by match a with | ⟨0, _⟩ => rfl | ⟨1, _⟩ => rfl)
  have el25 : ∀ k : Fin 128, lidx_main_v25 (ix2 r j) k = ix2 r k := fun k => funext fun a => Fin.ext (by match a with | ⟨0, _⟩ => rfl | ⟨1, _⟩ => rfl)
  have er25 : ∀ k : Fin 128, ridx_main_v25 (ix2 r j) k = ix2 k j := fun k => funext fun a => Fin.ext (by match a with | ⟨0, _⟩ => rfl | ⟨1, _⟩ => rfl)
  have e28 : idx_main_v27 (idx_main_v28 (ix2 r j)) = ix1 j := funext fun a => Fin.ext (by match a with | ⟨0, _⟩ => rfl)
  have e32 : idx_main_v31 (idx_main_v32 (ix2 r j)) = ix1 j := funext fun a => Fin.ext (by match a with | ⟨0, _⟩ => rfl)
  have e39 : idx_main_v38 (idx_main_v39 (ix2 r j)) = ix1 j := funext fun a => Fin.ext (by match a with | ⟨0, _⟩ => rfl)
  have e42 : idx_main_v41 (idx_main_v42 (ix2 r j)) = ix1 j := funext fun a => Fin.ext (by match a with | ⟨0, _⟩ => rfl)
  rw [val_main_v43_apply, val_main_v40_apply, val_main_v33_apply, val_main_v30_apply, val_main_v29_apply,
    val_main_v26_apply, val_main_v24_apply, val_main_v25_apply, val_main_v28_apply, val_main_v27_apply,
    val_main_call1_v0_apply, val_main_call1_cst_apply, val_main_v32_apply, val_main_v31_apply,
    val_main_v39_apply, val_main_v38_apply, val_main_v37_apply, val_main_v36_apply, val_main_v35_apply,
    val_main_v34_apply, val_main_cst_7_apply, val_main_v42_apply, val_main_v41_apply, e28, e32, e39, e42]
  simp only [el24, er24, el25, er25]
  simp only [Ideal.addf_def, Ideal.subf_def, Ideal.mulf_def, Ideal.maximumf_def, Ideal.hostUnary_rsqrt_def, Ideal.hostUnary_exp_def, Ideal.hostUnary_log_def, Ideal.ofBits_def]
  rfl

/-- The second layer's output, entry by entry: the layer of the first layer's output and its neighbour means. -/
theorem h2_apply (r : Fin 50000) (j : Fin 256) :
    val_main_v75 (F := Ideal) x0 x1 x2 x4 x5 x6 x7 x8 x9 x10 x11 x12 x13 x14 x15 x16 x17 (ix2 r j)
      = sage (fun r k => val_main_v43 (F := Ideal) x0 x1 x2 x4 x5 x6 x7 x8 x9 x10 (ix2 r k))
          (fun r k => val_main_v55 (F := Ideal) x0 x1 x2 x4 x5 x6 x7 x8 x9 x10 (ix2 r k))
          (fun k j => x11 (ix2 k j)) (fun k j => x12 (ix2 k j))
          (fun j => x13 (ix1 j)) (fun j => x14 (ix1 j)) (fun j => x15 (ix1 j)) (fun j => x16 (ix1 j)) (fun j => x17 (ix1 j)) r j := by
  have el56 : ∀ k : Fin 256, lidx_main_v56 (ix2 r j) k = ix2 r k := fun k => funext fun a => Fin.ext (by match a with | ⟨0, _⟩ => rfl | ⟨1, _⟩ => rfl)
  have er56 : ∀ k : Fin 256, ridx_main_v56 (ix2 r j) k = ix2 k j := fun k => funext fun a => Fin.ext (by match a with | ⟨0, _⟩ => rfl | ⟨1, _⟩ => rfl)
  have el57 : ∀ k : Fin 256, lidx_main_v57 (ix2 r j) k = ix2 r k := fun k => funext fun a => Fin.ext (by match a with | ⟨0, _⟩ => rfl | ⟨1, _⟩ => rfl)
  have er57 : ∀ k : Fin 256, ridx_main_v57 (ix2 r j) k = ix2 k j := fun k => funext fun a => Fin.ext (by match a with | ⟨0, _⟩ => rfl | ⟨1, _⟩ => rfl)
  have e60 : idx_main_v59 (idx_main_v60 (ix2 r j)) = ix1 j := funext fun a => Fin.ext (by match a with | ⟨0, _⟩ => rfl)
  have e64 : idx_main_v63 (idx_main_v64 (ix2 r j)) = ix1 j := funext fun a => Fin.ext (by match a with | ⟨0, _⟩ => rfl)
  have e71 : idx_main_v70 (idx_main_v71 (ix2 r j)) = ix1 j := funext fun a => Fin.ext (by match a with | ⟨0, _⟩ => rfl)
  have e74 : idx_main_v73 (idx_main_v74 (ix2 r j)) = ix1 j := funext fun a => Fin.ext (by match a with | ⟨0, _⟩ => rfl)
  rw [val_main_v75_apply, val_main_v72_apply, val_main_v65_apply, val_main_v62_apply, val_main_v61_apply,
    val_main_v58_apply, val_main_v56_apply, val_main_v57_apply, val_main_v60_apply, val_main_v59_apply,
    val_main_call2_v0_apply, val_main_call2_cst_apply, val_main_v64_apply, val_main_v63_apply,
    val_main_v71_apply, val_main_v70_apply, val_main_v69_apply, val_main_v68_apply, val_main_v67_apply,
    val_main_v66_apply, val_main_cst_11_apply, val_main_v74_apply, val_main_v73_apply, e60, e64, e71, e74]
  simp only [el56, er56, el57, er57]
  simp only [Ideal.addf_def, Ideal.subf_def, Ideal.mulf_def, Ideal.maximumf_def, Ideal.hostUnary_rsqrt_def, Ideal.hostUnary_exp_def, Ideal.hostUnary_log_def, Ideal.ofBits_def]
  rfl

/-- The program's row scatter-add read at an entry: the operand's entry plus the rows of the update whose graph number,
    read signed, is the entry's row. -/
theorem scatterRows_apply (x : Vec Ideal S256x256 .f32) (idx : IVec S50000x1 32) (upd : Vec Ideal S50000x256 .f32)
    (s d : Fin 256) :
    Host.scatterAdd (F := Ideal) (φ := .f32) scatter_S256x256_S50000x1_S50000x256_1_0_0_1 x idx upd (ix2 s d)
      = x (ix2 s d) + ∑ e ∈ Finset.univ.filter (fun e : Fin 50000 => (idx (ix2 e (0 : Fin 1))).toInt = (s.val : Int)),
          upd (ix2 e d) := by
  have hrec : scatter_S256x256_S50000x1_S50000x256_1_0_0_1
      = RowScatter.rowDims 256 256 50000 Cert.ReferenceIdeal.Gen.scatter_S256x256_S50000x1_S50000x256_1_0_0_1_wf := rfl
  simp only [Host.scatterAdd, Ideal.hostScatterAdd_def]
  rw [hrec]
  exact RowScatter.scatterAdd_rows_apply _ x idx upd s d

/-- The first pooled table, entry by entry. -/
theorem p1_apply (s d : Fin 256) :
    val_main_v78 (F := Ideal) x0 x1 x2 x3 x4 x5 x6 x7 x8 x9 x10 (ix2 s d)
      = pool (fun r j => val_main_v43 (F := Ideal) x0 x1 x2 x4 x5 x6 x7 x8 x9 x10 (ix2 r j)) (fun r => x3 (ix1 r)) s d := by
  have e77 : ∀ e : Fin 50000, idx_main_v77 (ix2 e (0 : Fin 1)) = ix1 e := fun e => funext fun a => Fin.ext (by match a with | ⟨0, _⟩ => rfl)
  unfold val_main_v78
  rw [scatterRows_apply, val_main_v76_apply, val_main_cst_12_apply, Ideal.ofBits_def, Ideal.ofBits_zero_f32, zero_add]
  simp only [val_main_v77_apply, e77]
  rfl

/-- The second pooled table, entry by entry. -/
theorem p2_apply (s d : Fin 256) :
    val_main_v81 (F := Ideal) x0 x1 x2 x3 x4 x5 x6 x7 x8 x9 x10 x11 x12 x13 x14 x15 x16 x17 (ix2 s d)
      = pool (fun r j => val_main_v75 (F := Ideal) x0 x1 x2 x4 x5 x6 x7 x8 x9 x10 x11 x12 x13 x14 x15 x16 x17 (ix2 r j)) (fun r => x3 (ix1 r)) s d := by
  have e77 : ∀ e : Fin 50000, idx_main_v80 (ix2 e (0 : Fin 1)) = ix1 e := fun e => funext fun a => Fin.ext (by match a with | ⟨0, _⟩ => rfl)
  unfold val_main_v81
  rw [scatterRows_apply, val_main_v79_apply, val_main_cst_13_apply, Ideal.ofBits_def, Ideal.ofBits_zero_f32, zero_add]
  simp only [val_main_v80_apply, e77]
  rfl

end Cert.ReferenceIdeal.RefRead

end
-- ==== Proof.RefOut.lean ====
import proofs.«411381_j53893249630287_2_alg».proof.Proof.RefStages
import proofs.«411381_j53893249630287_2_alg».proof.Proof.Spec
import proofs.«411381_j53893249630287_2_alg».proof.Proof.LibRowScatter
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.ReferenceIdeal.RefOut

open Cert.ReferenceIdeal Cert.ReferenceIdeal.Read Idealize.ShloMosaic Idealize.ShloMosaic.ValueIdx Cert.Gnn

variable (x0 : Vec Ideal S50000x128 .f32) (x1 x2 : IVec S800000 32) (x3 : IVec S50000 32)
  (x4 x5 : Vec Ideal S128x256 .f32) (x6 x7 x8 x9 x10 : Vec Ideal S256 .f32)
  (x11 x12 : Vec Ideal S256x256 .f32) (x13 x14 x15 x16 x17 : Vec Ideal S256 .f32)
  (x18 : Vec Ideal S256x32 .f32) (x19 x20 x21 x22 x23 : Vec Ideal S32 .f32)
  (x24 : Vec Ideal S256x32 .f32) (x25 x26 x27 x28 x29 : Vec Ideal S32 .f32)

/-- The first head, entry by entry. -/
theorem head1_apply (s : Fin 256) (o : Fin 32) :
    val_main_v99 (F := Ideal) x0 x1 x2 x3 x4 x5 x6 x7 x8 x9 x10 x18 x19 x20 x21 x22 x23 (ix2 s o)
      = head (fun s k => val_main_v78 (F := Ideal) x0 x1 x2 x3 x4 x5 x6 x7 x8 x9 x10 (ix2 s k)) (fun k o => x18 (ix2 k o))
          (fun o => x19 (ix1 o)) (fun o => x20 (ix1 o)) (fun o => x21 (ix1 o)) (fun o => x22 (ix1 o)) (fun o => x23 (ix1 o)) s o := by
  have el : ∀ k : Fin 256, lidx_main_v82 (ix2 s o) k = ix2 s k := fun k => funext fun a => Fin.ext (by match a with | ⟨0, _⟩ => rfl | ⟨1, _⟩ => rfl)
  have er : ∀ k : Fin 256, ridx_main_v82 (ix2 s o) k = ix2 k o := fun k => funext fun a => Fin.ext (by match a with | ⟨0, _⟩ => rfl | ⟨1, _⟩ => rfl)
  have eb : idx_main_v83 (idx_main_v84 (ix2 s o)) = ix1 o := funext fun a => Fin.ext (by match a with | ⟨0, _⟩ => rfl)
  have em : idx_main_v87 (idx_main_v88 (ix2 s o)) = ix1 o := funext fun a => Fin.ext (by match a with | ⟨0, _⟩ => rfl)
  have eg : idx_main_v94 (idx_main_v95 (ix2 s o)) = ix1 o := funext fun a => Fin.ext (by match a with | ⟨0, _⟩ => rfl)
  have ee : idx_main_v97 (idx_main_v98 (ix2 s o)) = ix1 o := funext fun a => Fin.ext (by match a with | ⟨0, _⟩ => rfl)
  rw [val_main_v99_apply, val_main_v96_apply, val_main_v89_apply, val_main_v86_apply, val_main_v85_apply,
    val_main_v82_apply, val_main_v84_apply, val_main_v83_apply,
    val_main_call3_v0_apply, val_main_call3_cst_apply, val_main_v88_apply, val_main_v87_apply,
    val_main_v95_apply, val_main_v94_apply, val_main_v93_apply, val_main_v92_apply, val_main_v91_apply,
    val_main_v90_apply, val_main_cst_14_apply, val_main_v98_apply, val_main_v97_apply, eb, em, eg, ee]
  simp only [el, er]
  simp only [Ideal.addf_def, Ideal.subf_def, Ideal.mulf_def, Ideal.maximumf_def, Ideal.hostUnary_rsqrt_def, Ideal.hostUnary_exp_def, Ideal.hostUnary_log_def, Ideal.ofBits_def]
  rfl

/-- The second head, entry by entry. -/
theorem head2_apply (s : Fin 256) (o : Fin 32) :
    val_main_v117 (F := Ideal) x0 x1 x2 x3 x4 x5 x6 x7 x8 x9 x10 x11 x12 x13 x14 x15 x16 x17 x24 x25 x26 x27 x28 x29 (ix2 s o)
      = head (fun s k => val_main_v81 (F := Ideal) x0 x1 x2 x3 x4 x5 x6 x7 x8 x9 x10 x11 x12 x13 x14 x15 x16 x17 (ix2 s k)) (fun k o => x24 (ix2 k o))
          (fun o => x25 (ix1 o)) (fun o => x26 (ix1 o)) (fun o => x27 (ix1 o)) (fun o => x28 (ix1 o)) (fun o => x29 (ix1 o)) s o := by
  have el : ∀ k : Fin 256, lidx_main_v100 (ix2 s o) k = ix2 s k := fun k => funext fun a => Fin.ext (by match a with | ⟨0, _⟩ => rfl | ⟨1, _⟩ => rfl)
  have er : ∀ k : Fin 256, ridx_main_v100 (ix2 s o) k = ix2 k o := fun k => funext fun a => Fin.ext (by match a with | ⟨0, _⟩ => rfl | ⟨1, _⟩ => rfl)
  have eb : idx_main_v101 (idx_main_v102 (ix2 s o)) = ix1 o := funext fun a => Fin.ext (by match a with | ⟨0, _⟩ => rfl)
  have em : idx_main_v105 (idx_main_v106 (ix2 s o)) = ix1 o := funext fun a => Fin.ext (by match a with | ⟨0, _⟩ => rfl)
  have eg : idx_main_v112 (idx_main_v113 (ix2 s o)) = ix1 o := funext fun a => Fin.ext (by match a with | ⟨0, _⟩ => rfl)
  have ee : idx_main_v115 (idx_main_v116 (ix2 s o)) = ix1 o := funext fun a => Fin.ext (by match a with | ⟨0, _⟩ => rfl)
  rw [val_main_v117_apply, val_main_v114_apply, val_main_v107_apply, val_main_v104_apply, val_main_v103_apply,
    val_main_v100_apply, val_main_v102_apply, val_main_v101_apply,
    val_main_call4_v0_apply, val_main_call4_cst_apply, val_main_v106_apply, val_main_v105_apply,
    val_main_v113_apply, val_main_v112_apply, val_main_v111_apply, val_main_v110_apply, val_main_v109_apply,
    val_main_v108_apply, val_main_cst_15_apply, val_main_v116_apply, val_main_v115_apply, eb, em, eg, ee]
  simp only [el, er]
  simp only [Ideal.addf_def, Ideal.subf_def, Ideal.mulf_def, Ideal.maximumf_def, Ideal.hostUnary_rsqrt_def, Ideal.hostUnary_exp_def, Ideal.hostUnary_log_def, Ideal.ofBits_def]
  rfl

/-- The mixed scores, entry by entry. -/
theorem mix_apply (s : Fin 256) (o : Fin 32) :
    val_main_v122 (F := Ideal) x0 x1 x2 x3 x4 x5 x6 x7 x8 x9 x10 x11 x12 x13 x14 x15 x16 x17 x18 x19 x20 x21 x22 x23 x24 x25 x26 x27 x28 x29 (ix2 s o)
      = mix
          (head (fun s k => val_main_v78 (F := Ideal) x0 x1 x2 x3 x4 x5 x6 x7 x8 x9 x10 (ix2 s k)) (fun k o => x18 (ix2 k o))
            (fun o => x19 (ix1 o)) (fun o => x20 (ix1 o)) (fun o => x21 (ix1 o)) (fun o => x22 (ix1 o)) (fun o => x23 (ix1 o)))
          (head (fun s k => val_main_v81 (F := Ideal) x0 x1 x2 x3 x4 x5 x6 x7 x8 x9 x10 x11 x12 x13 x14 x15 x16 x17 (ix2 s k)) (fun k o => x24 (ix2 k o))
            (fun o => x25 (ix1 o)) (fun o => x26 (ix1 o)) (fun o => x27 (ix1 o)) (fun o => x28 (ix1 o)) (fun o => x29 (ix1 o))) s o := by
  rw [val_main_v122_apply, val_main_v119_apply, val_main_v121_apply, val_main_v118_apply, val_main_cst_16_apply,
    val_main_v120_apply, val_main_cst_17_apply, head1_apply, head2_apply]
  simp only [Ideal.addf_def, Ideal.subf_def, Ideal.mulf_def, Ideal.maximumf_def, Ideal.hostUnary_rsqrt_def, Ideal.hostUnary_exp_def, Ideal.hostUnary_log_def, Ideal.ofBits_def]
  rfl

/-- From the row maximum's starting value, the fold of the maximum over a row of a 256 by 32 table. -/
theorem rowFold_apply (Z : Vec Ideal S256x32 .f32) (c : Vec Ideal S_ .f32) (h' : S256x32.ReducesTo [1] S256)
    (hu : 0 < S_.numel) (s : Fin 256) :
    Host.reduce (FloatOps.maximumf (F := Ideal) (φ := .f32)) Z c h' hu (ix1 s)
      = (Finset.univ : Finset (Fin 32)).fold max (c (Shape.Idx.first hu)) (fun o => Z (ix2 s o)) := by
  have h : S256x32.Reduces [1] S256 := by decide
  rw [Host.reduce_eq_fold_single (FloatOps.maximumf (F := Ideal) (φ := .f32)) Z c h' h hu]
  have hf : (Z ∘ h.lift (ix1 s)) = fun k : Fin 32 => Z (ix2 s k) :=
    funext fun k => congrArg Z (funext fun a => Fin.ext (by match a with | ⟨0, _⟩ => rfl | ⟨1, _⟩ => rfl))
  rw [hf]
  rfl

/-- The result, entry by entry: the logarithmic softmax of the two heads' mixed scores. -/
theorem out_apply (s : Fin 256) (o : Fin 32) :
    val_main_v123 (F := Ideal) x0 x1 x2 x3 x4 x5 x6 x7 x8 x9 x10 x11 x12 x13 x14 x15 x16 x17 x18 x19 x20 x21 x22 x23 x24 x25 x26 x27 x28 x29 (ix2 s o)
      = logSoftmax (mix
          (head (fun s k => val_main_v78 (F := Ideal) x0 x1 x2 x3 x4 x5 x6 x7 x8 x9 x10 (ix2 s k)) (fun k o => x18 (ix2 k o))
            (fun o => x19 (ix1 o)) (fun o => x20 (ix1 o)) (fun o => x21 (ix1 o)) (fun o => x22 (ix1 o)) (fun o => x23 (ix1 o)))
          (head (fun s k => val_main_v81 (F := Ideal) x0 x1 x2 x3 x4 x5 x6 x7 x8 x9 x10 x11 x12 x13 x14 x15 x16 x17 (ix2 s k)) (fun k o => x24 (ix2 k o))
            (fun o => x25 (ix1 o)) (fun o => x26 (ix1 o)) (fun o => x27 (ix1 o)) (fun o => x28 (ix1 o)) (fun o => x29 (ix1 o)))) s o := by
  have e4 : ∀ q : Fin 32, idx_main_call5_v3 (idx_main_call5_v4 (ix2 s q)) = ix1 s := fun q => funext fun a => Fin.ext (by match a with | ⟨0, _⟩ => rfl)
  have e10 : idx_main_call5_v8 (idx_main_call5_v10 (ix2 s o)) = ix1 s := funext fun a => Fin.ext (by match a with | ⟨0, _⟩ => rfl)
  have e7 : ∀ k : Fin 32, idx_main_call5_v7 (ix1 s) k = ix2 s k := fun k => funext fun a => Fin.ext (by match a with | ⟨0, _⟩ => rfl | ⟨1, _⟩ => rfl)
  simp only [val_main_v123_apply, val_main_call5_v10_apply, val_main_call5_v9_apply, val_main_call5_v8_apply,
    val_main_call5_v7_apply, val_main_call5_v6_apply, val_main_call5_v5_apply, val_main_call5_v4_apply,
    val_main_call5_v3_apply, val_main_call5_v2_apply, val_main_call5_v1_apply, val_main_call5_cst_0_apply,
    val_main_call5_cst_1_apply, e10, e7, e4]
  unfold val_main_call5_v0
  simp only [rowFold_apply, val_main_call5_cst_apply, mix_apply]
  simp only [Ideal.addf_def, Ideal.subf_def, Ideal.mulf_def, Ideal.maximumf_def, Ideal.hostUnary_rsqrt_def, Ideal.hostUnary_exp_def, Ideal.hostUnary_log_def, Ideal.ofBits_def, Ideal.ofBits_zero_f32, zero_add]
  rfl

end Cert.ReferenceIdeal.RefOut

end
-- ==== Proof.Bridge.lean ====
/-
  The idealized kernel's result is the reference's last stage of the same arguments.

  Region by region: a region's entry contents are read back to the arguments and to the arrays the regions before it left;
  each layer's output array is the reference's stage entry by entry (the same sums and the same normalisation, the neighbour
  means being one chain of host operations on both sides once the changes of float format are read as the identity); the
  per-block pooled tables summed over the blocks are the reference's scatter-add (every node lies in exactly one block, and a
  graph number that names no row of the table is dropped on both sides); the read-out is the same expression of the pooled tables.
-/
import proofs.«411381_j53893249630287_2_alg».proof.Proof.KSage0
import proofs.«411381_j53893249630287_2_alg».proof.Proof.KSage1
import proofs.«411381_j53893249630287_2_alg».proof.Proof.KReadout
import proofs.«411381_j53893249630287_2_alg».proof.Proof.KHostA
import proofs.«411381_j53893249630287_2_alg».proof.Proof.KHostB
import proofs.«411381_j53893249630287_2_alg».proof.Proof.RefRead
import proofs.«411381_j53893249630287_2_alg».proof.Proof.RefOut

set_option maxRecDepth 16384

noncomputable section

namespace Cert.Bridge

open Cert.KernelIdeal Cert.KernelIdeal.Gen Idealize.ShloMosaic Idealize.ShloMosaic.ValueIdx Idealize.ShloMosaic.TcCoe Idealize.SL.Sem Cert.Gnn

/-! ## The specification respects entrywise equality of its arguments -/

theorem sage_congr {D : ℕ} {x x' hn hn' : Fin 50000 → Fin D → EReal} {Ws Ws' Wn Wn' : Fin D → Fin 256 → EReal}
    {b b' g g' be be' mu mu' va va' : Fin 256 → EReal}
    (hx : ∀ r k, x r k = x' r k) (hhn : ∀ r k, hn r k = hn' r k) (hWs : ∀ k j, Ws k j = Ws' k j) (hWn : ∀ k j, Wn k j = Wn' k j)
    (hb : ∀ j, b j = b' j) (hg : ∀ j, g j = g' j) (hbe : ∀ j, be j = be' j) (hmu : ∀ j, mu j = mu' j) (hva : ∀ j, va j = va' j)
    (r : Fin 50000) (j : Fin 256) : sage x hn Ws Wn b g be mu va r j = sage x' hn' Ws' Wn' b' g' be' mu' va' r j := by
  obtain rfl : x = x' := funext fun r => funext fun k => hx r k
  obtain rfl : hn = hn' := funext fun r => funext fun k => hhn r k
  obtain rfl : Ws = Ws' := funext fun k => funext fun j => hWs k j
  obtain rfl : Wn = Wn' := funext fun k => funext fun j => hWn k j
  obtain rfl : b = b' := funext hb
  obtain rfl : g = g' := funext hg
  obtain rfl : be = be' := funext hbe
  obtain rfl : mu = mu' := funext hmu
  obtain rfl : va = va' := funext hva
  rfl

theorem partialPool_congr {h h' : Fin 50000 → Fin 256 → EReal} {gid gid' : Fin 50000 → BitVec 32}
    (hh : ∀ r j, h r j = h' r j) (hg : ∀ r, gid r = gid' r) (t : Fin 25) (s d : Fin 256) :
    partialPool h gid t s d = partialPool h' gid' t s d := by
  obtain rfl : h = h' := funext fun r => funext fun j => hh r j
  obtain rfl : gid = gid' := funext hg
  rfl

/-- The read-out as one function of the two pooled tables and the heads' parameters. -/
def readout (p1 : Fin 256 → Fin 256 → EReal) (W1 : Fin 256 → Fin 32 → EReal) (b1 g1 be1 mu1 va1 : Fin 32 → EReal)
    (p2 : Fin 256 → Fin 256 → EReal) (W2 : Fin 256 → Fin 32 → EReal) (b2 g2 be2 mu2 va2 : Fin 32 → EReal)
    (s : Fin 256) (o : Fin 32) : EReal :=
  logSoftmax (mix (head p1 W1 b1 g1 be1 mu1 va1) (head p2 W2 b2 g2 be2 mu2 va2)) s o

theorem readout_congr {p1 p1' : Fin 256 → Fin 256 → EReal} {W1 W1' : Fin 256 → Fin 32 → EReal} {b1 b1' g1 g1' be1 be1' mu1 mu1' va1 va1' : Fin 32 → EReal}
    {p2 p2' : Fin 256 → Fin 256 → EReal} {W2 W2' : Fin 256 → Fin 32 → EReal} {b2 b2' g2 g2' be2 be2' mu2 mu2' va2 va2' : Fin 32 → EReal}
    (hp1 : ∀ s k, p1 s k = p1' s k) (hW1 : ∀ k o, W1 k o = W1' k o) (hb1 : ∀ o, b1 o = b1' o) (hg1 : ∀ o, g1 o = g1' o)
    (hbe1 : ∀ o, be1 o = be1' o) (hmu1 : ∀ o, mu1 o = mu1' o) (hva1 : ∀ o, va1 o = va1' o)
    (hp2 : ∀ s k, p2 s k = p2' s k) (hW2 : ∀ k o, W2 k o = W2' k o) (hb2 : ∀ o, b2 o = b2' o) (hg2 : ∀ o, g2 o = g2' o)
    (hbe2 : ∀ o, be2 o = be2' o) (hmu2 : ∀ o, mu2 o = mu2' o) (hva2 : ∀ o, va2 o = va2' o) (s : Fin 256) (o : Fin 32) :
    readout p1 W1 b1 g1 be1 mu1 va1 p2 W2 b2 g2 be2 mu2 va2 s o = readout p1' W1' b1' g1' be1' mu1' va1' p2' W2' b2' g2' be2' mu2' va2' s o := by
  obtain rfl : p1 = p1' := funext fun s => funext fun k => hp1 s k
  obtain rfl : W1 = W1' := funext fun k => funext fun o => hW1 k o
  obtain rfl : b1 = b1' := funext hb1
  obtain rfl : g1 = g1' := funext hg1
  obtain rfl : be1 = be1' := funext hbe1
  obtain rfl : mu1 = mu1' := funext hmu1
  obtain rfl : va1 = va1' := funext hva1
  obtain rfl : p2 = p2' := funext fun s => funext fun k => hp2 s k
  obtain rfl : W2 = W2' := funext fun k => funext fun o => hW2 k o
  obtain rfl : b2 = b2' := funext hb2
  obtain rfl : g2 = g2' := funext hg2
  obtain rfl : be2 = be2' := funext hbe2
  obtain rfl : mu2 = mu2' := funext hmu2
  obtain rfl : va2 = va2' := funext hva2
  rfl

/-! ## The two programs' neighbour means -/

/-- At the extended reals a change of float format is the identity on a whole array. -/
theorem truncf_self {s : Shape} {φ ψ : FTy} (a : FVec Ideal s φ) (h : ψ.bits < φ.bits) : (truncf ψ a h : FVec Ideal s ψ) = a := rfl
theorem extf_self {s : Shape} {φ ψ : FTy} (a : FVec Ideal s φ) (h : φ.bits < ψ.bits) : (extf ψ a h : FVec Ideal s ψ) = a := rfl

variable (m : (ℓ : Loc nD τ sig) → Buf (Elt Ideal) ℓ) (ρ : Dev nD → PrngReg)

/-! The thirty arguments on device `c`, each at its literal type, and the reference's stages of them. -/
abbrev a0 (c : Dev nD) : Vec Ideal S50000x128 .f32 := m ((c : Thread nD τ).loc main_arg0)
abbrev a1 (c : Dev nD) : IVec S800000 32 := m ((c : Thread nD τ).loc main_arg1)
abbrev a2 (c : Dev nD) : IVec S800000 32 := m ((c : Thread nD τ).loc main_arg2)
abbrev a3 (c : Dev nD) : IVec S50000 32 := m ((c : Thread nD τ).loc main_arg3)
abbrev a4 (c : Dev nD) : Vec Ideal S128x256 .f32 := m ((c : Thread nD τ).loc main_arg4)
abbrev a5 (c : Dev nD) : Vec Ideal S128x256 .f32 := m ((c : Thread nD τ).loc main_arg5)
abbrev a6 (c : Dev nD) : Vec Ideal S256 .f32 := m ((c : Thread nD τ).loc main_arg6)
abbrev a7 (c : Dev nD) : Vec Ideal S256 .f32 := m ((c : Thread nD τ).loc main_arg7)
abbrev a8 (c : Dev nD) : Vec Ideal S256 .f32 := m ((c : Thread nD τ).loc main_arg8)
abbrev a9 (c : Dev nD) : Vec Ideal S256 .f32 := m ((c : Thread nD τ).loc main_arg9)
abbrev a10 (c : Dev nD) : Vec Ideal S256 .f32 := m ((c : Thread nD τ).loc main_arg10)
abbrev a11 (c : Dev nD) : Vec Ideal S256x256 .f32 := m ((c : Thread nD τ).loc main_arg11)
abbrev a12 (c : Dev nD) : Vec Ideal S256x256 .f32 := m ((c : Thread nD τ).loc main_arg12)
abbrev a13 (c : Dev nD) : Vec Ideal S256 .f32 := m ((c : Thread nD τ).loc main_arg13)
abbrev a14 (c : Dev nD) : Vec Ideal S256 .f32 := m ((c : Thread nD τ).loc main_arg14)
abbrev a15 (c : Dev nD) : Vec Ideal S256 .f32 := m ((c : Thread nD τ).loc main_arg15)
abbrev a16 (c : Dev nD) : Vec Ideal S256 .f32 := m ((c : Thread nD τ).loc main_arg16)
abbrev a17 (c : Dev nD) : Vec Ideal S256 .f32 := m ((c : Thread nD τ).loc main_arg17)
abbrev a18 (c : Dev nD) : Vec Ideal S256x32 .f32 := m ((c : Thread nD τ).loc main_arg18)
abbrev a19 (c : Dev nD) : Vec Ideal S32 .f32 := m ((c : Thread nD τ).loc main_arg19)
abbrev a20 (c : Dev nD) : Vec Ideal S32 .f32 := m ((c : Thread nD τ).loc main_arg20)
abbrev a21 (c : Dev nD) : Vec Ideal S32 .f32 := m ((c : Thread nD τ).loc main_arg21)
abbrev a22 (c : Dev nD) : Vec Ideal S32 .f32 := m ((c : Thread nD τ).loc main_arg22)
abbrev a23 (c : Dev nD) : Vec Ideal S32 .f32 := m ((c : Thread nD τ).loc main_arg23)
abbrev a24 (c : Dev nD) : Vec Ideal S256x32 .f32 := m ((c : Thread nD τ).loc main_arg24)
abbrev a25 (c : Dev nD) : Vec Ideal S32 .f32 := m ((c : Thread nD τ).loc main_arg25)
abbrev a26 (c : Dev nD) : Vec Ideal S32 .f32 := m ((c : Thread nD τ).loc main_arg26)
abbrev a27 (c : Dev nD) : Vec Ideal S32 .f32 := m ((c : Thread nD τ).loc main_arg27)
abbrev a28 (c : Dev nD) : Vec Ideal S32 .f32 := m ((c : Thread nD τ).loc main_arg28)
abbrev a29 (c : Dev nD) : Vec Ideal S32 .f32 := m ((c : Thread nD τ).loc main_arg29)
abbrev r23 (c : Dev nD) : Vec Ideal S50000x128 .f32 := Cert.ReferenceIdeal.Read.val_main_v23 (F := Ideal) (a0 m c) (a1 m c) (a2 m c)
abbrev r43 (c : Dev nD) : Vec Ideal S50000x256 .f32 := Cert.ReferenceIdeal.Read.val_main_v43 (F := Ideal) (a0 m c) (a1 m c) (a2 m c) (a4 m c) (a5 m c) (a6 m c) (a7 m c) (a8 m c) (a9 m c) (a10 m c)
abbrev r55 (c : Dev nD) : Vec Ideal S50000x256 .f32 := Cert.ReferenceIdeal.Read.val_main_v55 (F := Ideal) (a0 m c) (a1 m c) (a2 m c) (a4 m c) (a5 m c) (a6 m c) (a7 m c) (a8 m c) (a9 m c) (a10 m c)
abbrev r75 (c : Dev nD) : Vec Ideal S50000x256 .f32 := Cert.ReferenceIdeal.Read.val_main_v75 (F := Ideal) (a0 m c) (a1 m c) (a2 m c) (a4 m c) (a5 m c) (a6 m c) (a7 m c) (a8 m c) (a9 m c) (a10 m c) (a11 m c) (a12 m c) (a13 m c) (a14 m c) (a15 m c) (a16 m c) (a17 m c)
abbrev r78 (c : Dev nD) : Vec Ideal S256x256 .f32 := Cert.ReferenceIdeal.Read.val_main_v78 (F := Ideal) (a0 m c) (a1 m c) (a2 m c) (a3 m c) (a4 m c) (a5 m c) (a6 m c) (a7 m c) (a8 m c) (a9 m c) (a10 m c)
abbrev r81 (c : Dev nD) : Vec Ideal S256x256 .f32 := Cert.ReferenceIdeal.Read.val_main_v81 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c)
abbrev r123 (c : Dev nD) : Vec Ideal S256x32 .f32 := Cert.ReferenceIdeal.Read.val_main_v123 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c) (a19 m c) (a20 m c) (a21 m c) (a22 m c) (a23 m c) (a24 m c) (a25 m c) (a26 m c) (a27 m c) (a28 m c) (a29 m c)

/-- The kernel program's neighbour means of the input features are the reference's: one chain of host operations, the
    kernel's two changes of float format being the identity. -/
theorem nm128_eq (c : Dev nD) : HostA.nm128 (F := Ideal) (a0 m c) (a1 m c) (a2 m c) = r23 m c := by
  show HostA.nm128 (F := Ideal) (a0 m c) (a1 m c) (a2 m c) = Cert.ReferenceIdeal.Read.val_main_v23 (F := Ideal) (a0 m c) (a1 m c) (a2 m c)
  unfold HostA.nm128
  unfold Cert.ReferenceIdeal.Read.val_main_v23 Cert.ReferenceIdeal.Read.val_main_v21 Cert.ReferenceIdeal.Read.val_main_v19 Cert.ReferenceIdeal.Read.val_main_cst_6 Cert.ReferenceIdeal.Read.val_main_v20 Cert.ReferenceIdeal.Read.val_main_v18 Cert.ReferenceIdeal.Read.val_main_v17 Cert.ReferenceIdeal.Read.val_main_v16 Cert.ReferenceIdeal.Read.val_main_v13 Cert.ReferenceIdeal.Read.val_main_v12 Cert.ReferenceIdeal.Read.val_main_c Cert.ReferenceIdeal.Read.val_main_v15 Cert.ReferenceIdeal.Read.val_main_v14 Cert.ReferenceIdeal.Read.val_main_c_5 Cert.ReferenceIdeal.Read.val_main_v22 Cert.ReferenceIdeal.Read.val_main_v11 Cert.ReferenceIdeal.Read.val_main_v10 Cert.ReferenceIdeal.Read.val_main_v5 Cert.ReferenceIdeal.Read.val_main_v3 Cert.ReferenceIdeal.Read.val_main_v1 Cert.ReferenceIdeal.Read.val_main_cst_0 Cert.ReferenceIdeal.Read.val_main_v2 Cert.ReferenceIdeal.Read.val_main_v0 Cert.ReferenceIdeal.Read.val_main_cst Cert.ReferenceIdeal.Read.val_main_v4 Cert.ReferenceIdeal.Read.val_main_cst_1 Cert.ReferenceIdeal.Read.val_main_v9 Cert.ReferenceIdeal.Read.val_main_v8 Cert.ReferenceIdeal.Read.val_main_cst_3 Cert.ReferenceIdeal.Read.val_main_v7 Cert.ReferenceIdeal.Read.val_main_v6 Cert.ReferenceIdeal.Read.val_main_cst_2 Cert.ReferenceIdeal.Read.val_main_call0_v1 Cert.ReferenceIdeal.Read.val_main_call0_v0 Cert.ReferenceIdeal.Read.val_main_cst_4
  rfl

/-- The same for the first layer's output. -/
theorem nm256_eq (c : Dev nD) : HostB.nm256 (F := Ideal) (r43 m c) (a1 m c) (a2 m c) = r55 m c := by
  show HostB.nm256 (F := Ideal) (Cert.ReferenceIdeal.Read.val_main_v43 (F := Ideal) (a0 m c) (a1 m c) (a2 m c) (a4 m c) (a5 m c) (a6 m c) (a7 m c) (a8 m c) (a9 m c) (a10 m c)) (a1 m c) (a2 m c) = Cert.ReferenceIdeal.Read.val_main_v55 (F := Ideal) (a0 m c) (a1 m c) (a2 m c) (a4 m c) (a5 m c) (a6 m c) (a7 m c) (a8 m c) (a9 m c) (a10 m c)
  unfold HostB.nm256 HostB.invDeg
  unfold Cert.ReferenceIdeal.Read.val_main_v55 Cert.ReferenceIdeal.Read.val_main_v53 Cert.ReferenceIdeal.Read.val_main_v51 Cert.ReferenceIdeal.Read.val_main_cst_10 Cert.ReferenceIdeal.Read.val_main_v52 Cert.ReferenceIdeal.Read.val_main_v50 Cert.ReferenceIdeal.Read.val_main_v49 Cert.ReferenceIdeal.Read.val_main_v48 Cert.ReferenceIdeal.Read.val_main_v45 Cert.ReferenceIdeal.Read.val_main_v44 Cert.ReferenceIdeal.Read.val_main_c_8 Cert.ReferenceIdeal.Read.val_main_v47 Cert.ReferenceIdeal.Read.val_main_v46 Cert.ReferenceIdeal.Read.val_main_c_9 Cert.ReferenceIdeal.Read.val_main_v54 Cert.ReferenceIdeal.Read.val_main_v11 Cert.ReferenceIdeal.Read.val_main_v10 Cert.ReferenceIdeal.Read.val_main_v5 Cert.ReferenceIdeal.Read.val_main_v3 Cert.ReferenceIdeal.Read.val_main_v1 Cert.ReferenceIdeal.Read.val_main_cst_0 Cert.ReferenceIdeal.Read.val_main_v2 Cert.ReferenceIdeal.Read.val_main_v0 Cert.ReferenceIdeal.Read.val_main_cst Cert.ReferenceIdeal.Read.val_main_v4 Cert.ReferenceIdeal.Read.val_main_cst_1 Cert.ReferenceIdeal.Read.val_main_v9 Cert.ReferenceIdeal.Read.val_main_v8 Cert.ReferenceIdeal.Read.val_main_cst_3 Cert.ReferenceIdeal.Read.val_main_v7 Cert.ReferenceIdeal.Read.val_main_v6 Cert.ReferenceIdeal.Read.val_main_cst_2 Cert.ReferenceIdeal.Read.val_main_call0_v1 Cert.ReferenceIdeal.Read.val_main_call0_v0 Cert.ReferenceIdeal.Read.val_main_cst_4
  rfl

/-! ## Layer by layer -/

/-- The first layer's output array, as region 0 leaves it, is the reference's stage, entry by entry. -/
theorem h1_entry (c : Dev nD) (r : Fin 50000) (j : Fin 256) :
    (dat0 (F := Ideal) (V3 m ρ) c).arrAt 10 cfg0.N (ix2 r j) = r43 m c (ix2 r j) :=
  (Sage0.h_apply (V3 m ρ) c r j).trans
    ((sage_congr (fun r k => congrFun (HostA.in0_0 m ρ c) (ix2 r k))
        (fun r k => congrFun ((HostA.in0_1 m ρ c).trans (nm128_eq m c)) (ix2 r k))
        (fun k j => HostA.in0_3 m ρ c (ix2 k j)) (fun k j => HostA.in0_4 m ρ c (ix2 k j))
        (fun j => HostA.in0_5 m ρ c j) (fun j => HostA.in0_6 m ρ c j) (fun j => HostA.in0_7 m ρ c j)
        (fun j => HostA.in0_8 m ρ c j) (fun j => HostA.in0_9 m ρ c j) r j).trans
      (Cert.ReferenceIdeal.RefRead.h1_apply (a0 m c) (a1 m c) (a2 m c) (a4 m c) (a5 m c) (a6 m c) (a7 m c) (a8 m c) (a9 m c) (a10 m c) r j).symm)

/-- … and so as a whole array. -/
theorem h1_arr (c : Dev nD) : W4 m ρ c (Proc.devRef .tc main_v38_0) = r43 m c :=
  (W4_arr m ρ c 10).trans (funext fun i => by
    obtain ⟨r, j, rfl⟩ : ∃ (r : Fin 50000) (j : Fin 256), i = ix2 r j := ⟨i 0, i 1, eq_ix2 i⟩
    exact h1_entry m ρ c r j)

/-- The second layer's output array, as region 1 leaves it, is the reference's stage, entry by entry. -/
theorem h2_entry (c : Dev nD) (r : Fin 50000) (j : Fin 256) :
    (dat1 (F := Ideal) (V5 m ρ) c).arrAt 10 cfg1.N (ix2 r j) = r75 m c (ix2 r j) :=
  (Sage1.h_apply (V5 m ρ) c r j).trans
    ((sage_congr (fun r k => congrFun ((HostB.in1_0 m ρ c).trans (h1_arr m ρ c)) (ix2 r k))
        (fun r k => congrFun ((HostB.in1_1 m ρ c).trans
          ((congrArg (fun x => HostB.nm256 (F := Ideal) x (a1 m c) (a2 m c)) (h1_arr m ρ c)).trans (nm256_eq m c))) (ix2 r k))
        (fun k j => HostB.in1_3 m ρ c (ix2 k j)) (fun k j => HostB.in1_4 m ρ c (ix2 k j))
        (fun j => HostB.in1_5 m ρ c j) (fun j => HostB.in1_6 m ρ c j) (fun j => HostB.in1_7 m ρ c j)
        (fun j => HostB.in1_8 m ρ c j) (fun j => HostB.in1_9 m ρ c j) r j).trans
      (Cert.ReferenceIdeal.RefRead.h2_apply (a0 m c) (a1 m c) (a2 m c) (a4 m c) (a5 m c) (a6 m c) (a7 m c) (a8 m c) (a9 m c) (a10 m c) (a11 m c) (a12 m c) (a13 m c) (a14 m c) (a15 m c) (a16 m c) (a17 m c) r j).symm)

/-! ## The pooled tables -/

/-- The first layer's per-block tables, summed over the blocks, are the reference's pooled table. -/
theorem p1_entry (c : Dev nD) (s k : Fin 256) :
    ∑ t : Fin 25, Readout.y0 (V7 m ρ) c (ix3 t s k) = r78 m c (ix2 s k) := by
  have hy : Readout.y0 (V7 m ρ) c = (dat0 (F := Ideal) (V3 m ρ) c).arrAt 11 cfg0.N :=
    (HostB.in2_0 m ρ c).trans (W4_arr m ρ c 11)
  have ht : ∀ t : Fin 25, Readout.y0 (V7 m ρ) c (ix3 t s k)
      = partialPool (fun r j => r43 m c (ix2 r j)) (fun r => a3 m c (ix1 r)) t s k := fun t =>
    (congrFun hy (ix3 t s k)).trans ((Sage0.p_apply (V3 m ρ) c t s k).trans
      (partialPool_congr (fun r j => h1_entry m ρ c r j) (fun r => HostA.in0_2 m ρ c r) t s k))
  rw [Finset.sum_congr rfl fun t _ => ht t, sum_partialPool]
  exact (Cert.ReferenceIdeal.RefRead.p1_apply (a0 m c) (a1 m c) (a2 m c) (a3 m c) (a4 m c) (a5 m c) (a6 m c) (a7 m c) (a8 m c) (a9 m c) (a10 m c) s k).symm

/-- The second layer's per-block tables, summed over the blocks, are the reference's pooled table. -/
theorem p2_entry (c : Dev nD) (s k : Fin 256) :
    ∑ t : Fin 25, Readout.y1 (V7 m ρ) c (ix3 t s k) = r81 m c (ix2 s k) := by
  have hy : Readout.y1 (V7 m ρ) c = (dat1 (F := Ideal) (V5 m ρ) c).arrAt 11 cfg1.N :=
    (HostB.in2_1 m ρ c).trans (W6_arr m ρ c 11)
  have ht : ∀ t : Fin 25, Readout.y1 (V7 m ρ) c (ix3 t s k)
      = partialPool (fun r j => r75 m c (ix2 r j)) (fun r => a3 m c (ix1 r)) t s k := fun t =>
    (congrFun hy (ix3 t s k)).trans ((Sage1.p_apply (V5 m ρ) c t s k).trans
      (partialPool_congr (fun r j => h2_entry m ρ c r j) (fun r => HostB.in1_2 m ρ c r) t s k))
  rw [Finset.sum_congr rfl fun t _ => ht t, sum_partialPool]
  exact (Cert.ReferenceIdeal.RefRead.p2_apply (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) s k).symm

/-! ## The result -/

/-- The kernel program's result array is the reference's last stage of the same arguments. -/
theorem kernel_result (c : Dev nD) : W8 m ρ c (Proc.devRef .tc main_v69) = r123 m c :=
  (W8_arr m ρ c 14).trans (funext fun i => by
    obtain ⟨s, o, rfl⟩ : ∃ (s : Fin 256) (o : Fin 32), i = ix2 s o := ⟨i 0, i 1, eq_ix2 i⟩
    refine (Readout.out_apply (V7 m ρ) c s o).trans ?_
    refine Eq.trans ?_ (Cert.ReferenceIdeal.RefOut.out_apply (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c) (a19 m c) (a20 m c) (a21 m c) (a22 m c) (a23 m c) (a24 m c) (a25 m c) (a26 m c) (a27 m c) (a28 m c) (a29 m c) s o).symm
    exact readout_congr (fun s k => p1_entry m ρ c s k) (fun k o => HostB.in2_2 m ρ c (ix2 k o))
      (fun o => HostB.in2_3 m ρ c o) (fun o => HostB.in2_4 m ρ c o) (fun o => HostB.in2_5 m ρ c o)
      (fun o => HostB.in2_6 m ρ c o) (fun o => HostB.in2_7 m ρ c o)
      (fun s k => p2_entry m ρ c s k) (fun k o => HostB.in2_8 m ρ c (ix2 k o))
      (fun o => HostB.in2_9 m ρ c o) (fun o => HostB.in2_10 m ρ c o) (fun o => HostB.in2_11 m ρ c o)
      (fun o => HostB.in2_12 m ρ c o) (fun o => HostB.in2_13 m ρ c o) s o)

end Cert.Bridge

end
-- ==== Proof.lean ====
/-
  The certificate of the two-layer graph network: the Pallas program (two fused layer-and-pooling calls and a read-out call
  among host operations) against the plain reference.

  The three frames are the generated ones (the reference's is its run with the result dropped). No operation was rewritten
  by the idealization. Over the extended reals both programs end with the same array: the kernel program's result is read
  region by region back to the arguments and shown equal, entry by entry, to the reference's last stage (Proof/Bridge.lean);
  the reference's run ends at that stage of its own arguments, which agree with the kernel's.
-/
import proofs.«411381_j53893249630287_2_alg».proof.Defs
import proofs.«411381_j53893249630287_2_alg».proof.Proof.Gen.Kernel
import proofs.«411381_j53893249630287_2_alg».proof.Proof.Gen.Kernel.Skeleton
import proofs.«411381_j53893249630287_2_alg».proof.Proof.Gen.Kernel.Launch
import proofs.«411381_j53893249630287_2_alg».proof.Proof.Gen.Kernel.Points
import proofs.«411381_j53893249630287_2_alg».proof.Proof.Gen.Kernel.Frame
import proofs.«411381_j53893249630287_2_alg».proof.Proof.Gen.KernelIdeal
import proofs.«411381_j53893249630287_2_alg».proof.Proof.Gen.KernelIdeal.Skeleton
import proofs.«411381_j53893249630287_2_alg».proof.Proof.Gen.KernelIdeal.Launch
import proofs.«411381_j53893249630287_2_alg».proof.Proof.Gen.KernelIdeal.Points
import proofs.«411381_j53893249630287_2_alg».proof.Proof.Gen.KernelIdeal.Frame
import proofs.«411381_j53893249630287_2_alg».proof.Proof.Gen.ReferenceIdeal
import proofs.«411381_j53893249630287_2_alg».proof.Proof.Gen.Pre_finite_inputs
import proofs.«411381_j53893249630287_2_alg».proof.Proof.KRun
import proofs.«411381_j53893249630287_2_alg».proof.Proof.RefRun
import proofs.«411381_j53893249630287_2_alg».proof.Proof.RefStages
import proofs.«411381_j53893249630287_2_alg».proof.Proof.Bridge
import Idealize.ShloMosaic.Adequacy
import Idealize.ShloMosaic.Init

set_option maxRecDepth 16384

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  -- the word-level kernel and the idealized kernel: the generated frames
  fun m ρ _ => Cert.Kernel.Gen.frame m ρ,
  fun m ρ _ => Cert.KernelIdeal.Gen.frame m ρ,
  -- the reference: its run with the result dropped
  fun m ρ _ => (θ_run Cert.ReferenceIdeal.defs _ _).mono (fun _ h c => (h c).2) (Cert.ReferenceIdeal.Value.run (F := Ideal) m ρ),
  -- no operation was rewritten by the idealization
  trivial,
  -- both programs end with the reference's last stage of the kernel's arguments
  fun m ρ m' ρ' _ hagree => ⟨fun c => Cert.Bridge.r123 m c,
    (θ_run Cert.KernelIdeal.defs _ _).mono
      (fun _ h c => ⟨(h c).1.trans (Cert.Bridge.kernel_result m ρ c), (h c).2⟩)
      (Cert.KernelIdeal.Run.run_result (F := Ideal) m ρ),
    (θ_run Cert.ReferenceIdeal.defs _ _).mono
      (fun _ h c => ⟨by
          obtain ⟨e0, e1, e2, e3, e4, e5, e6, e7, e8, e9, e10, e11, e12, e13, e14, e15, e16, e17, e18, e19, e20, e21, e22, e23, e24, e25, e26, e27, e28, e29⟩ := hagree c
          rw [(h c).1, Cert.ReferenceIdeal.Read.val_main_v123_eq, e0, e1, e2, e3, e4, e5, e6, e7, e8, e9, e10, e11, e12, e13, e14, e15, e16, e17, e18, e19, e20, e21, e22, e23, e24, e25, e26, e27, e28, e29], (h c).2⟩)
      (Cert.ReferenceIdeal.Value.run (F := Ideal) m' ρ')⟩⟩

end Cert.Proof

end
